-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  IdealRules.named_const.Statement Cert.KernelIdeal.κ "inv_200" .f32 0x3BA3D70A#32 ((1 / 200 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x200 : Shape := ⟨2, ![1024, 200]⟩
abbrev S50000x300 : Shape := ⟨2, ![50000, 300]⟩
abbrev S1x50300 : Shape := ⟨2, ![1, 50300]⟩
abbrev S1 : Shape := ⟨1, ![1]⟩
abbrev S_ : Shape := ⟨0, ![]⟩

class Facts : Prop where
  bcast_S_S50000x300 : S_.BroadcastsInDim S50000x300 (![] : Fin 0 → Fin S50000x300.rank)
  reducesTo_S50000x300_S_d0_1 : S50000x300.ReducesTo [0, 1] S_
  h_S_ : 0 < S_.numel
  bcast_S_S1x50300 : S_.BroadcastsInDim S1x50300 (![] : Fin 0 → Fin S1x50300.rank)
  reducesTo_S1x50300_S_d0_1 : S1x50300.ReducesTo [0, 1] S_
  bcast_S_S1 : S_.BroadcastsInDim S1 (![] : Fin 0 → Fin S1.rank)
  reducesTo_S1_S_d0 : S1.ReducesTo [0] S_
  bcast_S_S1024x200 : S_.BroadcastsInDim S1024x200 (![] : Fin 0 → Fin S1024x200.rank)
  reducesTo_S1024x200_S_d0_1 : S1024x200.ReducesTo [0, 1] S_

variable [Facts]

def fn_part1 {F : FTy → Type} [FloatOps F] (main_arg0 : IVec S1024x200 32) (main_v13 : IVec S_ 1) (main_v15 : IVec S1024x200 1) (main_c_5 : IVec S_ 1) : IVec S_ 1 :=
  let main_v16 : IVec S_ 1 := (fun x v => Host.reduce IntOp.andi x v reducesTo_S1024x200_S_d0_1 h_S_) main_v15 main_c_5
  let main_v17 : IVec S_ 1 := andi main_v13 main_v16
  let main_c_6 : IVec S_ 32 := constantI S_ 32 50000#32
  let main_v18 : IVec S1024x200 32 := broadcastInDim S1024x200 ![] bcast_S_S1024x200 main_c_6
  let main_v19 : IVec S1024x200 1 := cmpi .slt main_arg0 main_v18
  let main_c_7 : IVec S_ 1 := constantI S_ 1 1#1
  let main_v20 : IVec S_ 1 := (fun x v => Host.reduce IntOp.andi x v reducesTo_S1024x200_S_d0_1 h_S_) main_v19 main_c_7
  let main_v21 : IVec S_ 1 := andi main_v17 main_v20
  main_v21

def fn {F : FTy → Type} [FloatOps F] (main_arg0 : IVec S1024x200 32) (main_arg1 : FVec F S50000x300 .f32) (main_arg2 : FVec F S1x50300 .f32) (main_arg3 : FVec F S1 .f32) : IVec S_ 1 :=
  let main_v0 : FVec F S50000x300 .f32 := Host.absf main_arg1
  let main_cst : FVec F S_ .f32 := constant S_ .f32 0x7F800000#32
  let main_v1 : FVec F S50000x300 .f32 := broadcastInDim S50000x300 ![] bcast_S_S50000x300 main_cst
  let main_v2 : IVec S50000x300 1 := cmpf .olt main_v0 main_v1
  let main_c : IVec S_ 1 := constantI S_ 1 1#1
  let main_v3 : IVec S_ 1 := (fun x v => Host.reduce IntOp.andi x v reducesTo_S50000x300_S_d0_1 h_S_) main_v2 main_c
  let main_v4 : FVec F S1x50300 .f32 := Host.absf main_arg2
  let main_cst_0 : FVec F S_ .f32 := constant S_ .f32 0x7F800000#32
  let main_v5 : FVec F S1x50300 .f32 := broadcastInDim S1x50300 ![] bcast_S_S1x50300 main_cst_0
  let main_v6 : IVec S1x50300 1 := cmpf .olt main_v4 main_v5
  let main_c_1 : IVec S_ 1 := constantI S_ 1 1#1
  let main_v7 : IVec S_ 1 := (fun x v => Host.reduce IntOp.andi x v reducesTo_S1x50300_S_d0_1 h_S_) main_v6 main_c_1
  let main_v8 : IVec S_ 1 := andi main_v3 main_v7
  let main_v9 : FVec F S1 .f32 := Host.absf main_arg3
  let main_cst_2 : FVec F S_ .f32 := constant S_ .f32 0x7F800000#32
  let main_v10 : FVec F S1 .f32 := broadcastInDim S1 ![] bcast_S_S1 main_cst_2
  let main_v11 : IVec S1 1 := cmpf .olt main_v9 main_v10
  let main_c_3 : IVec S_ 1 := constantI S_ 1 1#1
  let main_v12 : IVec S_ 1 := (fun x v => Host.reduce IntOp.andi x v reducesTo_S1_S_d0 h_S_) main_v11 main_c_3
  let main_v13 : IVec S_ 1 := andi main_v8 main_v12
  let main_c_4 : IVec S_ 32 := constantI S_ 32 0#32
  let main_v14 : IVec S1024x200 32 := broadcastInDim S1024x200 ![] bcast_S_S1024x200 main_c_4
  let main_v15 : IVec S1024x200 1 := cmpi .sge main_arg0 main_v14
  let main_c_5 : IVec S_ 1 := constantI S_ 1 1#1
  fn_part1 (F := F) main_arg0 main_v13 main_v15 main_c_5
-- ==== Kernel.lean ====
abbrev S1024x200 : Shape := ⟨2, ![1024, 200]⟩
abbrev S50000x300 : Shape := ⟨2, ![50000, 300]⟩
abbrev S1x50300 : Shape := ⟨2, ![1, 50300]⟩
abbrev S1 : Shape := ⟨1, ![1]⟩
abbrev S200x1024 : Shape := ⟨2, ![200, 1024]⟩
abbrev S300x50000 : Shape := ⟨2, ![300, 50000]⟩
abbrev S_ : Shape := ⟨0, ![]⟩
abbrev S300x50176 : Shape := ⟨2, ![300, 50176]⟩
abbrev S1x300 : Shape := ⟨2, ![1, 300]⟩
abbrev S1x50000 : Shape := ⟨2, ![1, 50000]⟩
abbrev S1x50176 : Shape := ⟨2, ![1, 50176]⟩
abbrev S1x1 : Shape := ⟨2, ![1, 1]⟩
abbrev S1x1024 : Shape := ⟨2, ![1, 1024]⟩
abbrev S200x128 : Shape := ⟨2, ![200, 128]⟩
abbrev S300x256 : Shape := ⟨2, ![300, 256]⟩
abbrev S1x256 : Shape := ⟨2, ![1, 256]⟩
abbrev S1x128 : Shape := ⟨2, ![1, 128]⟩
abbrev S300x128 : Shape := ⟨2, ![300, 128]⟩
abbrev S256x1 : Shape := ⟨2, ![256, 1]⟩
abbrev S256x128 : Shape := ⟨2, ![256, 128]⟩
abbrev S128 : Shape := ⟨1, ![128]⟩
abbrev S1024x1 : Shape := ⟨2, ![1024, 1]⟩

abbrev nBuf : Space → Nat
  | .hbm => 20
  | .vmem => 12
  | .smem => 0
  | _ => 0

abbrev bufTy : (tb : Table) → Fin (tcTables nBuf tb) → BufTy
  | .hbm, ⟨0, _⟩ => ⟨S1024x200, .i32⟩
  | .hbm, ⟨1, _⟩ => ⟨S50000x300, .f32⟩
  | .hbm, ⟨2, _⟩ => ⟨S1x50300, .f32⟩
  | .hbm, ⟨3, _⟩ => ⟨S1, .f32⟩
  | .hbm, ⟨4, _⟩ => ⟨S200x1024, .i32⟩
  | .hbm, ⟨5, _⟩ => ⟨S300x50000, .f32⟩
  | .hbm, ⟨6, _⟩ => ⟨S_, .i32⟩
  | .hbm, ⟨7, _⟩ => ⟨S_, .f32⟩
  | .hbm, ⟨8, _⟩ => ⟨S300x50176, .f32⟩
  | .hbm, ⟨9, _⟩ => ⟨S300x50176, .bf16⟩
  | .hbm, ⟨10, _⟩ => ⟨S1x300, .f32⟩
  | .hbm, ⟨11, _⟩ => ⟨S1x300, .bf16⟩
  | .hbm, ⟨12, _⟩ => ⟨S1x50000, .f32⟩
  | .hbm, ⟨13, _⟩ => ⟨S_, .i32⟩
  | .hbm, ⟨14, _⟩ => ⟨S_, .f32⟩
  | .hbm, ⟨15, _⟩ => ⟨S1x50176, .f32⟩
  | .hbm, ⟨16, _⟩ => ⟨S1x50176, .bf16⟩
  | .hbm, ⟨17, _⟩ => ⟨S1x1, .f32⟩
  | .hbm, ⟨18, _⟩ => ⟨S1x1024, .f32⟩
  | .hbm, ⟨19, _⟩ => ⟨S1024x1, .f32⟩
  | .local _ .vmem, ⟨0, _⟩ => ⟨S200x128, .i32⟩
  | .local _ .vmem, ⟨1, _⟩ => ⟨S200x128, .i32⟩
  | .local _ .vmem, ⟨2, _⟩ => ⟨S300x256, .bf16⟩
  | .local _ .vmem, ⟨3, _⟩ => ⟨S300x256, .bf16⟩
  | .local _ .vmem, ⟨4, _⟩ => ⟨S1x256, .bf16⟩
  | .local _ .vmem, ⟨5, _⟩ => ⟨S1x256, .bf16⟩
  | .local _ .vmem, ⟨6, _⟩ => ⟨S1x300, .bf16⟩
  | .local _ .vmem, ⟨7, _⟩ => ⟨S1x1, .f32⟩
  | .local _ .vmem, ⟨8, _⟩ => ⟨S1x128, .f32⟩
  | .local _ .vmem, ⟨9, _⟩ => ⟨S1x128, .f32⟩
  | .local _ .vmem, ⟨10, _⟩ => ⟨S300x128, .f32⟩
  | .local _ .vmem, ⟨11, _⟩ => ⟨S1x128, .f32⟩
  | _, _ => ⟨S1024x200, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_call0_v0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_c_0 : Ref sig .tc := ⟨.hbm, 13, rfl⟩
abbrev main_call1_v0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![8, 196], ![false, false]⟩

def k0_cond2 (i : grid0.Coords) : BitVec 1 :=
  let arg1 : BitVec 32 := BitVec.ofNat 32 (i 1).val
  let c195_i32 : BitVec 32 := 195#32
  let v1830 : BitVec 1 := Scalar.cmpi .eq arg1 c195_i32
  let v1831 : BitVec 32 := Scalar.extui v1830
  let c0_i32_216 : BitVec 32 := 0#32
  let v1832 : BitVec 1 := Scalar.cmpi .ne v1831 c0_i32_216
  v1832

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S200x128 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S300x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S1x300 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

class Facts₀ : Prop where
  transposes_S1024x200_S200x1024_1_0 : S1024x200.Transposes [1, 0] S200x1024
  transposes_S50000x300_S300x50000_1_0 : S50000x300.Transposes [1, 0] S300x50000
  pads_S300x50000_S300x50176_000_01760 : S300x50000.Pads (![0, 0] : Fin 2 → Nat) ![0, 176] ![0, 0] S300x50176
  h_S_ : 0 < S_.numel
  bitsLt_bf16_f32 : FTy.bits .bf16 < FTy.bits .f32
  slices_S1x50300_S1x300_0_0 : S1x50300.Slices ![0, 0] S1x300
  slices_S1x50300_S1x50000_0_300 : S1x50300.Slices ![0, 300] S1x50000
  pads_S1x50000_S1x50176_000_01760 : S1x50000.Pads (![0, 0] : Fin 2 → Nat) ![0, 176] ![0, 0] S1x50176
  shapeCasts_S1_S1x1 : S1.ShapeCasts S1x1
  inb_S300x128_S300x128_0_0 : ∀ a, (![0, 0] : Fin 2 → Nat) a + S300x128.size a ≤ S300x128.size a
  h_S300x128 : 0 < S300x128.numel
  shapeCasts_S300x128_S300x128 : S300x128.ShapeCasts S300x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  iota_S256x1_d0_w32 : S256x1.Iotas .tc 32 [0]
  inb_S200x128_S1x128_0_0 : ∀ a, (![0, 0] : Fin 2 → Nat) a + S1x128.size a ≤ S200x128.size a
  shapeCasts_S1x128_S128 : S1x128.ShapeCasts S128
  shapeCasts_S128_S1x128 : S128.ShapeCasts S1x128
  broadcasts_S256x1_S256x128 : S256x1.Broadcasts S256x128
  broadcasts_S1x128_S256x128 : S1x128.Broadcasts S256x128
  natLt_1_32 : 1 < 32
  inb_S200x128_S1x128_1_0 : ∀ a, (![1, 0] : Fin 2 → Nat) a + S1x128.size a ≤ S200x128.size a
  inb_S200x128_S1x128_2_0 : ∀ a, (![2, 0] : Fin 2 → Nat) a + S1x128.size a ≤ S200x128.size a
  inb_S200x128_S1x128_3_0 : ∀ a, (![3, 0] : Fin 2 → Nat) a + S1x128.size a ≤ S200x128.size a
  inb_S200x128_S1x128_4_0 : ∀ a, (![4, 0] : Fin 2 → Nat) a + S1x128.size a ≤ S200x128.size a
  inb_S200x128_S1x128_5_0 : ∀ a, (![5, 0] : Fin 2 → Nat) a + S1x128.size a ≤ S200x128.size a
  inb_S200x128_S1x128_6_0 : ∀ a, (![6, 0] : Fin 2 → Nat) a + S1x128.size a ≤ S200x128.size a
  inb_S200x128_S1x128_7_0 : ∀ a, (![7, 0] : Fin 2 → Nat) a + S1x128.size a ≤ S200x128.size a
  inb_S200x128_S1x128_8_0 : ∀ a, (![8, 0] : Fin 2 → Nat) a + S1x128.size a ≤ S200x128.size a
  inb_S200x128_S1x128_9_0 : ∀ a, (![9, 0] : Fin 2 → Nat) a + S1x128.size a ≤ S200x128.size a
  inb_S200x128_S1x128_10_0 : ∀ a, (![10, 0] : Fin 2 → Nat) a + S1x128.size a ≤ S200x128.size a
  inb_S200x128_S1x128_11_0 : ∀ a, (![11, 0] : Fin 2 → Nat) a + S1x128.size a ≤ S200x128.size a
  inb_S200x128_S1x128_12_0 : ∀ a, (![12, 0] : Fin 2 → Nat) a + S1x128.size a ≤ S200x128.size a
  inb_S200x128_S1x128_13_0 : ∀ a, (![13, 0] : Fin 2 → Nat) a + S1x128.size a ≤ S200x128.size a
  inb_S200x128_S1x128_14_0 : ∀ a, (![14, 0] : Fin 2 → Nat) a + S1x128.size a ≤ S200x128.size a
  inb_S200x128_S1x128_15_0 : ∀ a, (![15, 0] : Fin 2 → Nat) a + S1x128.size a ≤ S200x128.size a
  inb_S200x128_S1x128_16_0 : ∀ a, (![16, 0] : Fin 2 → Nat) a + S1x128.size a ≤ S200x128.size a
  inb_S200x128_S1x128_17_0 : ∀ a, (![17, 0] : Fin 2 → Nat) a + S1x128.size a ≤ S200x128.size a
  inb_S200x128_S1x128_18_0 : ∀ a, (![18, 0] : Fin 2 → Nat) a + S1x128.size a ≤ S200x128.size a
  inb_S200x128_S1x128_19_0 : ∀ a, (![19, 0] : Fin 2 → Nat) a + S1x128.size a ≤ S200x128.size a
  inb_S200x128_S1x128_20_0 : ∀ a, (![20, 0] : Fin 2 → Nat) a + S1x128.size a ≤ S200x128.size a
  inb_S200x128_S1x128_21_0 : ∀ a, (![21, 0] : Fin 2 → Nat) a + S1x128.size a ≤ S200x128.size a
  inb_S200x128_S1x128_22_0 : ∀ a, (![22, 0] : Fin 2 → Nat) a + S1x128.size a ≤ S200x128.size a
  inb_S200x128_S1x128_23_0 : ∀ a, (![23, 0] : Fin 2 → Nat) a + S1x128.size a ≤ S200x128.size a
  inb_S200x128_S1x128_24_0 : ∀ a, (![24, 0] : Fin 2 → Nat) a + S1x128.size a ≤ S200x128.size a
  inb_S200x128_S1x128_25_0 : ∀ a, (![25, 0] : Fin 2 → Nat) a + S1x128.size a ≤ S200x128.size a
  inb_S200x128_S1x128_26_0 : ∀ a, (![26, 0] : Fin 2 → Nat) a + S1x128.size a ≤ S200x128.size a
  inb_S200x128_S1x128_27_0 : ∀ a, (![27, 0] : Fin 2 → Nat) a + S1x128.size a ≤ S200x128.size a
  inb_S200x128_S1x128_28_0 : ∀ a, (![28, 0] : Fin 2 → Nat) a + S1x128.size a ≤ S200x128.size a
  inb_S200x128_S1x128_29_0 : ∀ a, (![29, 0] : Fin 2 → Nat) a + S1x128.size a ≤ S200x128.size a
  inb_S200x128_S1x128_30_0 : ∀ a, (![30, 0] : Fin 2 → Nat) a + S1x128.size a ≤ S200x128.size a
  inb_S200x128_S1x128_31_0 : ∀ a, (![31, 0] : Fin 2 → Nat) a + S1x128.size a ≤ S200x128.size a
  inb_S200x128_S1x128_32_0 : ∀ a, (![32, 0] : Fin 2 → Nat) a + S1x128.size a ≤ S200x128.size a
  inb_S200x128_S1x128_33_0 : ∀ a, (![33, 0] : Fin 2 → Nat) a + S1x128.size a ≤ S200x128.size a
  inb_S200x128_S1x128_34_0 : ∀ a, (![34, 0] : Fin 2 → Nat) a + S1x128.size a ≤ S200x128.size a
  inb_S200x128_S1x128_35_0 : ∀ a, (![35, 0] : Fin 2 → Nat) a + S1x128.size a ≤ S200x128.size a
  inb_S200x128_S1x128_36_0 : ∀ a, (![36, 0] : Fin 2 → Nat) a + S1x128.size a ≤ S200x128.size a
  inb_S200x128_S1x128_37_0 : ∀ a, (![37, 0] : Fin 2 → Nat) a + S1x128.size a ≤ S200x128.size a
  inb_S200x128_S1x128_38_0 : ∀ a, (![38, 0] : Fin 2 → Nat) a + S1x128.size a ≤ S200x128.size a
  inb_S200x128_S1x128_39_0 : ∀ a, (![39, 0] : Fin 2 → Nat) a + S1x128.size a ≤ S200x128.size a
  inb_S200x128_S1x128_40_0 : ∀ a, (![40, 0] : Fin 2 → Nat) a + S1x128.size a ≤ S200x128.size a
  inb_S200x128_S1x128_41_0 : ∀ a, (![41, 0] : Fin 2 → Nat) a + S1x128.size a ≤ S200x128.size a
  inb_S200x128_S1x128_42_0 : ∀ a, (![42, 0] : Fin 2 → Nat) a + S1x128.size a ≤ S200x128.size a
  inb_S200x128_S1x128_43_0 : ∀ a, (![43, 0] : Fin 2 → Nat) a + S1x128.size a ≤ S200x128.size a
  inb_S200x128_S1x128_44_0 : ∀ a, (![44, 0] : Fin 2 → Nat) a + S1x128.size a ≤ S200x128.size a
  inb_S200x128_S1x128_45_0 : ∀ a, (![45, 0] : Fin 2 → Nat) a + S1x128.size a ≤ S200x128.size a
  inb_S200x128_S1x128_46_0 : ∀ a, (![46, 0] : Fin 2 → Nat) a + S1x128.size a ≤ S200x128.size a
  inb_S200x128_S1x128_47_0 : ∀ a, (![47, 0] : Fin 2 → Nat) a + S1x128.size a ≤ S200x128.size a
  inb_S200x128_S1x128_48_0 : ∀ a, (![48, 0] : Fin 2 → Nat) a + S1x128.size a ≤ S200x128.size a
  inb_S200x128_S1x128_49_0 : ∀ a, (![49, 0] : Fin 2 → Nat) a + S1x128.size a ≤ S200x128.size a
  inb_S200x128_S1x128_50_0 : ∀ a, (![50, 0] : Fin 2 → Nat) a + S1x128.size a ≤ S200x128.size a
  inb_S200x128_S1x128_51_0 : ∀ a, (![51, 0] : Fin 2 → Nat) a + S1x128.size a ≤ S200x128.size a
  inb_S200x128_S1x128_52_0 : ∀ a, (![52, 0] : Fin 2 → Nat) a + S1x128.size a ≤ S200x128.size a
  inb_S200x128_S1x128_53_0 : ∀ a, (![53, 0] : Fin 2 → Nat) a + S1x128.size a ≤ S200x128.size a
  inb_S200x128_S1x128_54_0 : ∀ a, (![54, 0] : Fin 2 → Nat) a + S1x128.size a ≤ S200x128.size a
  inb_S200x128_S1x128_55_0 : ∀ a, (![55, 0] : Fin 2 → Nat) a + S1x128.size a ≤ S200x128.size a
  inb_S200x128_S1x128_56_0 : ∀ a, (![56, 0] : Fin 2 → Nat) a + S1x128.size a ≤ S200x128.size a
  inb_S200x128_S1x128_57_0 : ∀ a, (![57, 0] : Fin 2 → Nat) a + S1x128.size a ≤ S200x128.size a
  inb_S200x128_S1x128_58_0 : ∀ a, (![58, 0] : Fin 2 → Nat) a + S1x128.size a ≤ S200x128.size a
  inb_S200x128_S1x128_59_0 : ∀ a, (![59, 0] : Fin 2 → Nat) a + S1x128.size a ≤ S200x128.size a
  inb_S200x128_S1x128_60_0 : ∀ a, (![60, 0] : Fin 2 → Nat) a + S1x128.size a ≤ S200x128.size a
  inb_S200x128_S1x128_61_0 : ∀ a, (![61, 0] : Fin 2 → Nat) a + S1x128.size a ≤ S200x128.size a
  inb_S200x128_S1x128_62_0 : ∀ a, (![62, 0] : Fin 2 → Nat) a + S1x128.size a ≤ S200x128.size a
  inb_S200x128_S1x128_63_0 : ∀ a, (![63, 0] : Fin 2 → Nat) a + S1x128.size a ≤ S200x128.size a
  inb_S200x128_S1x128_64_0 : ∀ a, (![64, 0] : Fin 2 → Nat) a + S1x128.size a ≤ S200x128.size a
  inb_S200x128_S1x128_65_0 : ∀ a, (![65, 0] : Fin 2 → Nat) a + S1x128.size a ≤ S200x128.size a
  inb_S200x128_S1x128_66_0 : ∀ a, (![66, 0] : Fin 2 → Nat) a + S1x128.size a ≤ S200x128.size a
  inb_S200x128_S1x128_67_0 : ∀ a, (![67, 0] : Fin 2 → Nat) a + S1x128.size a ≤ S200x128.size a
  inb_S200x128_S1x128_68_0 : ∀ a, (![68, 0] : Fin 2 → Nat) a + S1x128.size a ≤ S200x128.size a
  inb_S200x128_S1x128_69_0 : ∀ a, (![69, 0] : Fin 2 → Nat) a + S1x128.size a ≤ S200x128.size a
  inb_S200x128_S1x128_70_0 : ∀ a, (![70, 0] : Fin 2 → Nat) a + S1x128.size a ≤ S200x128.size a
  inb_S200x128_S1x128_71_0 : ∀ a, (![71, 0] : Fin 2 → Nat) a + S1x128.size a ≤ S200x128.size a
  inb_S200x128_S1x128_72_0 : ∀ a, (![72, 0] : Fin 2 → Nat) a + S1x128.size a ≤ S200x128.size a
  inb_S200x128_S1x128_73_0 : ∀ a, (![73, 0] : Fin 2 → Nat) a + S1x128.size a ≤ S200x128.size a
  inb_S200x128_S1x128_74_0 : ∀ a, (![74, 0] : Fin 2 → Nat) a + S1x128.size a ≤ S200x128.size a
  inb_S200x128_S1x128_75_0 : ∀ a, (![75, 0] : Fin 2 → Nat) a + S1x128.size a ≤ S200x128.size a
  inb_S200x128_S1x128_76_0 : ∀ a, (![76, 0] : Fin 2 → Nat) a + S1x128.size a ≤ S200x128.size a
  inb_S200x128_S1x128_77_0 : ∀ a, (![77, 0] : Fin 2 → Nat) a + S1x128.size a ≤ S200x128.size a
  inb_S200x128_S1x128_78_0 : ∀ a, (![78, 0] : Fin 2 → Nat) a + S1x128.size a ≤ S200x128.size a
  inb_S200x128_S1x128_79_0 : ∀ a, (![79, 0] : Fin 2 → Nat) a + S1x128.size a ≤ S200x128.size a
  inb_S200x128_S1x128_80_0 : ∀ a, (![80, 0] : Fin 2 → Nat) a + S1x128.size a ≤ S200x128.size a
  inb_S200x128_S1x128_81_0 : ∀ a, (![81, 0] : Fin 2 → Nat) a + S1x128.size a ≤ S200x128.size a
  inb_S200x128_S1x128_82_0 : ∀ a, (![82, 0] : Fin 2 → Nat) a + S1x128.size a ≤ S200x128.size a
  inb_S200x128_S1x128_83_0 : ∀ a, (![83, 0] : Fin 2 → Nat) a + S1x128.size a ≤ S200x128.size a
  inb_S200x128_S1x128_84_0 : ∀ a, (![84, 0] : Fin 2 → Nat) a + S1x128.size a ≤ S200x128.size a
  inb_S200x128_S1x128_85_0 : ∀ a, (![85, 0] : Fin 2 → Nat) a + S1x128.size a ≤ S200x128.size a
  inb_S200x128_S1x128_86_0 : ∀ a, (![86, 0] : Fin 2 → Nat) a + S1x128.size a ≤ S200x128.size a
  inb_S200x128_S1x128_87_0 : ∀ a, (![87, 0] : Fin 2 → Nat) a + S1x128.size a ≤ S200x128.size a
  inb_S200x128_S1x128_88_0 : ∀ a, (![88, 0] : Fin 2 → Nat) a + S1x128.size a ≤ S200x128.size a
  inb_S200x128_S1x128_89_0 : ∀ a, (![89, 0] : Fin 2 → Nat) a + S1x128.size a ≤ S200x128.size a
  inb_S200x128_S1x128_90_0 : ∀ a, (![90, 0] : Fin 2 → Nat) a + S1x128.size a ≤ S200x128.size a
  inb_S200x128_S1x128_91_0 : ∀ a, (![91, 0] : Fin 2 → Nat) a + S1x128.size a ≤ S200x128.size a
  inb_S200x128_S1x128_92_0 : ∀ a, (![92, 0] : Fin 2 → Nat) a + S1x128.size a ≤ S200x128.size a
  inb_S200x128_S1x128_93_0 : ∀ a, (![93, 0] : Fin 2 → Nat) a + S1x128.size a ≤ S200x128.size a
  inb_S200x128_S1x128_94_0 : ∀ a, (![94, 0] : Fin 2 → Nat) a + S1x128.size a ≤ S200x128.size a
  inb_S200x128_S1x128_95_0 : ∀ a, (![95, 0] : Fin 2 → Nat) a + S1x128.size a ≤ S200x128.size a
  inb_S200x128_S1x128_96_0 : ∀ a, (![96, 0] : Fin 2 → Nat) a + S1x128.size a ≤ S200x128.size a
  inb_S200x128_S1x128_97_0 : ∀ a, (![97, 0] : Fin 2 → Nat) a + S1x128.size a ≤ S200x128.size a
  inb_S200x128_S1x128_98_0 : ∀ a, (![98, 0] : Fin 2 → Nat) a + S1x128.size a ≤ S200x128.size a
  inb_S200x128_S1x128_99_0 : ∀ a, (![99, 0] : Fin 2 → Nat) a + S1x128.size a ≤ S200x128.size a
  inb_S200x128_S1x128_100_0 : ∀ a, (![100, 0] : Fin 2 → Nat) a + S1x128.size a ≤ S200x128.size a
  inb_S200x128_S1x128_101_0 : ∀ a, (![101, 0] : Fin 2 → Nat) a + S1x128.size a ≤ S200x128.size a
  inb_S200x128_S1x128_102_0 : ∀ a, (![102, 0] : Fin 2 → Nat) a + S1x128.size a ≤ S200x128.size a
  inb_S200x128_S1x128_103_0 : ∀ a, (![103, 0] : Fin 2 → Nat) a + S1x128.size a ≤ S200x128.size a
  inb_S200x128_S1x128_104_0 : ∀ a, (![104, 0] : Fin 2 → Nat) a + S1x128.size a ≤ S200x128.size a
  inb_S200x128_S1x128_105_0 : ∀ a, (![105, 0] : Fin 2 → Nat) a + S1x128.size a ≤ S200x128.size a
  inb_S200x128_S1x128_106_0 : ∀ a, (![106, 0] : Fin 2 → Nat) a + S1x128.size a ≤ S200x128.size a
  inb_S200x128_S1x128_107_0 : ∀ a, (![107, 0] : Fin 2 → Nat) a + S1x128.size a ≤ S200x128.size a
  inb_S200x128_S1x128_108_0 : ∀ a, (![108, 0] : Fin 2 → Nat) a + S1x128.size a ≤ S200x128.size a
  inb_S200x128_S1x128_109_0 : ∀ a, (![109, 0] : Fin 2 → Nat) a + S1x128.size a ≤ S200x128.size a
  inb_S200x128_S1x128_110_0 : ∀ a, (![110, 0] : Fin 2 → Nat) a + S1x128.size a ≤ S200x128.size a
  inb_S200x128_S1x128_111_0 : ∀ a, (![111, 0] : Fin 2 → Nat) a + S1x128.size a ≤ S200x128.size a
  inb_S200x128_S1x128_112_0 : ∀ a, (![112, 0] : Fin 2 → Nat) a + S1x128.size a ≤ S200x128.size a
  inb_S200x128_S1x128_113_0 : ∀ a, (![113, 0] : Fin 2 → Nat) a + S1x128.size a ≤ S200x128.size a
  inb_S200x128_S1x128_114_0 : ∀ a, (![114, 0] : Fin 2 → Nat) a + S1x128.size a ≤ S200x128.size a
  inb_S200x128_S1x128_115_0 : ∀ a, (![115, 0] : Fin 2 → Nat) a + S1x128.size a ≤ S200x128.size a
  inb_S200x128_S1x128_116_0 : ∀ a, (![116, 0] : Fin 2 → Nat) a + S1x128.size a ≤ S200x128.size a
  inb_S200x128_S1x128_117_0 : ∀ a, (![117, 0] : Fin 2 → Nat) a + S1x128.size a ≤ S200x128.size a
  inb_S200x128_S1x128_118_0 : ∀ a, (![118, 0] : Fin 2 → Nat) a + S1x128.size a ≤ S200x128.size a
  inb_S200x128_S1x128_119_0 : ∀ a, (![119, 0] : Fin 2 → Nat) a + S1x128.size a ≤ S200x128.size a
  inb_S200x128_S1x128_120_0 : ∀ a, (![120, 0] : Fin 2 → Nat) a + S1x128.size a ≤ S200x128.size a
  inb_S200x128_S1x128_121_0 : ∀ a, (![121, 0] : Fin 2 → Nat) a + S1x128.size a ≤ S200x128.size a
  inb_S200x128_S1x128_122_0 : ∀ a, (![122, 0] : Fin 2 → Nat) a + S1x128.size a ≤ S200x128.size a
  inb_S200x128_S1x128_123_0 : ∀ a, (![123, 0] : Fin 2 → Nat) a + S1x128.size a ≤ S200x128.size a
  inb_S200x128_S1x128_124_0 : ∀ a, (![124, 0] : Fin 2 → Nat) a + S1x128.size a ≤ S200x128.size a
  inb_S200x128_S1x128_125_0 : ∀ a, (![125, 0] : Fin 2 → Nat) a + S1x128.size a ≤ S200x128.size a
  inb_S200x128_S1x128_126_0 : ∀ a, (![126, 0] : Fin 2 → Nat) a + S1x128.size a ≤ S200x128.size a
  inb_S200x128_S1x128_127_0 : ∀ a, (![127, 0] : Fin 2 → Nat) a + S1x128.size a ≤ S200x128.size a
  inb_S200x128_S1x128_128_0 : ∀ a, (![128, 0] : Fin 2 → Nat) a + S1x128.size a ≤ S200x128.size a
  inb_S200x128_S1x128_129_0 : ∀ a, (![129, 0] : Fin 2 → Nat) a + S1x128.size a ≤ S200x128.size a
  inb_S200x128_S1x128_130_0 : ∀ a, (![130, 0] : Fin 2 → Nat) a + S1x128.size a ≤ S200x128.size a
  inb_S200x128_S1x128_131_0 : ∀ a, (![131, 0] : Fin 2 → Nat) a + S1x128.size a ≤ S200x128.size a
  inb_S200x128_S1x128_132_0 : ∀ a, (![132, 0] : Fin 2 → Nat) a + S1x128.size a ≤ S200x128.size a
  inb_S200x128_S1x128_133_0 : ∀ a, (![133, 0] : Fin 2 → Nat) a + S1x128.size a ≤ S200x128.size a
  inb_S200x128_S1x128_134_0 : ∀ a, (![134, 0] : Fin 2 → Nat) a + S1x128.size a ≤ S200x128.size a
  inb_S200x128_S1x128_135_0 : ∀ a, (![135, 0] : Fin 2 → Nat) a + S1x128.size a ≤ S200x128.size a
  inb_S200x128_S1x128_136_0 : ∀ a, (![136, 0] : Fin 2 → Nat) a + S1x128.size a ≤ S200x128.size a
  inb_S200x128_S1x128_137_0 : ∀ a, (![137, 0] : Fin 2 → Nat) a + S1x128.size a ≤ S200x128.size a
  inb_S200x128_S1x128_138_0 : ∀ a, (![138, 0] : Fin 2 → Nat) a + S1x128.size a ≤ S200x128.size a
  inb_S200x128_S1x128_139_0 : ∀ a, (![139, 0] : Fin 2 → Nat) a + S1x128.size a ≤ S200x128.size a
  inb_S200x128_S1x128_140_0 : ∀ a, (![140, 0] : Fin 2 → Nat) a + S1x128.size a ≤ S200x128.size a
  inb_S200x128_S1x128_141_0 : ∀ a, (![141, 0] : Fin 2 → Nat) a + S1x128.size a ≤ S200x128.size a
  inb_S200x128_S1x128_142_0 : ∀ a, (![142, 0] : Fin 2 → Nat) a + S1x128.size a ≤ S200x128.size a
  inb_S200x128_S1x128_143_0 : ∀ a, (![143, 0] : Fin 2 → Nat) a + S1x128.size a ≤ S200x128.size a
  inb_S200x128_S1x128_144_0 : ∀ a, (![144, 0] : Fin 2 → Nat) a + S1x128.size a ≤ S200x128.size a
  inb_S200x128_S1x128_145_0 : ∀ a, (![145, 0] : Fin 2 → Nat) a + S1x128.size a ≤ S200x128.size a
  inb_S200x128_S1x128_146_0 : ∀ a, (![146, 0] : Fin 2 → Nat) a + S1x128.size a ≤ S200x128.size a
  inb_S200x128_S1x128_147_0 : ∀ a, (![147, 0] : Fin 2 → Nat) a + S1x128.size a ≤ S200x128.size a
  inb_S200x128_S1x128_148_0 : ∀ a, (![148, 0] : Fin 2 → Nat) a + S1x128.size a ≤ S200x128.size a
  inb_S200x128_S1x128_149_0 : ∀ a, (![149, 0] : Fin 2 → Nat) a + S1x128.size a ≤ S200x128.size a
  inb_S200x128_S1x128_150_0 : ∀ a, (![150, 0] : Fin 2 → Nat) a + S1x128.size a ≤ S200x128.size a
  inb_S200x128_S1x128_151_0 : ∀ a, (![151, 0] : Fin 2 → Nat) a + S1x128.size a ≤ S200x128.size a
  inb_S200x128_S1x128_152_0 : ∀ a, (![152, 0] : Fin 2 → Nat) a + S1x128.size a ≤ S200x128.size a
  inb_S200x128_S1x128_153_0 : ∀ a, (![153, 0] : Fin 2 → Nat) a + S1x128.size a ≤ S200x128.size a
  inb_S200x128_S1x128_154_0 : ∀ a, (![154, 0] : Fin 2 → Nat) a + S1x128.size a ≤ S200x128.size a
  inb_S200x128_S1x128_155_0 : ∀ a, (![155, 0] : Fin 2 → Nat) a + S1x128.size a ≤ S200x128.size a
  inb_S200x128_S1x128_156_0 : ∀ a, (![156, 0] : Fin 2 → Nat) a + S1x128.size a ≤ S200x128.size a
  inb_S200x128_S1x128_157_0 : ∀ a, (![157, 0] : Fin 2 → Nat) a + S1x128.size a ≤ S200x128.size a
  inb_S200x128_S1x128_158_0 : ∀ a, (![158, 0] : Fin 2 → Nat) a + S1x128.size a ≤ S200x128.size a
  inb_S200x128_S1x128_159_0 : ∀ a, (![159, 0] : Fin 2 → Nat) a + S1x128.size a ≤ S200x128.size a
  inb_S200x128_S1x128_160_0 : ∀ a, (![160, 0] : Fin 2 → Nat) a + S1x128.size a ≤ S200x128.size a
  inb_S200x128_S1x128_161_0 : ∀ a, (![161, 0] : Fin 2 → Nat) a + S1x128.size a ≤ S200x128.size a
  inb_S200x128_S1x128_162_0 : ∀ a, (![162, 0] : Fin 2 → Nat) a + S1x128.size a ≤ S200x128.size a
  inb_S200x128_S1x128_163_0 : ∀ a, (![163, 0] : Fin 2 → Nat) a + S1x128.size a ≤ S200x128.size a
  inb_S200x128_S1x128_164_0 : ∀ a, (![164, 0] : Fin 2 → Nat) a + S1x128.size a ≤ S200x128.size a
  inb_S200x128_S1x128_165_0 : ∀ a, (![165, 0] : Fin 2 → Nat) a + S1x128.size a ≤ S200x128.size a
  inb_S200x128_S1x128_166_0 : ∀ a, (![166, 0] : Fin 2 → Nat) a + S1x128.size a ≤ S200x128.size a
  inb_S200x128_S1x128_167_0 : ∀ a, (![167, 0] : Fin 2 → Nat) a + S1x128.size a ≤ S200x128.size a
  inb_S200x128_S1x128_168_0 : ∀ a, (![168, 0] : Fin 2 → Nat) a + S1x128.size a ≤ S200x128.size a
  inb_S200x128_S1x128_169_0 : ∀ a, (![169, 0] : Fin 2 → Nat) a + S1x128.size a ≤ S200x128.size a
  inb_S200x128_S1x128_170_0 : ∀ a, (![170, 0] : Fin 2 → Nat) a + S1x128.size a ≤ S200x128.size a
  inb_S200x128_S1x128_171_0 : ∀ a, (![171, 0] : Fin 2 → Nat) a + S1x128.size a ≤ S200x128.size a
  inb_S200x128_S1x128_172_0 : ∀ a, (![172, 0] : Fin 2 → Nat) a + S1x128.size a ≤ S200x128.size a
  inb_S200x128_S1x128_173_0 : ∀ a, (![173, 0] : Fin 2 → Nat) a + S1x128.size a ≤ S200x128.size a
  inb_S200x128_S1x128_174_0 : ∀ a, (![174, 0] : Fin 2 → Nat) a + S1x128.size a ≤ S200x128.size a
  inb_S200x128_S1x128_175_0 : ∀ a, (![175, 0] : Fin 2 → Nat) a + S1x128.size a ≤ S200x128.size a
  inb_S200x128_S1x128_176_0 : ∀ a, (![176, 0] : Fin 2 → Nat) a + S1x128.size a ≤ S200x128.size a
  inb_S200x128_S1x128_177_0 : ∀ a, (![177, 0] : Fin 2 → Nat) a + S1x128.size a ≤ S200x128.size a
  inb_S200x128_S1x128_178_0 : ∀ a, (![178, 0] : Fin 2 → Nat) a + S1x128.size a ≤ S200x128.size a
  inb_S200x128_S1x128_179_0 : ∀ a, (![179, 0] : Fin 2 → Nat) a + S1x128.size a ≤ S200x128.size a
  inb_S200x128_S1x128_180_0 : ∀ a, (![180, 0] : Fin 2 → Nat) a + S1x128.size a ≤ S200x128.size a
  inb_S200x128_S1x128_181_0 : ∀ a, (![181, 0] : Fin 2 → Nat) a + S1x128.size a ≤ S200x128.size a
  inb_S200x128_S1x128_182_0 : ∀ a, (![182, 0] : Fin 2 → Nat) a + S1x128.size a ≤ S200x128.size a
  inb_S200x128_S1x128_183_0 : ∀ a, (![183, 0] : Fin 2 → Nat) a + S1x128.size a ≤ S200x128.size a
  inb_S200x128_S1x128_184_0 : ∀ a, (![184, 0] : Fin 2 → Nat) a + S1x128.size a ≤ S200x128.size a
  inb_S200x128_S1x128_185_0 : ∀ a, (![185, 0] : Fin 2 → Nat) a + S1x128.size a ≤ S200x128.size a
  inb_S200x128_S1x128_186_0 : ∀ a, (![186, 0] : Fin 2 → Nat) a + S1x128.size a ≤ S200x128.size a
  inb_S200x128_S1x128_187_0 : ∀ a, (![187, 0] : Fin 2 → Nat) a + S1x128.size a ≤ S200x128.size a
  inb_S200x128_S1x128_188_0 : ∀ a, (![188, 0] : Fin 2 → Nat) a + S1x128.size a ≤ S200x128.size a
  inb_S200x128_S1x128_189_0 : ∀ a, (![189, 0] : Fin 2 → Nat) a + S1x128.size a ≤ S200x128.size a
  inb_S200x128_S1x128_190_0 : ∀ a, (![190, 0] : Fin 2 → Nat) a + S1x128.size a ≤ S200x128.size a
  inb_S200x128_S1x128_191_0 : ∀ a, (![191, 0] : Fin 2 → Nat) a + S1x128.size a ≤ S200x128.size a
  inb_S200x128_S1x128_192_0 : ∀ a, (![192, 0] : Fin 2 → Nat) a + S1x128.size a ≤ S200x128.size a
  inb_S200x128_S1x128_193_0 : ∀ a, (![193, 0] : Fin 2 → Nat) a + S1x128.size a ≤ S200x128.size a
  inb_S200x128_S1x128_194_0 : ∀ a, (![194, 0] : Fin 2 → Nat) a + S1x128.size a ≤ S200x128.size a
  inb_S200x128_S1x128_195_0 : ∀ a, (![195, 0] : Fin 2 → Nat) a + S1x128.size a ≤ S200x128.size a
  inb_S200x128_S1x128_196_0 : ∀ a, (![196, 0] : Fin 2 → Nat) a + S1x128.size a ≤ S200x128.size a
  inb_S200x128_S1x128_197_0 : ∀ a, (![197, 0] : Fin 2 → Nat) a + S1x128.size a ≤ S200x128.size a
  inb_S200x128_S1x128_198_0 : ∀ a, (![198, 0] : Fin 2 → Nat) a + S1x128.size a ≤ S200x128.size a
  inb_S200x128_S1x128_199_0 : ∀ a, (![199, 0] : Fin 2 → Nat) a + S1x128.size a ≤ S200x128.size a
  inb_S300x256_S300x256_0_0 : ∀ a, (![0, 0] : Fin 2 → Nat) a + S300x256.size a ≤ S300x256.size a
  h_S300x256 : 0 < S300x256.numel
  shapeCasts_S300x256_S300x256 : S300x256.ShapeCasts S300x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  inb_S1x300_S1x300_0_0 : ∀ a, (![0, 0] : Fin 2 → Nat) a + S1x300.size a ≤ S1x300.size a
  h_S1x300 : 0 < S1x300.numel
  shapeCasts_S1x300_S1x300 : S1x300.ShapeCasts S1x300
  inb_S1x1_S1x1_0_0 : ∀ a, (![0, 0] : Fin 2 → Nat) a + S1x1.size a ≤ S1x1.size a
  h_S1x1 : 0 < S1x1.numel
  inpos_S1x1_p0_0 : ∀ a, (![0, 0] : Fin 2 → Nat) a < S1x1.size a
  transposes_S1x1024_S1024x1_1_0 : S1x1024.Transposes [1, 0] S1024x1
  dot_S300x256_S256x128_S300x128_1_0_0_1_n_n_wf : DotDims.WF S300x256 S256x128 S300x128 [1] [0] [0] [1] [] []
  dot_S1x256_S256x128_S1x128_1_0_0_1_n_n_wf : DotDims.WF S1x256 S256x128 S1x128 [1] [0] [0] [1] [] []
  dot_S1x300_S300x128_S1x128_1_0_0_1_n_n_wf : DotDims.WF S1x300 S300x128 S1x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S200x128.size a ≤ S200x1024.size a
  hwx0_0 : ∀ i : grid0.Coords, EltTy.bits .i32 = 32 ∨ (Rect.block (s := S200x1024) S200x128.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S300x256.size a ≤ S300x50176.size a
  hwx0_1 : ∀ i : grid0.Coords, EltTy.bits .bf16 = 32 ∨ (Rect.block (s := S300x50176) S300x256.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x50176.size a
  hwx0_2 : ∀ i : grid0.Coords, EltTy.bits .bf16 = 32 ∨ (Rect.block (s := S1x50176) S1x256.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x300.size a ≤ S1x300.size a
  hwx0_3 : ∀ i : grid0.Coords, EltTy.bits .bf16 = 32 ∨ (Rect.block (s := S1x300) S1x300.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1.size a ≤ S1x1.size a
  hwx0_4 : ∀ i : grid0.Coords, EltTy.bits .f32 = 32 ∨ (Rect.block (s := S1x1) S1x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x1024.size a
  hwx0_5 : ∀ i : grid0.Coords, EltTy.bits .f32 = 32 ∨ (Rect.block (s := S1x1024) S1x128.size (cc0_transform_5 i) (hinb0_5 i)).WholeWords (EltTy.packing .f32)

variable [Facts₀]

def dot_S300x256_S256x128_S300x128_1_0_0_1_n_n : DotDims S300x256 S256x128 S300x128 where
  lhsContracting := [1]
  rhsContracting := [0]
  lhsNonContracting := [0]
  rhsNonContracting := [1]
  lhsBatch := []
  rhsBatch := []
  wf := dot_S300x256_S256x128_S300x128_1_0_0_1_n_n_wf
def dot_S1x256_S256x128_S1x128_1_0_0_1_n_n : DotDims S1x256 S256x128 S1x128 where
  lhsContracting := [1]
  rhsContracting := [0]
  lhsNonContracting := [0]
  rhsNonContracting := [1]
  lhsBatch := []
  rhsBatch := []
  wf := dot_S1x256_S256x128_S1x128_1_0_0_1_n_n_wf
def dot_S1x300_S300x128_S1x128_1_0_0_1_n_n : DotDims S1x300 S300x128 S1x128 where
  lhsContracting := [1]
  rhsContracting := [0]
  lhsNonContracting := [0]
  rhsNonContracting := [1]
  lhsBatch := []
  rhsBatch := []
  wf := dot_S1x300_S300x128_S1x128_1_0_0_1_n_n_wf

abbrev win0_0 : Pipeline.Window sig grid0 :=
  Pipeline.Window.ofSpec (Memref.whole main_v0) S200x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S300x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v8) S1x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v5) S1x300.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v9) S1x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v10) S1x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

class Facts : Prop extends Facts₀ where

variable [Facts]
-- ==== ReferenceIdeal.lean ====
abbrev S1024x200 : Shape := ⟨2, ![1024, 200]⟩
abbrev S50000x300 : Shape := ⟨2, ![50000, 300]⟩
abbrev S1x50300 : Shape := ⟨2, ![1, 50300]⟩
abbrev S1 : Shape := ⟨1, ![1]⟩
abbrev S_ : Shape := ⟨0, ![]⟩
abbrev S1024x50000 : Shape := ⟨2, ![1024, 50000]⟩
abbrev S1024 : Shape := ⟨1, ![1024]⟩
abbrev S1024x1 : Shape := ⟨2, ![1024, 1]⟩
abbrev S1024x200x1 : Shape := ⟨3, ![1024, 200, 1]⟩
abbrev S1024x200x2 : Shape := ⟨3, ![1024, 200, 2]⟩
abbrev S1024x200x300 : Shape := ⟨3, ![1024, 200, 300]⟩
abbrev S1024x300 : Shape := ⟨2, ![1024, 300]⟩
abbrev S1024x50300 : Shape := ⟨2, ![1024, 50300]⟩
abbrev S50300x1 : Shape := ⟨2, ![50300, 1]⟩
abbrev S1x1 : Shape := ⟨2, ![1, 1]⟩

abbrev nBuf : Space → Nat
  | .hbm => 57
  | .vmem => 0
  | .smem => 0
  | _ => 0

abbrev bufTy : (tb : Table) → Fin (tcTables nBuf tb) → BufTy
  | .hbm, ⟨0, _⟩ => ⟨S1024x200, .i32⟩
  | .hbm, ⟨1, _⟩ => ⟨S50000x300, .f32⟩
  | .hbm, ⟨2, _⟩ => ⟨S1x50300, .f32⟩
  | .hbm, ⟨3, _⟩ => ⟨S1, .f32⟩
  | .hbm, ⟨4, _⟩ => ⟨S_, .f32⟩
  | .hbm, ⟨5, _⟩ => ⟨S1024x50000, .f32⟩
  | .hbm, ⟨6, _⟩ => ⟨S1024, .i32⟩
  | .hbm, ⟨7, _⟩ => ⟨S1024x1, .i32⟩
  | .hbm, ⟨8, _⟩ => ⟨S_, .i32⟩
  | .hbm, ⟨9, _⟩ => ⟨S1024x1, .i32⟩
  | .hbm, ⟨10, _⟩ => ⟨S1024x1, .i1⟩
  | .hbm, ⟨11, _⟩ => ⟨S_, .i32⟩
  | .hbm, ⟨12, _⟩ => ⟨S1024x1, .i32⟩
  | .hbm, ⟨13, _⟩ => ⟨S1024x1, .i32⟩
  | .hbm, ⟨14, _⟩ => ⟨S1024x1, .i32⟩
  | .hbm, ⟨15, _⟩ => ⟨S_, .i32⟩
  | .hbm, ⟨16, _⟩ => ⟨S1024x200, .i32⟩
  | .hbm, ⟨17, _⟩ => ⟨S1024x200, .i1⟩
  | .hbm, ⟨18, _⟩ => ⟨S_, .i32⟩
  | .hbm, ⟨19, _⟩ => ⟨S1024x200, .i32⟩
  | .hbm, ⟨20, _⟩ => ⟨S1024x200, .i32⟩
  | .hbm, ⟨21, _⟩ => ⟨S1024x200, .i32⟩
  | .hbm, ⟨22, _⟩ => ⟨S1024x200, .i32⟩
  | .hbm, ⟨23, _⟩ => ⟨S1024x200x1, .i32⟩
  | .hbm, ⟨24, _⟩ => ⟨S1024x200x1, .i32⟩
  | .hbm, ⟨25, _⟩ => ⟨S1024x200x2, .i32⟩
  | .hbm, ⟨26, _⟩ => ⟨S_, .f32⟩
  | .hbm, ⟨27, _⟩ => ⟨S1024x200, .f32⟩
  | .hbm, ⟨28, _⟩ => ⟨S1024x50000, .f32⟩
  | .hbm, ⟨29, _⟩ => ⟨S_, .i32⟩
  | .hbm, ⟨30, _⟩ => ⟨S1024x200, .i32⟩
  | .hbm, ⟨31, _⟩ => ⟨S1024x200, .i1⟩
  | .hbm, ⟨32, _⟩ => ⟨S_, .i32⟩
  | .hbm, ⟨33, _⟩ => ⟨S1024x200, .i32⟩
  | .hbm, ⟨34, _⟩ => ⟨S1024x200, .i32⟩
  | .hbm, ⟨35, _⟩ => ⟨S1024x200, .i32⟩
  | .hbm, ⟨36, _⟩ => ⟨S1024x200x1, .i32⟩
  | .hbm, ⟨37, _⟩ => ⟨S1024x200x300, .f32⟩
  | .hbm, ⟨38, _⟩ => ⟨S_, .f32⟩
  | .hbm, ⟨39, _⟩ => ⟨S1024x300, .f32⟩
  | .hbm, ⟨40, _⟩ => ⟨S_, .f32⟩
  | .hbm, ⟨41, _⟩ => ⟨S1024x300, .f32⟩
  | .hbm, ⟨42, _⟩ => ⟨S1024x300, .f32⟩
  | .hbm, ⟨43, _⟩ => ⟨S1024x50300, .f32⟩
  | .hbm, ⟨44, _⟩ => ⟨S50300x1, .f32⟩
  | .hbm, ⟨45, _⟩ => ⟨S1024x1, .f32⟩
  | .hbm, ⟨46, _⟩ => ⟨S1x1, .f32⟩
  | .hbm, ⟨47, _⟩ => ⟨S1024x1, .f32⟩
  | .hbm, ⟨48, _⟩ => ⟨S1024x1, .f32⟩
  | .hbm, ⟨49, _⟩ => ⟨S1024x1, .f32⟩
  | .hbm, ⟨50, _⟩ => ⟨S1024x1, .f32⟩
  | .hbm, ⟨51, _⟩ => ⟨S_, .f32⟩
  | .hbm, ⟨52, _⟩ => ⟨S1024x1, .f32⟩
  | .hbm, ⟨53, _⟩ => ⟨S1024x1, .f32⟩
  | .hbm, ⟨54, _⟩ => ⟨S_, .f32⟩
  | .hbm, ⟨55, _⟩ => ⟨S1024x1, .f32⟩
  | .hbm, ⟨56, _⟩ => ⟨S1024x1, .f32⟩
  | _, _ => ⟨S1024x200, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_v3 : Ref sig .tc := ⟨.hbm, 9, rfl⟩
abbrev main_v4 : Ref sig .tc := ⟨.hbm, 10, rfl⟩
abbrev main_c_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_c_1 : Ref sig .tc := ⟨.hbm, 15, rfl⟩
abbrev main_v8 : Ref sig .tc := ⟨.hbm, 16, rfl⟩
abbrev main_v9 : Ref sig .tc := ⟨.hbm, 17, rfl⟩
abbrev main_c_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_3 : Ref sig .tc := ⟨.hbm, 26, rfl⟩
abbrev main_v17 : Ref sig .tc := ⟨.hbm, 27, rfl⟩
abbrev main_v18 : Ref sig .tc := ⟨.hbm, 28, rfl⟩
abbrev main_c_4 : Ref sig .tc := ⟨.hbm, 29, rfl⟩
abbrev main_v19 : Ref sig .tc := ⟨.hbm, 30, rfl⟩
abbrev main_v20 : Ref sig .tc := ⟨.hbm, 31, rfl⟩
abbrev main_c_5 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_6 : Ref sig .tc := ⟨.hbm, 38, rfl⟩
abbrev main_v26 : Ref sig .tc := ⟨.hbm, 39, rfl⟩
abbrev main_cst_7 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_cst_8 : Ref sig .tc := ⟨.hbm, 51, rfl⟩
abbrev main_v37 : Ref sig .tc := ⟨.hbm, 52, rfl⟩
abbrev main_v38 : Ref sig .tc := ⟨.hbm, 53, rfl⟩
abbrev main_cst_9 : Ref sig .tc := ⟨.hbm, 54, rfl⟩
abbrev main_v39 : Ref sig .tc := ⟨.hbm, 55, rfl⟩
abbrev main_v40 : Ref sig .tc := ⟨.hbm, 56, rfl⟩

abbrev nD : Nat := 1
abbrev τ : Topo := Topo.v7x

variable {F : FTy → Type} [FloatOps F]

class Facts₀ : Prop where
  bcast_S_S1024x50000 : S_.BroadcastsInDim S1024x50000 (![] : Fin 0 → Fin S1024x50000.rank)
  bcast_S1024_S1024x1_0 : S1024.BroadcastsInDim S1024x1 (![0] : Fin 1 → Fin S1024x1.rank)
  bcast_S_S1024x1 : S_.BroadcastsInDim S1024x1 (![] : Fin 0 → Fin S1024x1.rank)
  bcast_S_S1024x200 : S_.BroadcastsInDim S1024x200 (![] : Fin 0 → Fin S1024x200.rank)
  bcast_S1024x1_S1024x200_0_1 : S1024x1.BroadcastsInDim S1024x200 (![0, 1] : Fin 2 → Fin S1024x200.rank)
  bcast_S1024x200_S1024x200x1_0_1 : S1024x200.BroadcastsInDim S1024x200x1 (![0, 1] : Fin 2 → Fin S1024x200x1.rank)
  concatenates_S1024x200x1_S1024x200x1_S1024x200x2_d2 : Shape.Concatenates [S1024x200x1, S1024x200x1] S1024x200x2 2
  reducesTo_S1024x200x300_S1024x300_d1 : S1024x200x300.ReducesTo [1] S1024x300
  h_S_ : 0 < S_.numel
  bcast_S_S1024x300 : S_.BroadcastsInDim S1024x300 (![] : Fin 0 → Fin S1024x300.rank)
  concatenates_S1024x300_S1024x50000_S1024x50300_d1 : Shape.Concatenates [S1024x300, S1024x50000] S1024x50300 1
  transposes_S1x50300_S50300x1_1_0 : S1x50300.Transposes [1, 0] S50300x1
  bcast_S1_S1x1_1 : S1.BroadcastsInDim S1x1 (![1] : Fin 1 → Fin S1x1.rank)
  bcast_S1x1_S1024x1_0_1 : S1x1.BroadcastsInDim S1024x1 (![0, 1] : Fin 2 → Fin S1024x1.rank)
  scatter_S1024x50000_S1024x200x2_S1024x200_n_01_01_2_wf : ScatterDims.WF S1024x50000 S1024x200x2 S1024x200 [] [0, 1] [0, 1] 2
  gather_S50000x300_S1024x200x1_S1024x200x300_2_0_n_n_0_2_1300_wf : GatherDims.WF S50000x300 S1024x200x1 S1024x200x300 [2] [0] [] [0] [] 2 ![1, 300]
  dot_S1024x50300_S50300x1_S1024x1_1_0_0_1_n_n_wf : DotDims.WF S1024x50300 S50300x1 S1024x1 [1] [0] [0] [1] [] []

variable [Facts₀]

def scatter_S1024x50000_S1024x200x2_S1024x200_n_01_01_2 : ScatterDims S1024x50000 S1024x200x2 S1024x200 where
  updateWindowDims := []
  insertedWindowDims := [0, 1]
  scatterDimsToOperandDims := [0, 1]
  indexVectorDim := 2
  wf := scatter_S1024x50000_S1024x200x2_S1024x200_n_01_01_2_wf
def gather_S50000x300_S1024x200x1_S1024x200x300_2_0_n_n_0_2_1300 : GatherDims S50000x300 S1024x200x1 S1024x200x300 where
  offsetDims := [2]
  collapsedSliceDims := [0]
  operandBatchingDims := []
  startIndicesBatchingDims := []
  startIndexMap := [0]
  indexVectorDim := 2
  sliceSizes := ![1, 300]
  wf := gather_S50000x300_S1024x200x1_S1024x200x300_2_0_n_n_0_2_1300_wf
def dot_S1024x50300_S50300x1_S1024x1_1_0_0_1_n_n : DotDims S1024x50300 S50300x1 S1024x1 where
  lhsContracting := [1]
  rhsContracting := [0]
  lhsNonContracting := [0]
  rhsNonContracting := [1]
  lhsBatch := []
  rhsBatch := []
  wf := dot_S1024x50300_S50300x1_S1024x1_1_0_0_1_n_n_wf

class Facts : Prop extends Facts₀ where

variable [Facts]
-- ==== Proof.Spec.lean ====
/-
  What both programs compute, as one function of the four argument arrays, and the counting quantities the
  kernel builds on its way there.

  For batch row i the result is sigmoid (logit i) with

    logit i = sum over e < 300 of W[0, e] * ((sum over s < 200 of emb[x[i, s], e]) * (1 / 200))
              + sum over v < 50000 of W[0, 300 + v] * presence(i, v)
              + b[0],

  presence(i, v) being one when the token v occurs in row i of x and zero when it does not. The reference
  gets the inner sum by gathering the rows x[i, s] of the table and adding them, and the presence indicator by
  scattering ones; the kernel never indexes: for every vocabulary id v (the vocabulary padded to a multiple of
  256 by rows of zeros) it COUNTS the positions s with x[i, s] = v, multiplies the transposed table by the counts
  and the vocabulary weights by "count is positive". The two agree because

    sum over v of T[v] * #{s | x[i, s] = v} = sum over s of T[x[i, s]]

  for a table T of finite reals (the count is a sum of ones, the product distributes over it, the double sum is
  exchanged, and the inner sum over v of T[v] * [x[i, s] = v] has one nonzero term), which needs every token to be
  a valid row number, 0 <= x[i, s] < 50000, so that it is met by exactly one v and by no padding row.
-/
import Idealize.ShloMosaic.PureOps.Ideal
import Idealize.ShloMosaic.Lib.ValueIdx

noncomputable section

open scoped BigOperators

namespace Cert.LogReg

open Idealize.ShloMosaic Idealize.ShloMosaic.ValueIdx

/-- The token array, the embedding table, the weight row, the bias, and the result column. -/
abbrev SX : Shape := ⟨2, ![1024, 200]⟩
abbrev SE : Shape := ⟨2, ![50000, 300]⟩
abbrev SW : Shape := ⟨2, ![1, 50300]⟩
abbrev SB : Shape := ⟨1, ![1]⟩
abbrev SO : Shape := ⟨2, ![1024, 1]⟩

/-- Every token is a valid row number of the table, read as a signed word. -/
def InRange (x : IVec SX 32) : Prop := ∀ j : SX.Idx, 0 ≤ (x j).toInt ∧ (x j).toInt < 50000

/-- Every entry of a float array is a real number. -/
def Finite {S : Shape} (a : S.Idx → EReal) : Prop := ∀ j, ∃ r : ℝ, a j = (r : EReal)

/-- The token at position s of row i, as a natural number. -/
def tok (x : IVec SX 32) (i : Fin 1024) (s : Fin 200) : ℕ := (x (ix2 i s)).toNat

/-- The same as a row number of the table (reduced modulo the table's length so that it is one for every word; for a token in range
    the reduction does nothing). -/
def tokFin (x : IVec SX 32) (i : Fin 1024) (s : Fin 200) : Fin 50000 := ⟨tok x i s % 50000, Nat.mod_lt _ (by norm_num)⟩

/-- The weight row's first 300 columns multiply the mean embedding, -/
def wE (e : Fin 300) : Fin 50300 := ⟨e.val, by have := e.isLt; omega⟩
/-- and its last 50000 the presence indicators. -/
def wV (v : Fin 50000) : Fin 50300 := ⟨300 + v.val, by have := v.isLt; omega⟩

/-- Column e of the table summed over the tokens of row i. -/
def embSum (x : IVec SX 32) (emb : SE.Idx → EReal) (i : Fin 1024) (e : Fin 300) : EReal :=
  ∑ s : Fin 200, emb (ix2 (tokFin x i s) e)

/-- One when token v occurs in row i, zero when it does not. -/
def pres (x : IVec SX 32) (i : Fin 1024) (v : Fin 50000) : EReal :=
  if ∃ s : Fin 200, tokFin x i s = v then 1 else 0

/-- The logit of row i. -/
def logit (x : IVec SX 32) (emb : SE.Idx → EReal) (W : SW.Idx → EReal) (b : SB.Idx → EReal) (i : Fin 1024) : EReal :=
  (∑ e : Fin 300, W (ix2 0 (wE e)) * (embSum x emb i e * ((1 / 200 : ℝ) : EReal))
    + ∑ v : Fin 50000, W (ix2 0 (wV v)) * pres x i v) + b (ix1 0)

/-- The result column: the sigmoid of each row's logit. -/
def G (x : IVec SX 32) (emb : SE.Idx → EReal) (W : SW.Idx → EReal) (b : SB.Idx → EReal) : SO.Idx → EReal :=
  fun j => Ideal.logistic (logit x emb W b (j 0))

/-! ## The kernel's counting quantities -/

/-- How many positions of row i hold the token v (any natural number: the kernel also asks about the padding ids). -/
def cnt (x : IVec SX 32) (i : Fin 1024) (v : ℕ) : EReal := ∑ s : Fin 200, if tok x i s = v then (1 : EReal) else 0

/-- Row e of the transposed table, continued by zeros past its 50000 columns (the kernel pads to 50176). -/
def padE (emb : SE.Idx → EReal) (e : Fin 300) (v : ℕ) : EReal :=
  if h : v < 50000 then emb (ix2 ⟨v, h⟩ e) else 0

/-- The vocabulary weights, continued by zeros past their 50000 entries. -/
def padW (W : SW.Idx → EReal) (v : ℕ) : EReal :=
  if h : v < 50000 then W (ix2 0 (wV ⟨v, h⟩)) else 0

/-- The kernel's presence bit: the count is positive. -/
def presK (x : IVec SX 32) (i : Fin 1024) (v : ℕ) : EReal := if 0 < cnt x i v then 1 else 0

end Cert.LogReg

end
-- ==== Proof.LibMask.lean ====
/-
  General facts about index masks on integer vectors, generic in the shapes.

  A "take" that tolerates negative indices first wraps them (an index below zero has the table's length added) and
  afterwards masks every row whose wrapped index falls outside [0, M]: the mask is the conjunction, reduced by "and"
  over the index column, of the two signed compares, and a masked-out row is replaced by a fill value. When every index
  is already inside the range, the wrap is the identity, both compares hold at every position, the reduction of an
  all-ones vector from the initial value one is all ones, and a select under an all-ones condition returns its first
  branch. This file states each of those steps on its own, and, in the other direction, reads a range fact back out of
  a conjunction "all (x ≥ k)" or "all (x < k)" that is known to be one.
-/
import Idealize.ShloMosaic.PureOps.Ideal
import Idealize.ShloMosaic.Lib.ValueIdx
import Idealize.ShloMosaic.Lib.StableHlo.Predicate
import Idealize.ShloMosaic.Lib.ReduceAll

namespace Cert.MaskLib

open Idealize.ShloMosaic

/-! ## Constants and their broadcasts -/

/-- An integer splat reads its value at every index. -/
theorem constantI_apply {S : Shape} {w : Nat} (k : BitVec w) (i : S.Idx) : constantI S w k i = k := rfl

/-- A broadcast (along any axes) of a vector that is constantly `v` is constantly `v`. -/
theorem broadcastInDim_const {s t : Shape} {α : Type} (dims : Fin s.rank → Fin t.rank) (h : s.BroadcastsInDim t dims)
    (v : α) : broadcastInDim t dims h (fun _ : s.Idx => v) = fun _ => v := rfl

/-- The same with the constancy as a hypothesis: if `x` reads `v` everywhere, so does any broadcast of `x`. -/
theorem broadcastInDim_apply_of_const {s t : Shape} {α : Type} (dims : Fin s.rank → Fin t.rank)
    (h : s.BroadcastsInDim t dims) (x : s.Idx → α) (v : α) (hx : ∀ i, x i = v) (j : t.Idx) :
    broadcastInDim t dims h x j = v := hx _

/-- A broadcast of an integer splat reads the splat's value at every index, whatever the axes. -/
theorem broadcastInDim_constantI_apply {S₀ S : Shape} {w : Nat} (dims : Fin S₀.rank → Fin S.rank)
    (h : S₀.BroadcastsInDim S dims) (k : BitVec w) (j : S.Idx) :
    broadcastInDim S dims h (constantI S₀ w k) j = k := rfl

/-! ## The wrap of negative indices -/

/-- Wrapping negative indices leaves a vector of nonnegative indices as it is: "index below zero" fails at every
    position, so the select returns its second branch everywhere. -/
theorem wrap_id {S : Shape} (idx z n : IVec S 32) (hz : ∀ i, z i = 0#32) (h0 : ∀ i, 0 ≤ (idx i).toInt) :
    select (cmpi .slt idx z) n idx = idx := by
  funext i
  show Scalar.select (IntOp.cmpi .slt (idx i) (z i)) (n i) (idx i) = idx i
  have hc : ¬ IntOp.cmpi .slt (idx i) (z i) = 1#1 := by
    rw [IntOp.cmpi_slt, hz i]
    have hzero : (0#32 : BitVec 32).toInt = 0 := by decide
    have := h0 i
    omega
  unfold Scalar.select
  exact if_neg hc

/-! ## The range mask -/

/-- Both range compares hold at every position of a vector whose entries lie in [0, M]: their conjunction is all ones. -/
theorem inrange_and {S : Shape} (I z mx : IVec S 32) (M : ℤ) (hz : ∀ i, z i = 0#32) (hm : ∀ i, (mx i).toInt = M)
    (h : ∀ i, 0 ≤ (I i).toInt ∧ (I i).toInt ≤ M) : andi (cmpi .sge I z) (cmpi .sle I mx) = fun _ => 1#1 := by
  funext i
  show IntOp.andi (IntOp.cmpi .sge (I i) (z i)) (IntOp.cmpi .sle (I i) (mx i)) = 1#1
  have hzero : (0#32 : BitVec 32).toInt = 0 := by decide
  rw [IntOp.andi_eq_one, IntOp.cmpi_sge, IntOp.cmpi_sle, hz i, hm i, hzero]
  exact h i

/-- A left fold by "and" that starts at one and meets only ones ends at one. -/
theorem foldl_andi_ones {ι : Type} (f : ι → BitVec 1) :
    ∀ (l : List ι) (init : BitVec 1), init = 1#1 → (∀ n ∈ l, f n = 1#1) → l.foldl (fun r n => IntOp.andi r (f n)) init = 1#1
  | [], _, hi, _ => hi
  | a :: l, init, hi, hl => by
    refine foldl_andi_ones f l _ ?_ (fun n hn => hl n (List.mem_cons_of_mem _ hn))
    exact IntOp.andi_eq_one.2 ⟨hi, hl a (List.mem_cons_self ..)⟩

/-- A reduction by "and" of an all-ones vector, from an initial value that is one, is all ones, over whatever axes. -/
theorem reduce_and_ones {s t u : Shape} {axes : List (Fin s.rank)} (x : IVec s 1) (init : IVec u 1)
    (h : s.ReducesTo axes t) (hu : 0 < u.numel) (hx : ∀ i, x i = 1#1) (hinit : ∀ i, init i = 1#1) :
    Host.reduce IntOp.andi x init h hu = fun _ => 1#1 := by
  funext j
  rw [Host.reduce_eq_foldl]
  exact foldl_andi_ones x _ _ (hinit _) (fun n _ => hx n)

/-- The same for the literal all-ones operand and initial value. -/
theorem reduce_and_ones' {s t u : Shape} {axes : List (Fin s.rank)} (h : s.ReducesTo axes t) (hu : 0 < u.numel) :
    Host.reduce IntOp.andi (fun _ => 1#1 : IVec s 1) (fun _ => 1#1 : IVec u 1) h hu = fun _ => 1#1 :=
  reduce_and_ones _ _ h hu (fun _ => rfl) (fun _ => rfl)

/-! ## Select under a settled condition -/

/-- A select whose condition is all ones returns its first branch (values of any type: words or floats). -/
theorem select_ones {S : Shape} {α : Type} (a b : S.Idx → α) : select (fun _ => 1#1) a b = a := by
  funext i
  show Scalar.select 1#1 (a i) (b i) = a i
  unfold Scalar.select
  exact if_pos rfl

/-- The same with the condition's value as a hypothesis. -/
theorem select_of_ones {S : Shape} {α : Type} (c : IVec S 1) (a b : S.Idx → α) (hc : ∀ i, c i = 1#1) :
    select c a b = a := by
  have : c = fun _ => 1#1 := funext hc
  rw [this]; exact select_ones a b

/-! ## A printed "all" read back -/

/-- "all (x ≥ c)" with `c` constantly `k`: if the reduction by "and" into a one-index result is one, every entry of `x`
    is at least `k`, read signed. -/
theorem all_sge_const {s t u : Shape} {axes : List (Fin s.rank)} [Subsingleton t.Idx] (x c : IVec s 32) (k : BitVec 32)
    (hc : ∀ i, c i = k) (init : IVec u 1) (h : s.ReducesTo axes t) (hu : 0 < u.numel) (j : t.Idx)
    (e : Host.reduce IntOp.andi (cmpi .sge x c) init h hu j = 1#1) (i : s.Idx) : k.toInt ≤ (x i).toInt := by
  have hi : IntOp.cmpi .sge (x i) (c i) = 1#1 := Host.reduce_andi_all (cmpi .sge x c) init h hu j e i
  rw [IntOp.cmpi_sge, hc i] at hi
  exact hi

/-- "all (x < c)" with `c` constantly `k`: if the reduction by "and" into a one-index result is one, every entry of `x`
    is below `k`, read signed. -/
theorem all_slt_const {s t u : Shape} {axes : List (Fin s.rank)} [Subsingleton t.Idx] (x c : IVec s 32) (k : BitVec 32)
    (hc : ∀ i, c i = k) (init : IVec u 1) (h : s.ReducesTo axes t) (hu : 0 < u.numel) (j : t.Idx)
    (e : Host.reduce IntOp.andi (cmpi .slt x c) init h hu j = 1#1) (i : s.Idx) : (x i).toInt < k.toInt := by
  have hi : IntOp.cmpi .slt (x i) (c i) = 1#1 := Host.reduce_andi_all (cmpi .slt x c) init h hu j e i
  rw [IntOp.cmpi_slt, hc i] at hi
  exact hi

/-- A conjunction of two one-bit vectors that is one at an index has both conjuncts one there. -/
theorem andi_apply_eq_one {S : Shape} (x y : IVec S 1) (j : S.Idx) (e : andi x y j = 1#1) : x j = 1#1 ∧ y j = 1#1 :=
  IntOp.andi_eq_one.1 e

end Cert.MaskLib
-- ==== Proof.RefIndex.lean ====
/-
  The reference's two data-dependent operations, read at an index.

  The gather takes, for every batch row i and position s, row idx[i, s] of the table: when that word, read signed, is
  a valid row number r, the slice's start is not clamped and element (i, s, e) of the result is the table's (r, e).

  The scatter writes one value o at the positions (idx[i, s, 0], idx[i, s, 1]) of an array that is z everywhere, update
  after update in row-major order; a later update overwrites an earlier one with the same o, so the order does not
  matter: the result at (i, v) is o when some update lands on (i, v) and z when none does. With the first index
  component equal to the batch row and the second a valid column, the updates that land on (i, v) are those of row i
  whose second component is v.
-/
import proofs.«431388_j63694365000268_1_alg».proof.Proof.Gen.ReferenceIdeal
import Idealize.ShloMosaic.Lib.ValueIdx

noncomputable section

namespace Cert.LogReg

open Idealize.ShloMosaic Idealize.ShloMosaic.ValueIdx Cert.ReferenceIdeal Cert.ReferenceIdeal.Gen

/-! ## The gather -/

/-- The gather's dimension numbers, under a short name. -/
abbrev gd := gather_S50000x300_S1024x200x1_S1024x200x300_2_0_n_n_0_2_1300

/-- The table's row axis is the one axis the start index addresses. -/
theorem gd_mem0 : (0 : Fin S50000x300.rank) ∈ gd.startIndexMap := List.mem_singleton.mpr rfl

/-- Result index (i, s, e) reads its start index's one component at (i, s, 0) of the index array. -/
theorem gd_siIdx (i : Fin 1024) (s : Fin 200) (e : Fin 300) :
    gd.siIdx (ix3 i s e) ⟨gd.startIndexMap.idxOf (0 : Fin S50000x300.rank), List.idxOf_lt_length_iff.2 gd_mem0⟩ = ix3 i s 0 := by
  funext b
  refine Fin.ext ?_
  match b with
  | ⟨0, _⟩ => rfl
  | ⟨1, _⟩ => rfl
  | ⟨2, _⟩ => rfl

/-- The gather at (i, s, e) is the table at (r, e) when the start index idx[i, s] reads r, a valid row. -/
theorem gather_row {α : Type} (tbl : S50000x300.Idx → α) (idx : IVec S1024x200x1 32) (i : Fin 1024) (s : Fin 200) (e : Fin 300)
    (r : Fin 50000) (hr : (idx (ix3 i s 0)).toInt = (r.val : ℤ)) :
    Host.gather gather_S50000x300_S1024x200x1_S1024x200x300_2_0_n_n_0_2_1300 tbl idx (ix3 i s e) = tbl (ix2 r e) := by
  unfold Host.gather
  congr 1
  funext a
  refine Fin.ext ?_
  match a with
  | ⟨0, _⟩ =>
    -- the row axis: the start, clamped to [0, 50000 - 1], with no batching and no offset coordinate
    show gd.start (ix3 i s e) idx 0 + gd.batchCoord (ix3 i s e) 0 + gd.offCoord (ix3 i s e) 0 = r.val
    have hb : gd.batchCoord (ix3 i s e) 0 = 0 := rfl
    have ho : gd.offCoord (ix3 i s e) 0 = 0 := rfl
    have hs : gd.start (ix3 i s e) idx 0 = min (idx (ix3 i s 0)).toInt.toNat (50000 - 1) := by
      unfold GatherDims.start
      rw [dif_pos gd_mem0, gd_siIdx]
      rfl
    rw [hb, ho, hs, hr]
    have := r.isLt
    simp only [Int.toNat_natCast]
    omega
  | ⟨1, _⟩ =>
    -- the column axis: no start, no batching, the offset coordinate e
    show gd.start (ix3 i s e) idx 1 + gd.batchCoord (ix3 i s e) 1 + gd.offCoord (ix3 i s e) 1 = e.val
    have hb : gd.batchCoord (ix3 i s e) 1 = 0 := rfl
    have ho : gd.offCoord (ix3 i s e) 1 = e.val := rfl
    have hs : gd.start (ix3 i s e) idx 1 = 0 := rfl
    rw [hb, ho, hs]
    omega

/-! ## A fold of overwrites -/

open Classical in
/-- A left fold whose step either overwrites one position (the one g names for that step) with a fixed value o or does nothing:
    at the end a position holds o when some step named it, and its initial value when none did. By induction on the
    list of steps, the initial array general. -/
theorem foldl_overwrite {ι β γ : Type} [DecidableEq β] (g : ι → Option β) (o : γ) (step : (β → γ) → ι → (β → γ))
    (hs : ∀ r n p, g n = some p → step r n = fun p' => if p' = p then o else r p')
    (hn : ∀ r n, g n = none → step r n = r)
    (l : List ι) (init : β → γ) (q : β) :
    (l.foldl step init) q = if ∃ n ∈ l, g n = some q then o else init q := by
  induction l generalizing init with
  | nil => simp
  | cons a l ih =>
    rw [List.foldl_cons, ih]
    by_cases h : ∃ n ∈ l, g n = some q
    · have h' : ∃ n ∈ a :: l, g n = some q := by
        obtain ⟨n, hn', hg⟩ := h
        exact ⟨n, List.mem_cons_of_mem _ hn', hg⟩
      rw [if_pos h, if_pos h']
    · rw [if_neg h]
      cases hga : g a with
      | none =>
        rw [hn _ _ hga]
        have h' : ¬ ∃ n ∈ a :: l, g n = some q := by
          rintro ⟨n, hn', hg⟩
          rcases List.mem_cons.1 hn' with rfl | hn''
          · rw [hga] at hg; cases hg
          · exact h ⟨n, hn'', hg⟩
        rw [if_neg h']
      | some p =>
        rw [hs _ _ _ hga]
        by_cases hqp : q = p
        · have h' : ∃ n ∈ a :: l, g n = some q := ⟨a, List.mem_cons_self, by rw [hga, hqp]⟩
          rw [if_pos h']
          show (if q = p then o else init q) = o
          rw [if_pos hqp]
        · have h' : ¬ ∃ n ∈ a :: l, g n = some q := by
            rintro ⟨n, hn', hg⟩
            rcases List.mem_cons.1 hn' with rfl | hn''
            · rw [hga] at hg; exact hqp (Option.some.inj hg).symm
            · exact h ⟨n, hn'', hg⟩
          rw [if_neg h']
          show (if q = p then o else init q) = init q
          rw [if_neg hqp]

/-! ## The scatter -/

/-- The scatter's dimension numbers, under a short name. -/
abbrev sd := scatter_S1024x50000_S1024x200x2_S1024x200_n_01_01_2

theorem sd_mem0 : (0 : Fin S1024x50000.rank) ∈ sd.scatterDimsToOperandDims := List.mem_cons_self
theorem sd_mem1 : (1 : Fin S1024x50000.rank) ∈ sd.scatterDimsToOperandDims := List.mem_cons_of_mem _ List.mem_cons_self

/-- Update (i, s) reads the row component of its index at (i, s, 0) of the index array, -/
theorem sd_siIdx0 (i : Fin 1024) (s : Fin 200) :
    sd.siIdx (ix2 i s) ⟨sd.scatterDimsToOperandDims.idxOf (0 : Fin S1024x50000.rank), List.idxOf_lt_length_iff.2 sd_mem0⟩ = ix3 i s 0 := by
  funext b
  refine Fin.ext ?_
  match b with
  | ⟨0, _⟩ => rfl
  | ⟨1, _⟩ => rfl
  | ⟨2, _⟩ => rfl

/-- and the column component at (i, s, 1). -/
theorem sd_siIdx1 (i : Fin 1024) (s : Fin 200) :
    sd.siIdx (ix2 i s) ⟨sd.scatterDimsToOperandDims.idxOf (1 : Fin S1024x50000.rank), List.idxOf_lt_length_iff.2 sd_mem1⟩ = ix3 i s 1 := by
  funext b
  refine Fin.ext ?_
  match b with
  | ⟨0, _⟩ => rfl
  | ⟨1, _⟩ => rfl
  | ⟨2, _⟩ => rfl

theorem sd_start0 (idx : IVec S1024x200x2 32) (i : Fin 1024) (s : Fin 200) :
    sd.start (ix2 i s) idx 0 = (idx (ix3 i s 0)).toInt := by
  unfold ScatterDims.start
  rw [dif_pos sd_mem0, sd_siIdx0]

theorem sd_start1 (idx : IVec S1024x200x2 32) (i : Fin 1024) (s : Fin 200) :
    sd.start (ix2 i s) idx 1 = (idx (ix3 i s 1)).toInt := by
  unfold ScatterDims.start
  rw [dif_pos sd_mem1, sd_siIdx1]

/-- Both operand axes are inserted: an update is one element, its window coordinate zero on either. -/
theorem sd_window (j : S1024x200.Idx) (a : Fin S1024x50000.rank) : sd.window j a = 0 := by
  unfold ScatterDims.window
  rw [dif_neg (by intro h; revert h; revert a; decide)]

/-- Where update (i', s) lands: with the row component reading i' and the column component a valid column, it is
    inside the array, at row i' and that column. -/
theorem sd_resultIdx (idx : IVec S1024x200x2 32)
    (hrow : ∀ (i : Fin 1024) (s : Fin 200), (idx (ix3 i s 0)).toInt = (i.val : ℤ))
    (hcol : ∀ (i : Fin 1024) (s : Fin 200), 0 ≤ (idx (ix3 i s 1)).toInt ∧ (idx (ix3 i s 1)).toInt < 50000)
    (i' : Fin 1024) (s : Fin 200) (i : Fin 1024) (v : Fin 50000) :
    sd.resultIdx? (ix2 i' s) idx = some (ix2 i v) ↔ (i' = i ∧ (idx (ix3 i' s 1)).toInt = (v.val : ℤ)) := by
  have hc := hcol i' s
  have hi' := i'.isLt
  have hall : ∀ a, 0 ≤ sd.start (ix2 i' s) idx a + sd.window (ix2 i' s) a
      ∧ sd.start (ix2 i' s) idx a + sd.window (ix2 i' s) a < S1024x50000.size a := by
    refine Fin.forall_fin_two.2 ⟨?_, ?_⟩
    · rw [sd_start0, sd_window, hrow]
      show 0 ≤ (i'.val : ℤ) + ((0 : ℕ) : ℤ) ∧ (i'.val : ℤ) + ((0 : ℕ) : ℤ) < ((1024 : ℕ) : ℤ)
      omega
    · rw [sd_start1, sd_window]
      show 0 ≤ (idx (ix3 i' s 1)).toInt + ((0 : ℕ) : ℤ) ∧ (idx (ix3 i' s 1)).toInt + ((0 : ℕ) : ℤ) < ((50000 : ℕ) : ℤ)
      omega
  unfold ScatterDims.resultIdx?
  rw [dif_pos hall]
  constructor
  · intro h
    have h' := Option.some.inj h
    have h0 : (sd.start (ix2 i' s) idx 0 + sd.window (ix2 i' s) 0).toNat = i.val := congrArg (fun q : S1024x50000.Idx => (q 0).val) h'
    have h1 : (sd.start (ix2 i' s) idx 1 + sd.window (ix2 i' s) 1).toNat = v.val := congrArg (fun q : S1024x50000.Idx => (q 1).val) h'
    rw [sd_start0, sd_window, hrow] at h0
    rw [sd_start1, sd_window] at h1
    refine ⟨Fin.ext ?_, ?_⟩ <;> omega
  · rintro ⟨rfl, hv⟩
    congr 1
    funext a
    refine Fin.ext ?_
    match a with
    | ⟨0, _⟩ =>
      show (sd.start (ix2 i' s) idx 0 + sd.window (ix2 i' s) 0).toNat = i'.val
      rw [sd_start0, sd_window, hrow]
      omega
    | ⟨1, _⟩ =>
      show (sd.start (ix2 i' s) idx 1 + sd.window (ix2 i' s) 1).toNat = v.val
      rw [sd_start1, sd_window, hv]
      omega

/-- The scatter of one value o into an array of z's is o exactly where an update lands. -/
theorem scatter_const {α : Type} (z o : α) (idx : IVec S1024x200x2 32)
    (hrow : ∀ (i : Fin 1024) (s : Fin 200), (idx (ix3 i s 0)).toInt = (i.val : ℤ))
    (hcol : ∀ (i : Fin 1024) (s : Fin 200), 0 ≤ (idx (ix3 i s 1)).toInt ∧ (idx (ix3 i s 1)).toInt < 50000)
    (i : Fin 1024) (v : Fin 50000) :
    Host.scatter scatter_S1024x50000_S1024x200x2_S1024x200_n_01_01_2 (fun _ b => b) (fun _ : S1024x50000.Idx => z) idx
        (fun _ : S1024x200.Idx => o) (ix2 i v)
      = if ∃ s : Fin 200, (idx (ix3 i s 1)).toInt = (v.val : ℤ) then o else z := by
  -- an update lands on (i, v) exactly when it is an update (i, s) of row i whose column component reads v
  have hiff : (∃ n ∈ List.finRange S1024x200.numel, sd.resultIdx? (S1024x200.rowMajor.symm n) idx = some (ix2 i v))
      ↔ ∃ s : Fin 200, (idx (ix3 i s 1)).toInt = (v.val : ℤ) := by
    constructor
    · rintro ⟨n, _, hn⟩
      rw [eq_ix2 (S1024x200.rowMajor.symm n)] at hn
      obtain ⟨hi, hv⟩ := (sd_resultIdx idx hrow hcol _ _ i v).1 hn
      exact ⟨(S1024x200.rowMajor.symm n) 1, by rw [← hi]; exact hv⟩
    · rintro ⟨s, hs⟩
      refine ⟨S1024x200.rowMajor (ix2 i s), List.mem_finRange _, ?_⟩
      rw [Equiv.symm_apply_apply]
      exact (sd_resultIdx idx hrow hcol i s i v).2 ⟨rfl, hs⟩
  unfold Host.scatter
  refine (foldl_overwrite (fun n => sd.resultIdx? (S1024x200.rowMajor.symm n) idx) o _ ?_ ?_ _ _ _).trans ?_
  · intro r n p h
    simp only [h]
  · intro r n h
    simp only [h]
  · by_cases hex : ∃ s : Fin 200, (idx (ix3 i s 1)).toInt = (v.val : ℤ)
    · rw [if_pos (hiff.2 hex), if_pos hex]
    · rw [if_neg (fun h => hex (hiff.1 h)), if_neg hex]

end Cert.LogReg

end
-- ==== Proof.RefValue.lean ====
/-
  The reference's result, read one operation at a time, is the function G of the four arguments.

  For tokens in range the wrap of negative indices does nothing, the gather's start is the token itself and the scatter's
  second index component is the token; the sum over positions starts from zero, the division by 200 is the product
  with 1/200 on every extended real, the feature row is the 300 means followed by the 50000 presence indicators, so its
  product with the weight column splits into the two sums of the logit, and 1 / (1 + exp (-z)) is the sigmoid of z.
-/
import proofs.«431388_j63694365000268_1_alg».proof.Proof.RefRun
import proofs.«431388_j63694365000268_1_alg».proof.Proof.RefRead
import proofs.«431388_j63694365000268_1_alg».proof.Proof.Spec
import proofs.«431388_j63694365000268_1_alg».proof.Proof.LibMask
import proofs.«431388_j63694365000268_1_alg».proof.Proof.RefIndex
import Idealize.ShloMosaic.Lib.Pipeline.Value
import Idealize.ShloMosaic.Lib.StableHlo.Predicate
import Idealize.ShloMosaic.PureOps.Ideal.Laws
import Mathlib.Algebra.BigOperators.Fin

noncomputable section

open scoped BigOperators

namespace Cert.LogReg

open Idealize.ShloMosaic Idealize.ShloMosaic.ValueIdx Cert.ReferenceIdeal Cert.ReferenceIdeal.Gen Cert.ReferenceIdeal.Read

/-! ## The float constants -/

/-- The pattern of 1.0 denotes the real one. -/
theorem ofBits_one : Ideal.ofBits .f32 0x3F800000#32 = (1 : EReal) := by
  simp [Ideal.ofBits, Ideal.ieee, -EReal.coe_mul]; norm_num

/-- The pattern of 200.0 denotes the real 200. -/
theorem ofBits_200 : Ideal.ofBits .f32 0x43480000#32 = ((200 : ℝ) : EReal) := by
  simp [Ideal.ofBits, Ideal.ieee, -EReal.coe_mul]; norm_num

/-! ## Words in range -/

/-- A word whose signed reading is not negative reads the same signed and unsigned. -/
theorem toInt_eq_toNat_of_nonneg (w : BitVec 32) (h : 0 ≤ w.toInt) : w.toInt = (w.toNat : ℤ) := by
  have hlt := w.isLt
  rw [BitVec.toInt_eq_toNat_cond] at h ⊢
  split_ifs at h ⊢ with hc
  · rfl
  · omega

/-- A token in range, read signed, is its row number in the table. -/
theorem tokFin_val_ref (x : IVec SX 32) (hx : InRange x) (i : Fin 1024) (s : Fin 200) :
    (x (ix2 i s)).toInt = ((tokFin x i s).val : ℤ) := by
  obtain ⟨h0, h1⟩ := hx (ix2 i s)
  have e := toInt_eq_toNat_of_nonneg _ h0
  rw [e] at h1
  have hlt : (x (ix2 i s)).toNat < 50000 := by exact_mod_cast h1
  show _ = ((tok x i s % 50000 : ℕ) : ℤ)
  unfold tok
  rw [e, Nat.mod_eq_of_lt hlt]

/-! ## The wraps of negative indices do nothing -/

/-- The tokens the gather starts from are the tokens. -/
theorem wrap_gather (x : IVec SX 32) (hx : InRange x) : val_main_v23 (F := Ideal) x = x :=
  Cert.MaskLib.wrap_id x (val_main_v19 (F := Ideal)) (val_main_v22 (F := Ideal) x) (fun _ => rfl) (fun i => (hx i).1)

/-- The tokens the scatter writes at are the tokens. -/
theorem wrap_scatter (x : IVec SX 32) (hx : InRange x) : val_main_v12 (F := Ideal) x = x :=
  Cert.MaskLib.wrap_id x (val_main_v8 (F := Ideal)) (val_main_v11 (F := Ideal) x) (fun _ => rfl) (fun i => (hx i).1)

/-- The column of row numbers, after its wrap, holds the row number. -/
theorem rowNumber (p : S1024x1.Idx) : val_main_v7 (F := Ideal) p = BitVec.ofNat 32 (p 0).val := by
  have hv2 : ∀ q : S1024x1.Idx, val_main_v2 (F := Ideal) q = BitVec.ofNat 32 (q 0).val := fun q =>
    (val_main_v2_apply (F := Ideal) q).trans rfl
  have h : val_main_v7 (F := Ideal) = val_main_v2 (F := Ideal) :=
    Cert.MaskLib.wrap_id (val_main_v2 (F := Ideal)) (val_main_v3 (F := Ideal)) (val_main_v6 (F := Ideal)) (fun _ => rfl)
      (fun q => by
        have hq : (q 0).val < 1024 := (q 0).isLt
        rw [hv2, StableHlo.Predicate.toInt_ofNat_small _ (by omega)]
        exact Int.natCast_nonneg _)
  rw [h, hv2]

/-! ## The scatter's index array -/

/-- Its first component is the batch row. -/
theorem scatIdx_row (x : IVec SX 32) (i : Fin 1024) (s : Fin 200) :
    (val_main_v16 (F := Ideal) x (ix3 i s (0 : Fin 2))).toInt = (i.val : ℤ) := by
  have h : val_main_v16 (F := Ideal) x (ix3 i s (0 : Fin 2)) = val_main_v14 (F := Ideal) (ix3 i s (0 : Fin 1)) := by
    unfold val_main_v16
    exact concatenate_pair_apply_left 2 _ _ concatenates_S1024x200x1_S1024x200x1_S1024x200x2_d2 (ix3 i s (0 : Fin 2)) rfl
      (ix3 i s (0 : Fin 1)) (fun b => by match b with | ⟨0, _⟩ => rfl | ⟨1, _⟩ => rfl | ⟨2, _⟩ => rfl)
  rw [h, val_main_v14_apply, val_main_v13_apply, rowNumber]
  exact StableHlo.Predicate.toInt_ofNat_small i.val (by have := i.isLt; omega)

/-- Its second component is the token. -/
theorem scatIdx_col (x : IVec SX 32) (hx : InRange x) (i : Fin 1024) (s : Fin 200) :
    val_main_v16 (F := Ideal) x (ix3 i s (1 : Fin 2)) = x (ix2 i s) := by
  have h : val_main_v16 (F := Ideal) x (ix3 i s (1 : Fin 2)) = val_main_v15 (F := Ideal) x (ix3 i s (0 : Fin 1)) := by
    unfold val_main_v16
    exact concatenate_pair_apply_right 2 _ _ concatenates_S1024x200x1_S1024x200x1_S1024x200x2_d2 (ix3 i s (1 : Fin 2)) rfl rfl
      (ix3 i s (0 : Fin 1))
      (fun b hb => by
        match b, hb with
        | ⟨0, _⟩, _ => rfl
        | ⟨1, _⟩, _ => rfl
        | ⟨2, _⟩, hb => exact absurd (Fin.ext rfl) hb)
      rfl
  rw [h, val_main_v15_apply, wrap_scatter x hx]
  exact congrArg x (funext fun a => by match a with | ⟨0, _⟩ => rfl | ⟨1, _⟩ => rfl)

/-! ## The presence indicators -/

/-- The scatter of ones into zeros is the presence indicator. -/
theorem presRef (x : IVec SX 32) (hx : InRange x) (i : Fin 1024) (v : Fin 50000) :
    val_main_v18 (F := Ideal) x (ix2 i v) = pres x i v := by
  have h := scatter_const (Ideal.ofBits .f32 0x00000000#32) (Ideal.ofBits .f32 0x3F800000#32) (val_main_v16 (F := Ideal) x)
    (scatIdx_row x) (fun i s => by rw [scatIdx_col x hx]; exact hx _) i v
  have e : val_main_v18 (F := Ideal) x (ix2 i v)
      = if ∃ s : Fin 200, (val_main_v16 (F := Ideal) x (ix3 i s (1 : Fin 2))).toInt = (v.val : ℤ)
          then Ideal.ofBits .f32 0x3F800000#32 else Ideal.ofBits .f32 0x00000000#32 := h
  rw [e, Ideal.ofBits_zero_f32, ofBits_one]
  unfold pres
  have hiff : (∃ s : Fin 200, (val_main_v16 (F := Ideal) x (ix3 i s (1 : Fin 2))).toInt = (v.val : ℤ))
      ↔ ∃ s : Fin 200, tokFin x i s = v := by
    constructor
    · rintro ⟨s, hs⟩
      refine ⟨s, Fin.ext ?_⟩
      rw [scatIdx_col x hx, tokFin_val_ref x hx] at hs
      exact_mod_cast hs
    · rintro ⟨s, hs⟩
      refine ⟨s, ?_⟩
      rw [scatIdx_col x hx, tokFin_val_ref x hx, hs]
  by_cases hB : ∃ s : Fin 200, tokFin x i s = v
  · rw [if_pos hB, if_pos (hiff.2 hB)]
  · rw [if_neg hB, if_neg (fun hA => hB (hiff.1 hA))]

/-! ## The mean embedding -/

/-- The gather takes the table's row of the token. -/
theorem gatherRef (x : IVec SX 32) (emb : FVec Ideal SE .f32) (hx : InRange x) (i : Fin 1024) (s : Fin 200) (e : Fin 300) :
    val_main_v25 (F := Ideal) x emb (ix3 i s e) = emb (ix2 (tokFin x i s) e) := by
  unfold val_main_v25
  refine gather_row emb (val_main_v24 (F := Ideal) x) i s e (tokFin x i s) ?_
  have hidx : idx_main_v24 (ix3 i s (0 : Fin 1)) = ix2 i s :=
    funext fun a => by match a with | ⟨0, _⟩ => rfl | ⟨1, _⟩ => rfl
  rw [val_main_v24_apply, wrap_gather x hx, hidx]
  exact tokFin_val_ref x hx i s

/-- The sum over positions divided by 200 is the sum of the tokens' rows times 1/200. -/
theorem meanRef (x : IVec SX 32) (emb : FVec Ideal SE .f32) (hx : InRange x) (i : Fin 1024) (e : Fin 300) :
    val_main_v28 (F := Ideal) x emb (ix2 i e) = embSum x emb i e * ((1 / 200 : ℝ) : EReal) := by
  rw [val_main_v28_apply, val_main_v27_apply, val_main_cst_7_apply, val_main_v26_apply, val_main_cst_6_apply]
  simp only [Ideal.hostDivf_def, Ideal.ofBits_def, Ideal.ofBits_zero_f32, ofBits_200, zero_add]
  rw [Ideal.div_coe (by norm_num : (200 : ℝ) ≠ 0)]
  unfold embSum
  congr 1
  refine Finset.sum_congr rfl fun s _ => ?_
  have hidx : idx_main_v26 (ix2 i e) s = ix3 i s e :=
    funext fun a => by match a with | ⟨0, _⟩ => rfl | ⟨1, _⟩ => rfl | ⟨2, _⟩ => rfl
  rw [hidx, gatherRef x emb hx]

/-! ## The feature row and the weight column -/

/-- The feature row's first 300 entries are the means. -/
theorem featE (x : IVec SX 32) (emb : FVec Ideal SE .f32) (i : Fin 1024) (e : Fin 300) :
    val_main_v29 (F := Ideal) x emb (ix2 i (wE e)) = val_main_v28 (F := Ideal) x emb (ix2 i e) := by
  unfold val_main_v29
  exact concatenate_pair_apply_left 1 _ _ concatenates_S1024x300_S1024x50000_S1024x50300_d1 (ix2 i (wE e)) rfl (ix2 i e)
    (fun b => by match b with | ⟨0, _⟩ => rfl | ⟨1, _⟩ => rfl)

/-- Its last 50000 are the scatter's result. -/
theorem featV (x : IVec SX 32) (emb : FVec Ideal SE .f32) (i : Fin 1024) (v : Fin 50000) :
    val_main_v29 (F := Ideal) x emb (ix2 i (wV v)) = val_main_v18 (F := Ideal) x (ix2 i v) := by
  unfold val_main_v29
  exact concatenate_pair_apply_right 1 _ _ concatenates_S1024x300_S1024x50000_S1024x50300_d1 (ix2 i (wV v)) rfl rfl (ix2 i v)
    (fun b hb => by
      match b, hb with
      | ⟨0, _⟩, _ => rfl
      | ⟨1, _⟩, hb => exact absurd (Fin.ext rfl) hb)
    (by show v.val + 300 = 300 + v.val; omega)

/-- The transposed weight row at (k, 0) is the weight row at (0, k). -/
theorem weightRef (W : FVec Ideal SW .f32) (i : Fin 1024) (k : Fin 50300) :
    val_main_v30 (F := Ideal) W (ridx_main_v31 (ix2 i (0 : Fin 1)) k) = W (ix2 0 k) := by
  rw [val_main_v30_apply]
  exact congrArg W (funext fun a => by match a with | ⟨0, _⟩ => rfl | ⟨1, _⟩ => rfl)

/-- A sum over the 50300 columns is the sum over the first 300 plus the sum over the last 50000. -/
theorem sum_split (f : Fin 50300 → EReal) :
    ∑ k : Fin 50300, f k = ∑ e : Fin 300, f (wE e) + ∑ v : Fin 50000, f (wV v) := by
  have h := Fin.sum_univ_add (a := 300) (b := 50000) f
  have hE : ∀ e : Fin 300, f (Fin.castAdd 50000 e) = f (wE e) := fun e => congrArg f (Fin.ext rfl)
  have hV : ∀ v : Fin 50000, f (Fin.natAdd 300 v) = f (wV v) := fun v => congrArg f (Fin.ext rfl)
  simp only [hE, hV] at h
  exact h

/-- The product of the feature row with the weight column is the two sums of the logit. -/
theorem dotRef (x : IVec SX 32) (emb : FVec Ideal SE .f32) (W : FVec Ideal SW .f32) (hx : InRange x) (i : Fin 1024) :
    val_main_v31 (F := Ideal) x emb W (ix2 i (0 : Fin 1))
      = ∑ e : Fin 300, W (ix2 0 (wE e)) * (embSum x emb i e * ((1 / 200 : ℝ) : EReal))
        + ∑ v : Fin 50000, W (ix2 0 (wV v)) * pres x i v := by
  have hl : ∀ k : Fin 50300, lidx_main_v31 (ix2 i (0 : Fin 1)) k = ix2 i k := fun k =>
    funext fun a => by match a with | ⟨0, _⟩ => rfl | ⟨1, _⟩ => rfl
  rw [val_main_v31_apply, sum_split]
  refine congrArg₂ (· + ·) ?_ ?_
  · refine Finset.sum_congr rfl fun e _ => ?_
    rw [hl, featE, meanRef x emb hx, weightRef, mul_comm]
  · refine Finset.sum_congr rfl fun v _ => ?_
    rw [hl, featV, presRef x hx, weightRef, mul_comm]

/-- The broadcast bias is the bias. -/
theorem biasRef (b : FVec Ideal SB .f32) (i : Fin 1024) : val_main_v33 (F := Ideal) b (ix2 i (0 : Fin 1)) = b (ix1 0) := by
  rw [val_main_v33_apply, val_main_v32_apply]
  exact congrArg b (funext fun a => by match a with | ⟨0, _⟩ => rfl)

/-- The reference's last stage is G. -/
theorem ref_eq_G (x : IVec SX 32) (emb : FVec Ideal SE .f32) (W : FVec Ideal SW .f32) (b : FVec Ideal SB .f32) (hx : InRange x) :
    Cert.ReferenceIdeal.Read.val_main_v40 (F := Ideal) x emb W b = G x emb W b := by
  funext j
  obtain ⟨i, rfl⟩ : ∃ i : Fin 1024, j = ix2 i (0 : Fin 1) := ⟨j 0, funext fun a => by
    match a with
    | ⟨0, _⟩ => rfl
    | ⟨1, _⟩ => exact Fin.ext (by have h : (j 1).val < 1 := (j 1).isLt; show (j 1).val = 0; omega)⟩
  show val_main_v40 (F := Ideal) x emb W b (ix2 i (0 : Fin 1)) = Ideal.logistic (logit x emb W b i)
  rw [val_main_v40_apply, val_main_v39_apply, val_main_cst_9_apply, val_main_v38_apply, val_main_v37_apply,
    val_main_cst_8_apply, val_main_v36_apply, val_main_v35_apply, val_main_v34_apply, dotRef x emb W hx, biasRef]
  simp only [Ideal.hostDivf_def, Ideal.addf_def, Ideal.hostUnary_exp_def, Ideal.hostNegf_def, Ideal.negf_def,
    Ideal.ofBits_def, ofBits_one]
  rfl

end Cert.LogReg

end
-- ==== Proof.PreFacts.lean ====
/-
  What the precondition says, read back from its printed form.

  The printed predicate is a conjunction, reduced to one bit, of five "all" tests: every entry of the table, of the
  weight row and of the bias has absolute value below plus infinity, every token is at least 0, and every token is below
  50000. When the bit is one, each conjunct is one, each "all" gives its test at every entry, an absolute value below
  plus infinity says the entry is a real number, and the two signed compares bound the token's signed reading.
-/
import proofs.«431388_j63694365000268_1_alg».proof.Pre_finite_inputs
import proofs.«431388_j63694365000268_1_alg».proof.Proof.Spec
import proofs.«431388_j63694365000268_1_alg».proof.Proof.LibMask
import Idealize.ShloMosaic.Lib.ReduceAll
import Idealize.ShloMosaic.Lib.StableHlo.Predicate
import Mathlib.Data.EReal.Basic

noncomputable section

namespace Cert.LogReg

open Idealize.ShloMosaic Idealize.ShloMosaic.ValueIdx

/-- Plus infinity's pattern in the 32-bit format denotes the top extended real. -/
theorem ofBits_inf : Ideal.ofBits .f32 0x7F800000#32 = (⊤ : EReal) := by
  simp [Ideal.ofBits, Ideal.ieee]

/-- An extended real whose absolute value (the larger of it and its negation) compares below plus infinity is a real
    number: the absolute value of either infinity is plus infinity, which is not below itself. -/
theorem real_of_abs_lt_inf (e : EReal)
    (h : FloatOps.cmpf (F := Ideal) (φ := .f32) .olt (FloatOps.hostAbsf (F := Ideal) (φ := .f32) e)
      (FloatOps.ofBits (F := Ideal) .f32 0x7F800000#32) = 1#1) : ∃ r : ℝ, e = (r : EReal) := by
  change BitVec.ofBool (decide (max e (-e) < Ideal.ofBits .f32 0x7F800000#32)) = 1#1 at h
  rw [ofBits_inf, StableHlo.Predicate.ofBool_eq_one_iff, decide_eq_true_iff] at h
  induction e using EReal.rec with
  | bot => exact absurd h (by simp)
  | coe r => exact ⟨r, rfl⟩
  | top => exact absurd h (by simp)

/-- The scalar shape has one index. -/
instance : Subsingleton Cert.Pre_finite_inputs.S_.Idx := ⟨fun _ _ => funext fun d => d.elim0⟩

/-- The precondition, all ones, gives the tokens' range and the float inputs' finiteness. -/
theorem pre_decode [hP : Cert.Pre_finite_inputs.Facts] (x : IVec SX 32) (emb : FVec Ideal SE .f32) (W : FVec Ideal SW .f32)
    (b : FVec Ideal SB .f32) (h : Cert.Pre_finite_inputs.fn (F := Ideal) x emb W b = fun _ => 1#1) :
    InRange x ∧ Finite emb ∧ Finite W ∧ Finite b := by
  -- the one bit of the result, with the chain of operations laid open
  have h0 := congrFun h ValueIdx.ix0
  dsimp only [Cert.Pre_finite_inputs.fn, Cert.Pre_finite_inputs.fn_part1] at h0
  -- the conjunction is one, so each of the five conjuncts is one
  obtain ⟨h1234, h5⟩ := Cert.MaskLib.andi_apply_eq_one _ _ _ h0
  obtain ⟨h123, h4⟩ := Cert.MaskLib.andi_apply_eq_one _ _ _ h1234
  obtain ⟨h12, h3⟩ := Cert.MaskLib.andi_apply_eq_one _ _ _ h123
  obtain ⟨h1, h2⟩ := Cert.MaskLib.andi_apply_eq_one _ _ _ h12
  refine ⟨fun j => ⟨?_, ?_⟩, fun j => ?_, fun j => ?_, fun j => ?_⟩
  · -- every token is at least zero
    have := Cert.MaskLib.all_sge_const x _ 0#32 (fun _ => rfl) _ _ _ _ h4 j
    have hz : (0#32 : BitVec 32).toInt = 0 := by decide
    rwa [hz] at this
  · -- every token is below 50000
    have := Cert.MaskLib.all_slt_const x _ 50000#32 (fun _ => rfl) _ _ _ _ h5 j
    have hk : (50000#32 : BitVec 32).toInt = 50000 := by decide
    rwa [hk] at this
  · -- every entry of the table has absolute value below plus infinity
    exact real_of_abs_lt_inf (emb j) (Host.reduce_andi_all _ _ _ _ _ h1 j)
  · -- every entry of the weight row
    exact real_of_abs_lt_inf (W j) (Host.reduce_andi_all _ _ _ _ _ h2 j)
  · -- the bias
    exact real_of_abs_lt_inf (b j) (Host.reduce_andi_all _ _ _ _ _ h3 j)

end Cert.LogReg

end
-- ==== Proof.KDefs.lean ====
/-
  The kernel body's counting, as a recurrence.

  At a grid point the body holds a 200 x 128 block of tokens (position by batch lane) and a column of 256
  vocabulary ids. Starting from zeros it runs over the 200 positions; at position s it compares every id with
  every lane's token at that position and adds the 256 x 128 array of matches (ones and zeros). The result is
  the count array; "count is positive" is the presence array.
-/
import proofs.«431388_j63694365000268_1_alg».proof.Proof.Gen.KernelIdeal.Skeleton
import Idealize.ShloMosaic.Lib.Pipeline.FrameBody

noncomputable section

namespace Cert.LogReg

open Idealize.ShloMosaic Cert.KernelIdeal Cert.KernelIdeal.Gen

variable {F : FTy → Type} [FloatOps F]

/-- One position: add to the running count the matches of the id column against one row of tokens. -/
def cstep (vid : IVec S256x1 32) (acc : FVec F S256x128 .f32) (row : Vec F S1x128 .i32) : FVec F S256x128 .f32 :=
  addf acc (sitofp .f32 (extui 32 (cmpi .eq (broadcastTo S256x128 vid Facts₀.broadcasts_S256x1_S256x128)
    (broadcastTo S256x128 (shapeCast S1x128 (shapeCast S128 row Facts₀.shapeCasts_S1x128_S128) Facts₀.shapeCasts_S128_S1x128)
      Facts₀.broadcasts_S1x128_S256x128)) Facts₀.natLt_1_32))

/-- Row s of the token block lies inside it. -/
theorem row_inb (s : ℕ) (hs : s < 200) : ∀ a, (![s, 0] : Fin 2 → Nat) a + (![1, 128] : Fin 2 → Nat) a ≤ S200x128.size a := by
  intro a; match a with
  | ⟨0, _⟩ => show s + 1 ≤ 200; omega
  | ⟨1, _⟩ => show 0 + 128 ≤ 128; omega

/-- Row s of the token block. -/
def rowOf (x0 : Vec F S200x128 .i32) (s : ℕ) (hs : s < 200) : Vec F S1x128 .i32 :=
  View.ld x0 (Rect.unit ![s, 0] ![1, 128] (row_inb s hs))

/-- The running count after the first n positions. -/
def cntTo (vid : IVec S256x1 32) (x0 : Vec F S200x128 .i32) : (n : ℕ) → n ≤ 200 → FVec F S256x128 .f32
  | 0, _ => broadcast S256x128 (Scalar.ofBits .f32 0x00000000#32)
  | n + 1, h => cstep vid (cntTo vid x0 n (Nat.le_of_succ_le h)) (rowOf x0 n h)

/-- The count over all 200 positions. -/
def cntAll (vid : IVec S256x1 32) (x0 : Vec F S200x128 .i32) : FVec F S256x128 .f32 := cntTo vid x0 200 le_rfl

/-- The presence array: one where the count is positive, zero elsewhere. -/
def presOf (cnt : FVec F S256x128 .f32) : FVec F S256x128 .f32 :=
  sitofp .f32 (extui 32 (cmpf .ogt cnt (broadcast S256x128 (Scalar.ofBits .f32 0x00000000#32))) Facts₀.natLt_1_32)

end Cert.LogReg

end
-- ==== Proof.Pieces.lean ====
/-
  What the kernel body leaves behind at a grid point, case by case, as pure functions of what it loaded.

  Every case counts the block's tokens against the block's 256 vocabulary ids (cntAll) and forms the two
  contributions of the block: the table block times the counts, and the weight block times "count is positive".
  At the first vocabulary block of a batch tile (case A) the two accumulators are first reset to zero, so they end at
  zero plus the contribution; at every later block (cases B and C) they end at what the block before left plus the
  contribution; at the last vocabulary block (case C) the body also forms the logit from the finished accumulators and
  stores its sigmoid into the output block.
-/
import proofs.«431388_j63694365000268_1_alg».proof.Proof.Gen.KernelIdeal.Frame
import proofs.«431388_j63694365000268_1_alg».proof.Proof.KDefs
import Idealize.ShloMosaic.Lib.Pipeline.Value

set_option maxRecDepth 65536

noncomputable section

namespace Cert.LogReg

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

/-- The block's contribution to the table accumulator, over what the accumulator held. -/
abbrev accE (i : grid0.Coords) (x0 : Vec F S200x128 .i32) (x1 : Vec F S300x256 .bf16) (a : Vec F S300x128 .f32) : FVec F S300x128 .f32 :=
  k0_pay74 (cntAll (k0_pay5 i) x0) x1 a

/-- The block's contribution to the weight accumulator, over what the accumulator held. -/
abbrev accW (i : grid0.Coords) (x0 : Vec F S200x128 .i32) (x2 : Vec F S1x256 .bf16) (a : Vec F S1x128 .f32) : FVec F S1x128 .f32 :=
  k0_pay1 (k0_pay73 (presOf (cntAll (k0_pay5 i) x0)) x2) a

/-- The offset of a whole-buffer rectangle: zero on both axes. -/
private theorem hz2 : (![0, 0] : Fin 2 → Nat) = fun _ => 0 := by
  funext a; match a with | ⟨0, _⟩ => rfl | ⟨1, _⟩ => rfl

theorem sout_A_0 (c : Dev nD) (i : grid0.Coords) (arg2 : Memref sig .tc .vmem S200x128 .i32) (harg2 : arg2.IsWhole) (arg3 : Memref sig .tc .vmem S300x256 .bf16) (harg3 : arg3.IsWhole) (arg4 : Memref sig .tc .vmem S1x256 .bf16) (harg4 : arg4.IsWhole) (arg5 : Memref sig .tc .vmem S1x300 .bf16) (harg5 : arg5.IsWhole) (arg6 : Memref sig .tc .vmem S1x1 .f32) (harg6 : arg6.IsWhole) (arg7 : Memref sig .tc .vmem S1x128 .f32) (harg7 : arg7.IsWhole) (arg8 : Memref sig .tc .vmem S300x128 .f32) (harg8 : arg8.IsWhole) (arg9 : Memref sig .tc .vmem S1x128 .f32) (harg9 : arg9.IsWhole) (hc0 : cond0_0 i) (hc1 : ¬cond0_1 i) (x0 : Vec F S200x128 .i32) (x1 : Vec F S300x256 .bf16) (x2 : Vec F S1x256 .bf16) (x3 : Vec F S1x300 .bf16) (x4 : Vec F S1x1 .f32) :
    sout0_A_0 c i arg2 harg2 arg3 harg3 arg4 harg4 arg5 harg5 arg6 harg6 arg7 harg7 arg8 harg8 arg9 harg9 hc0 hc1 x0 x1 x2 x3 x4 = accE i x0 x1 k0_pay3 := by
  -- the table accumulator ends with two whole-buffer pieces, the update over the reset: the later one is what is left
  unfold sout0_A_0
  rw [View.read_writes_eq_canon _ _ _ (scover0_A_0 c i arg2 harg2 arg3 harg3 arg4 harg4 arg5 harg5 arg6 harg6 arg7 harg7 arg8 harg8 arg9 harg9 hc0 hc1 x0 x1 x2 x3 x4)]
  unfold kernelRun0_A
  dsimp only
  sl_unfold_words
  rw [View.canon_cons_unit_zero (S := S300x128) hz2]
  -- the update read the accumulator back after the reset, so it read the reset value; the inputs read as given
  simp only [View.readAt_eq_ld, harg2.read_unread, harg3.read_unread, View.ld_unit_zero (S := S300x256) hz2, View.readCov_unit_zero (S := S300x128) _ hz2]
  -- the 200 unrolled additions of matches are the recurrence cntTo run to 200
  rfl

theorem sout_A_1 (c : Dev nD) (i : grid0.Coords) (arg2 : Memref sig .tc .vmem S200x128 .i32) (harg2 : arg2.IsWhole) (arg3 : Memref sig .tc .vmem S300x256 .bf16) (harg3 : arg3.IsWhole) (arg4 : Memref sig .tc .vmem S1x256 .bf16) (harg4 : arg4.IsWhole) (arg5 : Memref sig .tc .vmem S1x300 .bf16) (harg5 : arg5.IsWhole) (arg6 : Memref sig .tc .vmem S1x1 .f32) (harg6 : arg6.IsWhole) (arg7 : Memref sig .tc .vmem S1x128 .f32) (harg7 : arg7.IsWhole) (arg8 : Memref sig .tc .vmem S300x128 .f32) (harg8 : arg8.IsWhole) (arg9 : Memref sig .tc .vmem S1x128 .f32) (harg9 : arg9.IsWhole) (hc0 : cond0_0 i) (hc1 : ¬cond0_1 i) (x0 : Vec F S200x128 .i32) (x1 : Vec F S300x256 .bf16) (x2 : Vec F S1x256 .bf16) (x3 : Vec F S1x300 .bf16) (x4 : Vec F S1x1 .f32) :
    sout0_A_1 c i arg2 harg2 arg3 harg3 arg4 harg4 arg5 harg5 arg6 harg6 arg7 harg7 arg8 harg8 arg9 harg9 hc0 hc1 x0 x1 x2 x3 x4 = accW i x0 x2 k0_pay4 := by
  -- the weight accumulator ends with two whole-buffer pieces, the update over the reset: the later one is what is left
  unfold sout0_A_1
  rw [View.read_writes_eq_canon _ _ _ (scover0_A_1 c i arg2 harg2 arg3 harg3 arg4 harg4 arg5 harg5 arg6 harg6 arg7 harg7 arg8 harg8 arg9 harg9 hc0 hc1 x0 x1 x2 x3 x4)]
  unfold kernelRun0_A
  dsimp only
  sl_unfold_words
  rw [View.canon_cons_unit_zero (S := S1x128) hz2]
  -- the update read the accumulator back after the reset, so it read the reset value; the inputs read as given
  simp only [View.readAt_eq_ld, harg2.read_unread, harg4.read_unread, View.ld_unit_zero (S := S1x256) hz2, View.readCov_unit_zero (S := S1x128) _ hz2]
  -- the 200 unrolled additions of matches are the recurrence cntTo run to 200, and the comparison with zero is presOf
  rfl

theorem sout_B_0 (c : Dev nD) (i : grid0.Coords) (arg2 : Memref sig .tc .vmem S200x128 .i32) (harg2 : arg2.IsWhole) (arg3 : Memref sig .tc .vmem S300x256 .bf16) (harg3 : arg3.IsWhole) (arg4 : Memref sig .tc .vmem S1x256 .bf16) (harg4 : arg4.IsWhole) (arg5 : Memref sig .tc .vmem S1x300 .bf16) (harg5 : arg5.IsWhole) (arg6 : Memref sig .tc .vmem S1x1 .f32) (harg6 : arg6.IsWhole) (arg7 : Memref sig .tc .vmem S1x128 .f32) (harg7 : arg7.IsWhole) (arg8 : Memref sig .tc .vmem S300x128 .f32) (harg8 : arg8.IsWhole) (arg9 : Memref sig .tc .vmem S1x128 .f32) (harg9 : arg9.IsWhole) (hc0 : ¬cond0_0 i) (hc1 : ¬cond0_1 i) (x0 : Vec F S200x128 .i32) (x1 : Vec F S300x256 .bf16) (x2 : Vec F S1x256 .bf16) (x3 : Vec F S1x300 .bf16) (x4 : Vec F S1x1 .f32) (xs0 : Vec F S300x128 .f32) (xs1 : Vec F S1x128 .f32) :
    sout0_B_0 c i arg2 harg2 arg3 harg3 arg4 harg4 arg5 harg5 arg6 harg6 arg7 harg7 arg8 harg8 arg9 harg9 hc0 hc1 x0 x1 x2 x3 x4 xs0 xs1 = accE i x0 x1 xs0 := by
  -- the table accumulator ends with one whole-buffer piece: its payload is what is left
  unfold sout0_B_0
  rw [View.read_writes_eq_canon _ _ _ (scover0_B_0 c i arg2 harg2 arg3 harg3 arg4 harg4 arg5 harg5 arg6 harg6 arg7 harg7 arg8 harg8 arg9 harg9 hc0 hc1 x0 x1 x2 x3 x4 xs0 xs1)]
  unfold kernelRun0_B
  dsimp only
  sl_unfold_words
  rw [View.canon_unit_zero hz2]
  -- whole-buffer loads read the contents: the inputs as given, the accumulator as the point before left it
  simp only [View.readAt_eq_ld, harg2.read_unread, harg3.read_unread, harg8.read_unread, View.ld_unit_zero (S := S300x256) hz2, View.ld_unit_zero (S := S300x128) hz2]
  -- the 200 unrolled additions of matches are the recurrence cntTo run to 200
  rfl

theorem sout_B_1 (c : Dev nD) (i : grid0.Coords) (arg2 : Memref sig .tc .vmem S200x128 .i32) (harg2 : arg2.IsWhole) (arg3 : Memref sig .tc .vmem S300x256 .bf16) (harg3 : arg3.IsWhole) (arg4 : Memref sig .tc .vmem S1x256 .bf16) (harg4 : arg4.IsWhole) (arg5 : Memref sig .tc .vmem S1x300 .bf16) (harg5 : arg5.IsWhole) (arg6 : Memref sig .tc .vmem S1x1 .f32) (harg6 : arg6.IsWhole) (arg7 : Memref sig .tc .vmem S1x128 .f32) (harg7 : arg7.IsWhole) (arg8 : Memref sig .tc .vmem S300x128 .f32) (harg8 : arg8.IsWhole) (arg9 : Memref sig .tc .vmem S1x128 .f32) (harg9 : arg9.IsWhole) (hc0 : ¬cond0_0 i) (hc1 : ¬cond0_1 i) (x0 : Vec F S200x128 .i32) (x1 : Vec F S300x256 .bf16) (x2 : Vec F S1x256 .bf16) (x3 : Vec F S1x300 .bf16) (x4 : Vec F S1x1 .f32) (xs0 : Vec F S300x128 .f32) (xs1 : Vec F S1x128 .f32) :
    sout0_B_1 c i arg2 harg2 arg3 harg3 arg4 harg4 arg5 harg5 arg6 harg6 arg7 harg7 arg8 harg8 arg9 harg9 hc0 hc1 x0 x1 x2 x3 x4 xs0 xs1 = accW i x0 x2 xs1 := by
  -- the weight accumulator ends with one whole-buffer piece: its payload is what is left
  unfold sout0_B_1
  rw [View.read_writes_eq_canon _ _ _ (scover0_B_1 c i arg2 harg2 arg3 harg3 arg4 harg4 arg5 harg5 arg6 harg6 arg7 harg7 arg8 harg8 arg9 harg9 hc0 hc1 x0 x1 x2 x3 x4 xs0 xs1)]
  unfold kernelRun0_B
  dsimp only
  sl_unfold_words
  rw [View.canon_unit_zero hz2]
  -- whole-buffer loads read the contents: the inputs as given, the accumulator as the point before left it
  simp only [View.readAt_eq_ld, harg2.read_unread, harg4.read_unread, harg9.read_unread, View.ld_unit_zero (S := S1x256) hz2, View.ld_unit_zero (S := S1x128) hz2]
  -- the 200 unrolled additions of matches are the recurrence cntTo run to 200, and the comparison with zero is presOf
  rfl

theorem sout_C_0 (c : Dev nD) (i : grid0.Coords) (arg2 : Memref sig .tc .vmem S200x128 .i32) (harg2 : arg2.IsWhole) (arg3 : Memref sig .tc .vmem S300x256 .bf16) (harg3 : arg3.IsWhole) (arg4 : Memref sig .tc .vmem S1x256 .bf16) (harg4 : arg4.IsWhole) (arg5 : Memref sig .tc .vmem S1x300 .bf16) (harg5 : arg5.IsWhole) (arg6 : Memref sig .tc .vmem S1x1 .f32) (harg6 : arg6.IsWhole) (arg7 : Memref sig .tc .vmem S1x128 .f32) (harg7 : arg7.IsWhole) (arg8 : Memref sig .tc .vmem S300x128 .f32) (harg8 : arg8.IsWhole) (arg9 : Memref sig .tc .vmem S1x128 .f32) (harg9 : arg9.IsWhole) (hc0 : ¬cond0_0 i) (hc1 : cond0_1 i) (x0 : Vec F S200x128 .i32) (x1 : Vec F S300x256 .bf16) (x2 : Vec F S1x256 .bf16) (x3 : Vec F S1x300 .bf16) (x4 : Vec F S1x1 .f32) (xs0 : Vec F S300x128 .f32) (xs1 : Vec F S1x128 .f32) :
    sout0_C_0 c i arg2 harg2 arg3 harg3 arg4 harg4 arg5 harg5 arg6 harg6 arg7 harg7 arg8 harg8 arg9 harg9 hc0 hc1 x0 x1 x2 x3 x4 xs0 xs1 = accE i x0 x1 xs0 := by
  -- the table accumulator ends with one whole-buffer piece: its payload is what is left
  unfold sout0_C_0
  rw [View.read_writes_eq_canon _ _ _ (scover0_C_0 c i arg2 harg2 arg3 harg3 arg4 harg4 arg5 harg5 arg6 harg6 arg7 harg7 arg8 harg8 arg9 harg9 hc0 hc1 x0 x1 x2 x3 x4 xs0 xs1)]
  unfold kernelRun0_C
  dsimp only
  sl_unfold_words
  rw [View.canon_unit_zero hz2]
  -- whole-buffer loads read the contents: the inputs as given, the accumulator as the point before left it
  simp only [View.readAt_eq_ld, harg2.read_unread, harg3.read_unread, harg8.read_unread, View.ld_unit_zero (S := S300x256) hz2, View.ld_unit_zero (S := S300x128) hz2]
  -- the 200 unrolled additions of matches are the recurrence cntTo run to 200
  rfl

theorem sout_C_1 (c : Dev nD) (i : grid0.Coords) (arg2 : Memref sig .tc .vmem S200x128 .i32) (harg2 : arg2.IsWhole) (arg3 : Memref sig .tc .vmem S300x256 .bf16) (harg3 : arg3.IsWhole) (arg4 : Memref sig .tc .vmem S1x256 .bf16) (harg4 : arg4.IsWhole) (arg5 : Memref sig .tc .vmem S1x300 .bf16) (harg5 : arg5.IsWhole) (arg6 : Memref sig .tc .vmem S1x1 .f32) (harg6 : arg6.IsWhole) (arg7 : Memref sig .tc .vmem S1x128 .f32) (harg7 : arg7.IsWhole) (arg8 : Memref sig .tc .vmem S300x128 .f32) (harg8 : arg8.IsWhole) (arg9 : Memref sig .tc .vmem S1x128 .f32) (harg9 : arg9.IsWhole) (hc0 : ¬cond0_0 i) (hc1 : cond0_1 i) (x0 : Vec F S200x128 .i32) (x1 : Vec F S300x256 .bf16) (x2 : Vec F S1x256 .bf16) (x3 : Vec F S1x300 .bf16) (x4 : Vec F S1x1 .f32) (xs0 : Vec F S300x128 .f32) (xs1 : Vec F S1x128 .f32) :
    sout0_C_1 c i arg2 harg2 arg3 harg3 arg4 harg4 arg5 harg5 arg6 harg6 arg7 harg7 arg8 harg8 arg9 harg9 hc0 hc1 x0 x1 x2 x3 x4 xs0 xs1 = accW i x0 x2 xs1 := by
  -- the weight accumulator ends with one whole-buffer piece: its payload is what is left
  unfold sout0_C_1
  rw [View.read_writes_eq_canon _ _ _ (scover0_C_1 c i arg2 harg2 arg3 harg3 arg4 harg4 arg5 harg5 arg6 harg6 arg7 harg7 arg8 harg8 arg9 harg9 hc0 hc1 x0 x1 x2 x3 x4 xs0 xs1)]
  unfold kernelRun0_C
  dsimp only
  sl_unfold_words
  rw [View.canon_unit_zero hz2]
  -- whole-buffer loads read the contents: the inputs as given, the accumulator as the point before left it
  simp only [View.readAt_eq_ld, harg2.read_unread, harg4.read_unread, harg9.read_unread, View.ld_unit_zero (S := S1x256) hz2, View.ld_unit_zero (S := S1x128) hz2]
  -- the 200 unrolled additions of matches are the recurrence cntTo run to 200, and the comparison with zero is presOf
  rfl

theorem out_C_5 (c : Dev nD) (i : grid0.Coords) (arg2 : Memref sig .tc .vmem S200x128 .i32) (harg2 : arg2.IsWhole) (arg3 : Memref sig .tc .vmem S300x256 .bf16) (harg3 : arg3.IsWhole) (arg4 : Memref sig .tc .vmem S1x256 .bf16) (harg4 : arg4.IsWhole) (arg5 : Memref sig .tc .vmem S1x300 .bf16) (harg5 : arg5.IsWhole) (arg6 : Memref sig .tc .vmem S1x1 .f32) (harg6 : arg6.IsWhole) (arg7 : Memref sig .tc .vmem S1x128 .f32) (harg7 : arg7.IsWhole) (arg8 : Memref sig .tc .vmem S300x128 .f32) (harg8 : arg8.IsWhole) (arg9 : Memref sig .tc .vmem S1x128 .f32) (harg9 : arg9.IsWhole) (hc0 : ¬cond0_0 i) (hc1 : cond0_1 i) (x0 : Vec F S200x128 .i32) (x1 : Vec F S300x256 .bf16) (x2 : Vec F S1x256 .bf16) (x3 : Vec F S1x300 .bf16) (x4 : Vec F S1x1 .f32) (xs0 : Vec F S300x128 .f32) (xs1 : Vec F S1x128 .f32) :
    out0_C_5 c i arg2 harg2 arg3 harg3 arg4 harg4 arg5 harg5 arg6 harg6 arg7 harg7 arg8 harg8 arg9 harg9 hc0 hc1 x0 x1 x2 x3 x4 xs0 xs1 = k0_pay2 (accE i x0 x1 xs0) x3 (accW i x0 x2 xs1) x4 := by
  -- the output block ends with one whole-buffer piece: its payload is what is left
  unfold out0_C_5
  rw [View.read_writes_eq_canon _ _ _ (cover0_C_5 c i arg2 harg2 arg3 harg3 arg4 harg4 arg5 harg5 arg6 harg6 arg7 harg7 arg8 harg8 arg9 harg9 hc0 hc1 x0 x1 x2 x3 x4 xs0 xs1)]
  unfold kernelRun0_C
  dsimp only
  sl_unfold_words
  rw [View.canon_unit_zero hz2]
  -- the logit is formed from the accumulators read back after this point's update, so from the updated values;
  -- every other whole-buffer load reads the contents as given
  simp only [View.readAt_eq_ld, harg2.read_unread, harg3.read_unread, harg4.read_unread, harg5.read_unread, harg6.read_unread, harg8.read_unread, harg9.read_unread,
    View.ld_unit_zero (S := S300x256) hz2, View.ld_unit_zero (S := S300x128) hz2, View.ld_unit_zero (S := S1x256) hz2, View.ld_unit_zero (S := S1x128) hz2,
    View.ld_unit_zero (S := S1x300) hz2, View.ld_unit_zero (S := S1x1) hz2,
    View.readCov_unit_zero (S := S300x128) _ hz2, View.readCov_unit_zero (S := S1x128) _ hz2]
  -- the 200 unrolled additions of matches are the recurrence cntTo run to 200, and the comparison with zero is presOf
  rfl

end Cert.LogReg

end
-- ==== Proof.BlockIdx.lean ====
/-
  The kernel body's arithmetic read at an index, at the ideal instance.

  The id column holds, at row r, the number 256 * (vocabulary block) + r. The running count at (r, l) after n
  positions is the number of positions s < n whose token in lane l is the id of row r, as a sum of ones and zeros.
  A matrix product into a zero accumulator is the plain sum over the contracted index; the changes of float format
  are the identity; the named constant is 1/200; the sigmoid is the sigmoid.
-/
import proofs.«431388_j63694365000268_1_alg».proof.Proof.KDefs
import Idealize.ShloMosaic.Lib.ValueIdx
import Idealize.ShloMosaic.Lib.Pipeline.Value
import Idealize.ShloMosaic.PureOps.Ideal.Laws

noncomputable section

open scoped BigOperators

namespace Cert.LogReg

open Idealize.ShloMosaic Idealize.ShloMosaic.ValueIdx Cert.KernelIdeal Cert.KernelIdeal.Gen

/-- The id column at row r. -/
theorem vid_apply (i : grid0.Coords) (r : Fin 256) :
    k0_pay5 i (ix2 r 0) = BitVec.ofNat 32 ((i 1).val * 256 + r.val) := by
  unfold k0_pay5
  show IntOp.addi (IntOp.muli (BitVec.ofNat 32 (i 1).val) 256#32) (iota .tc S256x1 32 [0] Facts₀.iota_S256x1_d0_w32 (ix2 r 0)) = _
  rw [iota_single_apply]
  show BitVec.ofNat 32 (i 1).val * BitVec.ofNat 32 256 + BitVec.ofNat 32 r.val = BitVec.ofNat 32 ((i 1).val * 256 + r.val)
  rw [BitVec.ofNat_add, BitVec.ofNat_mul]

/-! ## One position of the count -/
/-- A one-bit word widened to 32 bits and read as a signed integer, as an extended real: one for the set bit, zero for the clear one. -/
theorem sitofp_bit (b : Bool) :
    (FloatOps.sitofp (F := Ideal) .f32 ((BitVec.ofBool b).setWidth 32) : EReal) = if b then 1 else 0 := by
  cases b
  · show (((0#32 : BitVec 32).toInt : ℝ) : EReal) = 0
    simp
  · show (((1#32 : BitVec 32).toInt : ℝ) : EReal) = 1
    simp

/-- Row s of the token block at lane l. -/
theorem rowOf_apply (x0 : Vec Ideal S200x128 .i32) (s : ℕ) (hs : s < 200) (l : Fin 128) :
    rowOf (F := Ideal) x0 s hs (ix2 0 l) = x0 (ix2 ⟨s, hs⟩ l) := by
  unfold rowOf
  show x0 _ = x0 (ix2 ⟨s, hs⟩ l)
  congr 1
  funext a
  refine Fin.ext ?_
  match a with
  | ⟨0, _⟩ => show s + 1 * 0 = s; omega
  | ⟨1, _⟩ => show 0 + 1 * l.val = l.val; omega

/-- One position at (r, l): the running count plus one when row r's id is lane l's token, plus zero when it is not. -/
theorem cstep_apply (vid : IVec S256x1 32) (acc : FVec Ideal S256x128 .f32) (row : Vec Ideal S1x128 .i32) (r : Fin 256) (l : Fin 128) :
    cstep (F := Ideal) vid acc row (ix2 r l) = acc (ix2 r l) + if vid (ix2 r 0) = row (ix2 0 l) then (1 : EReal) else 0 := by
  unfold cstep
  rw [shapeCast_shapeCast]
  have hv : broadcastTo S256x128 vid Facts₀.broadcasts_S256x1_S256x128 (ix2 r l) = vid (ix2 r 0) :=
    broadcastTo_apply vid _ (ix2 r l) (ix2 r 0) (fun a => match a with
      | ⟨0, _⟩ => rfl
      | ⟨1, _⟩ => rfl)
  have hr : broadcastTo S256x128 row Facts₀.broadcasts_S1x128_S256x128 (ix2 r l) = row (ix2 0 l) :=
    broadcastTo_apply row _ (ix2 r l) (ix2 0 l) (fun a => match a with
      | ⟨0, _⟩ => rfl
      | ⟨1, _⟩ => rfl)
  show acc (ix2 r l) + FloatOps.sitofp (F := Ideal) .f32 ((IntOp.cmpi .eq (broadcastTo S256x128 vid Facts₀.broadcasts_S256x1_S256x128 (ix2 r l))
      (broadcastTo S256x128 row Facts₀.broadcasts_S1x128_S256x128 (ix2 r l))).setWidth 32) = _
  rw [hv, hr]
  show acc (ix2 r l) + FloatOps.sitofp (F := Ideal) .f32 ((BitVec.ofBool (vid (ix2 r 0) == row (ix2 0 l))).setWidth 32) = _
  rw [sitofp_bit]
  by_cases h : vid (ix2 r 0) = row (ix2 0 l)
  · simp [h]
  · simp [h]

/-- The running count at (r, l): the positions below n whose token in lane l is row r's id. -/
theorem cntTo_apply (vid : IVec S256x1 32) (x0 : Vec Ideal S200x128 .i32) (n : ℕ) (h : n ≤ 200) (r : Fin 256) (l : Fin 128) :
    cntTo (F := Ideal) vid x0 n h (ix2 r l)
      = ∑ s ∈ Finset.range n, if hs : s < 200 then (if vid (ix2 r 0) = x0 (ix2 ⟨s, hs⟩ l) then (1 : EReal) else 0) else 0 := by
  induction n with
  | zero =>
    rw [Finset.sum_range_zero]
    exact Ideal.ofBits_zero_f32
  | succ n ih =>
    have hn : n < 200 := h
    rw [Finset.sum_range_succ, dif_pos hn, ← ih (Nat.le_of_succ_le h), ← rowOf_apply x0 n hn l, ← cstep_apply]
    rfl

/-- The presence array at (r, l). -/
theorem presOf_apply (C : FVec Ideal S256x128 .f32) (r : Fin 256) (l : Fin 128) :
    presOf (F := Ideal) C (ix2 r l) = if 0 < C (ix2 r l) then (1 : EReal) else 0 := by
  unfold presOf
  show FloatOps.sitofp (F := Ideal) .f32 ((Ideal.cmp .ogt (C (ix2 r l)) (Ideal.ofBits .f32 0x00000000#32)).setWidth 32) = _
  rw [Ideal.ofBits_zero_f32]
  show FloatOps.sitofp (F := Ideal) .f32 ((BitVec.ofBool (decide (0 < C (ix2 r l)))).setWidth 32) = _
  rw [sitofp_bit]
  by_cases h : 0 < C (ix2 r l)
  · simp [h]
  · simp [h]

/-! ## The three matrix products, read at an index

  Each contracts axis 1 of its left operand with axis 0 of its right one, with no batch axis: the left index at output
  index i and contraction index k is (i 0, k), the right one (k, i 1). -/

theorem lhs_tbl_0 (i : S300x128.Idx) (q : dot_S300x256_S256x128_S300x128_1_0_0_1_n_n.contr.Idx) :
    (dot_S300x256_S256x128_S300x128_1_0_0_1_n_n.lhsIdx i q 0).val = (i 0).val := by
  unfold DotDims.lhsIdx
  rw [dif_neg (show ¬(0 : Fin S300x256.rank) ∈ dot_S300x256_S256x128_S300x128_1_0_0_1_n_n.lhsBatch by decide), dif_pos (show (0 : Fin S300x256.rank) ∈ dot_S300x256_S256x128_S300x128_1_0_0_1_n_n.lhsNonContracting by decide)]
  rfl
theorem lhs_tbl_1 (i : S300x128.Idx) (q : dot_S300x256_S256x128_S300x128_1_0_0_1_n_n.contr.Idx) :
    (dot_S300x256_S256x128_S300x128_1_0_0_1_n_n.lhsIdx i q 1).val = (q ⟨0, by decide⟩).val :=
  dot_S300x256_S256x128_S300x128_1_0_0_1_n_n.lhsIdx_val_of_single rfl i q
theorem rhs_tbl_0 (i : S300x128.Idx) (q : dot_S300x256_S256x128_S300x128_1_0_0_1_n_n.contr.Idx) :
    (dot_S300x256_S256x128_S300x128_1_0_0_1_n_n.rhsIdx i q 0).val = (q ⟨0, by decide⟩).val :=
  dot_S300x256_S256x128_S300x128_1_0_0_1_n_n.rhsIdx_val_of_single rfl i q
theorem rhs_tbl_1 (i : S300x128.Idx) (q : dot_S300x256_S256x128_S300x128_1_0_0_1_n_n.contr.Idx) :
    (dot_S300x256_S256x128_S300x128_1_0_0_1_n_n.rhsIdx i q 1).val = (i 1).val := by
  unfold DotDims.rhsIdx
  rw [dif_neg (show ¬(1 : Fin S256x128.rank) ∈ dot_S300x256_S256x128_S300x128_1_0_0_1_n_n.rhsBatch by decide), dif_pos (show (1 : Fin S256x128.rank) ∈ dot_S300x256_S256x128_S300x128_1_0_0_1_n_n.rhsNonContracting by decide)]
  rfl

/-- The table block times the count block: at (e, l) the sum over the 256 ids of the block. -/
theorem matmul_tbl_apply {φ₁ φ₂ : FTy} (lhs : FVec Ideal S300x256 φ₁) (rhs : FVec Ideal S256x128 φ₂) (i : S300x128.Idx) :
    FloatOps.matmul dot_S300x256_S256x128_S300x128_1_0_0_1_n_n none lhs rhs (constant (F := Ideal) S300x128 .f32 0x00000000#32) i
      = ∑ k : Fin 256, lhs (ix2 (i 0) k) * rhs (ix2 k (i 1)) := by
  rw [Ideal.matmul_constant_zero_apply, ← Equiv.sum_comp (ValueIdx.contrEquiv1 dot_S300x256_S256x128_S300x128_1_0_0_1_n_n 256 rfl rfl).symm]
  refine Finset.sum_congr rfl fun k _ => ?_
  have hk := ValueIdx.contrEquiv1_symm_val dot_S300x256_S256x128_S300x128_1_0_0_1_n_n 256 rfl rfl k
  have el : dot_S300x256_S256x128_S300x128_1_0_0_1_n_n.lhsIdx i ((ValueIdx.contrEquiv1 dot_S300x256_S256x128_S300x128_1_0_0_1_n_n 256 rfl rfl).symm k) = ix2 (i 0) k := funext fun a => Fin.ext (by
    match a with
    | ⟨0, _⟩ => exact lhs_tbl_0 _ _
    | ⟨1, _⟩ => exact (lhs_tbl_1 _ _).trans hk)
  have er : dot_S300x256_S256x128_S300x128_1_0_0_1_n_n.rhsIdx i ((ValueIdx.contrEquiv1 dot_S300x256_S256x128_S300x128_1_0_0_1_n_n 256 rfl rfl).symm k) = ix2 k (i 1) := funext fun a => Fin.ext (by
    match a with
    | ⟨0, _⟩ => exact (rhs_tbl_0 _ _).trans hk
    | ⟨1, _⟩ => exact rhs_tbl_1 _ _)
  rw [el, er]
  rfl

theorem lhs_wgt_0 (i : S1x128.Idx) (q : dot_S1x256_S256x128_S1x128_1_0_0_1_n_n.contr.Idx) :
    (dot_S1x256_S256x128_S1x128_1_0_0_1_n_n.lhsIdx i q 0).val = (i 0).val := by
  unfold DotDims.lhsIdx
  rw [dif_neg (show ¬(0 : Fin S1x256.rank) ∈ dot_S1x256_S256x128_S1x128_1_0_0_1_n_n.lhsBatch by decide), dif_pos (show (0 : Fin S1x256.rank) ∈ dot_S1x256_S256x128_S1x128_1_0_0_1_n_n.lhsNonContracting by decide)]
  rfl
theorem lhs_wgt_1 (i : S1x128.Idx) (q : dot_S1x256_S256x128_S1x128_1_0_0_1_n_n.contr.Idx) :
    (dot_S1x256_S256x128_S1x128_1_0_0_1_n_n.lhsIdx i q 1).val = (q ⟨0, by decide⟩).val :=
  dot_S1x256_S256x128_S1x128_1_0_0_1_n_n.lhsIdx_val_of_single rfl i q
theorem rhs_wgt_0 (i : S1x128.Idx) (q : dot_S1x256_S256x128_S1x128_1_0_0_1_n_n.contr.Idx) :
    (dot_S1x256_S256x128_S1x128_1_0_0_1_n_n.rhsIdx i q 0).val = (q ⟨0, by decide⟩).val :=
  dot_S1x256_S256x128_S1x128_1_0_0_1_n_n.rhsIdx_val_of_single rfl i q
theorem rhs_wgt_1 (i : S1x128.Idx) (q : dot_S1x256_S256x128_S1x128_1_0_0_1_n_n.contr.Idx) :
    (dot_S1x256_S256x128_S1x128_1_0_0_1_n_n.rhsIdx i q 1).val = (i 1).val := by
  unfold DotDims.rhsIdx
  rw [dif_neg (show ¬(1 : Fin S256x128.rank) ∈ dot_S1x256_S256x128_S1x128_1_0_0_1_n_n.rhsBatch by decide), dif_pos (show (1 : Fin S256x128.rank) ∈ dot_S1x256_S256x128_S1x128_1_0_0_1_n_n.rhsNonContracting by decide)]
  rfl

/-- The weight block times the presence block: at lane l the sum over the 256 ids of the block. -/
theorem matmul_wgt_apply {φ₁ φ₂ : FTy} (lhs : FVec Ideal S1x256 φ₁) (rhs : FVec Ideal S256x128 φ₂) (i : S1x128.Idx) :
    FloatOps.matmul dot_S1x256_S256x128_S1x128_1_0_0_1_n_n none lhs rhs (constant (F := Ideal) S1x128 .f32 0x00000000#32) i
      = ∑ k : Fin 256, lhs (ix2 (i 0) k) * rhs (ix2 k (i 1)) := by
  rw [Ideal.matmul_constant_zero_apply, ← Equiv.sum_comp (ValueIdx.contrEquiv1 dot_S1x256_S256x128_S1x128_1_0_0_1_n_n 256 rfl rfl).symm]
  refine Finset.sum_congr rfl fun k _ => ?_
  have hk := ValueIdx.contrEquiv1_symm_val dot_S1x256_S256x128_S1x128_1_0_0_1_n_n 256 rfl rfl k
  have el : dot_S1x256_S256x128_S1x128_1_0_0_1_n_n.lhsIdx i ((ValueIdx.contrEquiv1 dot_S1x256_S256x128_S1x128_1_0_0_1_n_n 256 rfl rfl).symm k) = ix2 (i 0) k := funext fun a => Fin.ext (by
    match a with
    | ⟨0, _⟩ => exact lhs_wgt_0 _ _
    | ⟨1, _⟩ => exact (lhs_wgt_1 _ _).trans hk)
  have er : dot_S1x256_S256x128_S1x128_1_0_0_1_n_n.rhsIdx i ((ValueIdx.contrEquiv1 dot_S1x256_S256x128_S1x128_1_0_0_1_n_n 256 rfl rfl).symm k) = ix2 k (i 1) := funext fun a => Fin.ext (by
    match a with
    | ⟨0, _⟩ => exact (rhs_wgt_0 _ _).trans hk
    | ⟨1, _⟩ => exact rhs_wgt_1 _ _)
  rw [el, er]
  rfl

theorem lhs_emb_0 (i : S1x128.Idx) (q : dot_S1x300_S300x128_S1x128_1_0_0_1_n_n.contr.Idx) :
    (dot_S1x300_S300x128_S1x128_1_0_0_1_n_n.lhsIdx i q 0).val = (i 0).val := by
  unfold DotDims.lhsIdx
  rw [dif_neg (show ¬(0 : Fin S1x300.rank) ∈ dot_S1x300_S300x128_S1x128_1_0_0_1_n_n.lhsBatch by decide), dif_pos (show (0 : Fin S1x300.rank) ∈ dot_S1x300_S300x128_S1x128_1_0_0_1_n_n.lhsNonContracting by decide)]
  rfl
theorem lhs_emb_1 (i : S1x128.Idx) (q : dot_S1x300_S300x128_S1x128_1_0_0_1_n_n.contr.Idx) :
    (dot_S1x300_S300x128_S1x128_1_0_0_1_n_n.lhsIdx i q 1).val = (q ⟨0, by decide⟩).val :=
  dot_S1x300_S300x128_S1x128_1_0_0_1_n_n.lhsIdx_val_of_single rfl i q
theorem rhs_emb_0 (i : S1x128.Idx) (q : dot_S1x300_S300x128_S1x128_1_0_0_1_n_n.contr.Idx) :
    (dot_S1x300_S300x128_S1x128_1_0_0_1_n_n.rhsIdx i q 0).val = (q ⟨0, by decide⟩).val :=
  dot_S1x300_S300x128_S1x128_1_0_0_1_n_n.rhsIdx_val_of_single rfl i q
theorem rhs_emb_1 (i : S1x128.Idx) (q : dot_S1x300_S300x128_S1x128_1_0_0_1_n_n.contr.Idx) :
    (dot_S1x300_S300x128_S1x128_1_0_0_1_n_n.rhsIdx i q 1).val = (i 1).val := by
  unfold DotDims.rhsIdx
  rw [dif_neg (show ¬(1 : Fin S300x128.rank) ∈ dot_S1x300_S300x128_S1x128_1_0_0_1_n_n.rhsBatch by decide), dif_pos (show (1 : Fin S300x128.rank) ∈ dot_S1x300_S300x128_S1x128_1_0_0_1_n_n.rhsNonContracting by decide)]
  rfl

/-- The embedding weights times the scaled table accumulator: at lane l the sum over the 300 columns. -/
theorem matmul_emb_apply {φ₁ φ₂ : FTy} (lhs : FVec Ideal S1x300 φ₁) (rhs : FVec Ideal S300x128 φ₂) (i : S1x128.Idx) :
    FloatOps.matmul dot_S1x300_S300x128_S1x128_1_0_0_1_n_n none lhs rhs (constant (F := Ideal) S1x128 .f32 0x00000000#32) i
      = ∑ k : Fin 300, lhs (ix2 (i 0) k) * rhs (ix2 k (i 1)) := by
  rw [Ideal.matmul_constant_zero_apply, ← Equiv.sum_comp (ValueIdx.contrEquiv1 dot_S1x300_S300x128_S1x128_1_0_0_1_n_n 300 rfl rfl).symm]
  refine Finset.sum_congr rfl fun k _ => ?_
  have hk := ValueIdx.contrEquiv1_symm_val dot_S1x300_S300x128_S1x128_1_0_0_1_n_n 300 rfl rfl k
  have el : dot_S1x300_S300x128_S1x128_1_0_0_1_n_n.lhsIdx i ((ValueIdx.contrEquiv1 dot_S1x300_S300x128_S1x128_1_0_0_1_n_n 300 rfl rfl).symm k) = ix2 (i 0) k := funext fun a => Fin.ext (by
    match a with
    | ⟨0, _⟩ => exact lhs_emb_0 _ _
    | ⟨1, _⟩ => exact (lhs_emb_1 _ _).trans hk)
  have er : dot_S1x300_S300x128_S1x128_1_0_0_1_n_n.rhsIdx i ((ValueIdx.contrEquiv1 dot_S1x300_S300x128_S1x128_1_0_0_1_n_n 300 rfl rfl).symm k) = ix2 k (i 1) := funext fun a => Fin.ext (by
    match a with
    | ⟨0, _⟩ => exact (rhs_emb_0 _ _).trans hk
    | ⟨1, _⟩ => exact rhs_emb_1 _ _)
  rw [el, er]
  rfl

/-- The named constant is 1/200, by the certificate's table. -/
theorem inv_200 : Named.named (F := Ideal) κ "inv_200" (φ := .f32) 0x3BA3D70A#32 = ((1 / 200 : ℝ) : EReal) :=
  IdealRules.named_const.ideal_named_scalar _ _ _ _ rfl

/-- The table accumulator's update at (e, l). -/
theorem pay74_apply (C : FVec Ideal S256x128 .f32) (X1 : Vec Ideal S300x256 .bf16) (A : Vec Ideal S300x128 .f32) (e : Fin 300) (l : Fin 128) :
    k0_pay74 (F := Ideal) C X1 A (ix2 e l) = A (ix2 e l) + ∑ r : Fin 256, X1 (ix2 e r) * C (ix2 r l) := by
  unfold k0_pay74
  rw [shapeCast_self, shapeCast_self]
  show A (ix2 e l) + FloatOps.matmul dot_S300x256_S256x128_S300x128_1_0_0_1_n_n none X1 (truncf .bf16 C Facts₀.bitsLt_bf16_f32)
    (constant (F := Ideal) S300x128 .f32 0x00000000#32) (ix2 e l) = _
  rw [matmul_tbl_apply]
  rfl

/-- The weight block times the presence array at lane l. -/
theorem pay73_apply (P : FVec Ideal S256x128 .f32) (X2 : Vec Ideal S1x256 .bf16) (l : Fin 128) :
    k0_pay73 (F := Ideal) P X2 (ix2 0 l) = ∑ r : Fin 256, X2 (ix2 0 r) * P (ix2 r l) := by
  unfold k0_pay73
  rw [shapeCast_self]
  show FloatOps.matmul dot_S1x256_S256x128_S1x128_1_0_0_1_n_n none X2 (truncf .bf16 P Facts₀.bitsLt_bf16_f32)
    (constant (F := Ideal) S1x128 .f32 0x00000000#32) (ix2 0 l) = _
  rw [matmul_wgt_apply]
  rfl

/-- The weight accumulator's update at lane l. -/
theorem pay1_apply (v : FVec Ideal S1x128 .f32) (A : Vec Ideal S1x128 .f32) (l : Fin 128) :
    k0_pay1 (F := Ideal) v A (ix2 0 l) = A (ix2 0 l) + v (ix2 0 l) := by
  unfold k0_pay1
  rw [shapeCast_self]
  rfl

/-- The output block at lane l: the sigmoid of the logit formed from the finished accumulators. -/
theorem pay2_apply (S0 : Vec Ideal S300x128 .f32) (X3 : Vec Ideal S1x300 .bf16) (S1 : Vec Ideal S1x128 .f32) (X4 : Vec Ideal S1x1 .f32) (l : Fin 128) :
    k0_pay2 (F := Ideal) S0 X3 S1 X4 (ix2 0 l)
      = Ideal.logistic ((∑ e : Fin 300, X3 (ix2 0 e) * (S0 (ix2 e l) * ((1 / 200 : ℝ) : EReal)) + S1 (ix2 0 l)) + X4 (ix2 0 0)) := by
  unfold k0_pay2
  rw [shapeCast_self]
  have hx : extractAt ![0, 0] X4 Facts₀.inpos_S1x1_p0_0 = X4 (ix2 0 0) := by
    unfold extractAt
    congr 1
    funext a
    refine Fin.ext ?_
    match a with
    | ⟨0, _⟩ => rfl
    | ⟨1, _⟩ => rfl
  show Ideal.logistic ((FloatOps.matmul dot_S1x300_S300x128_S1x128_1_0_0_1_n_n none X3
      (truncf .bf16 (mulf S0 (broadcast S300x128 (Named.named (F := Ideal) κ "inv_200" (φ := .f32) 0x3BA3D70A#32))) Facts₀.bitsLt_bf16_f32)
      (constant (F := Ideal) S1x128 .f32 0x00000000#32) (ix2 0 l) + S1 (ix2 0 l)) + extractAt ![0, 0] X4 Facts₀.inpos_S1x1_p0_0) = _
  rw [matmul_emb_apply, hx, inv_200]
  rfl

/-- The reset values are zero. -/
theorem pay3_apply (j : S300x128.Idx) : k0_pay3 (F := Ideal) j = 0 := by
  unfold k0_pay3
  rw [shapeCast_self]
  exact Ideal.ofBits_zero_f32
theorem pay4_apply (j : S1x128.Idx) : k0_pay4 (F := Ideal) j = 0 := by
  unfold k0_pay4
  rw [shapeCast_self]
  exact Ideal.ofBits_zero_f32

end Cert.LogReg

end
-- ==== Proof.HostArrays.lean ====
/-
  What the kernel program's host operations hand the pallas_call: each window's array when the region is entered,
  read at an index, as a function of the four arguments.

  The token block array is x transposed (position by batch row). The table array is the table transposed and continued
  by 176 zero columns (the padded vocabulary has 50176 = 196 * 256 ids). The vocabulary-weight array is the weight row's
  last 50000 entries continued by 176 zeros; the embedding-weight array its first 300 entries; the bias array the bias.
  The changes of float format on the way are the identity at the ideal instance.
-/
import proofs.«431388_j63694365000268_1_alg».proof.Proof.Gen.KernelIdeal.Frame.Runs
import proofs.«431388_j63694365000268_1_alg».proof.Proof.Spec
import Idealize.ShloMosaic.Lib.Pipeline.Value
import Idealize.ShloMosaic.Lib.StableHlo.Run
import Idealize.ShloMosaic.Lib.KernelVsHost

noncomputable section

namespace Cert.LogReg

open Idealize.ShloMosaic Idealize.ShloMosaic.ValueIdx Idealize.ShloMosaic.TcCoe Idealize.SL.Sem
open Cert.KernelIdeal Cert.KernelIdeal.Gen

/-! ## Reading a padded array at an index -/

/-- A two-axis array continued on the high side of its second axis (no low padding, nothing between the entries)
    reads the operand at a column inside the operand's extent and the padding value at a column past it. -/
theorem pad_cols_apply {α : Type} {r n N p : ℕ} (x : (⟨2, ![r, n]⟩ : Shape).Idx → α) {u : Shape} (z : u.Idx → α)
    (h : (⟨2, ![r, n]⟩ : Shape).Pads (![0, 0] : Fin 2 → ℕ) ![0, p] ![0, 0] ⟨2, ![r, N]⟩) (hu : 0 < u.numel)
    (i : Fin r) (j : Fin N) :
    pad (⟨2, ![r, N]⟩ : Shape) ![0, 0] ![0, p] ![0, 0] x z h hu (ix2 i j)
      = if hj : j.val < n then x (ix2 i ⟨j.val, hj⟩) else z (Shape.Idx.first hu) := by
  by_cases hj : j.val < n
  · rw [dif_pos hj]
    refine pad_apply_of_inside _ _ _ x z h hu _ (ix2 i ⟨j.val, hj⟩) fun a => ?_
    match a with
    | ⟨0, _⟩ => show i.val = 0 + i.val * (0 + 1); omega
    | ⟨1, _⟩ => show j.val = 0 + j.val * (0 + 1); omega
  · rw [dif_neg hj]
    refine pad_apply_of_not_inside _ _ _ x z h hu _ (1 : Fin 2) ?_
    show ¬(0 ≤ j.val ∧ (j.val - 0) % 1 = 0 ∧ (j.val - 0) / 1 < n)
    omega

/-- The padding value of both pads: the integer zero converted, which is the float zero at the ideal instance. -/
theorem padValue_eq (i : S_.Idx) :
    (sitofp .f32 (constantI S_ 32 0#32) : FVec Ideal S_ .f32) i = (0 : EReal) := by
  rw [sitofp_apply]
  exact sitofp_zero

/-! ## The five arrays -/

variable (m : (ℓ : Loc nD τ sig) → Buf (Elt Ideal) ℓ) (c : Dev nD)

/-- The four arguments as the kernel program's memory holds them at launch. -/
abbrev argX : IVec SX 32 := m ((c.tc : Thread nD τ).loc main_arg0)
abbrev argE : SE.Idx → EReal := m ((c.tc : Thread nD τ).loc main_arg1)
abbrev argW : SW.Idx → EReal := m ((c.tc : Thread nD τ).loc main_arg2)
abbrev argB : SB.Idx → EReal := m ((c.tc : Thread nD τ).loc main_arg3)

/-- The token array the region stages: x transposed. -/
theorem V_v0_apply (s : Fin 200) (i : Fin 1024) :
    (V m c main_v0 : S200x1024.Idx → BitVec 32) (ix2 s i) = argX m c (ix2 i s) := by
  dsimp only [V, V0]
  simp only [hostOps0, hostOps0_1, hostOps0_2, hostOps0_3, hostOps0_4, List.flatten_cons, List.flatten_nil,
    List.append_nil, List.cons_append, List.nil_append]
  after_results
  refine transpose_apply _ _ _ _ (ix2 i s) fun b => ?_
  match b with
  | ⟨0, _⟩ => rfl
  | ⟨1, _⟩ => rfl

/-- The table array the region stages: the table transposed, padded with zero columns. -/
theorem V_v3_apply (e : Fin 300) (v : Fin 50176) :
    (V m c main_v3 : S300x50176.Idx → EReal) (ix2 e v) = padE (argE m c) e v.val := by
  dsimp only [V, V0]
  simp only [hostOps0, hostOps0_1, hostOps0_2, hostOps0_3, hostOps0_4, List.flatten_cons, List.flatten_nil,
    List.append_nil, List.cons_append, List.nil_append]
  after_results
  simp only [StableHlo.TRef.ofBuf, StableHlo.TRef.toBuf, cast_eq]
  rw [truncf_apply, pad_cols_apply]
  unfold padE
  by_cases hv : v.val < 50000
  · rw [dif_pos hv, dif_pos hv]
    refine transpose_apply _ _ _ _ (ix2 ⟨v.val, hv⟩ e) fun b => ?_
    match b with
    | ⟨0, _⟩ => rfl
    | ⟨1, _⟩ => rfl
  · rw [dif_neg hv, dif_neg hv]
    exact padValue_eq _

/-- The vocabulary-weight array the region stages: the weight row past its first 300 entries, padded with zeros. -/
theorem V_v8_apply (v : Fin 50176) :
    (V m c main_v8 : S1x50176.Idx → EReal) (ix2 0 v) = padW (argW m c) v.val := by
  dsimp only [V, V0]
  simp only [hostOps0, hostOps0_1, hostOps0_2, hostOps0_3, hostOps0_4, List.flatten_cons, List.flatten_nil,
    List.append_nil, List.cons_append, List.nil_append]
  after_results
  simp only [StableHlo.TRef.ofBuf, StableHlo.TRef.toBuf, cast_eq]
  rw [truncf_apply, pad_cols_apply]
  unfold padW
  by_cases hv : v.val < 50000
  · rw [dif_pos hv, dif_pos hv]
    refine extractStridedSlice_apply _ _ _ _ (ix2 0 (wV ⟨v.val, hv⟩)) fun a => ?_
    match a with
    | ⟨0, _⟩ => rfl
    | ⟨1, _⟩ => rfl
  · rw [dif_neg hv, dif_neg hv]
    exact padValue_eq _

/-- The embedding-weight array the region stages: the weight row's first 300 entries. -/
theorem V_v5_apply (e : Fin 300) :
    (V m c main_v5 : S1x300.Idx → EReal) (ix2 0 e) = argW m c (ix2 0 (wE e)) := by
  dsimp only [V, V0]
  simp only [hostOps0, hostOps0_1, hostOps0_2, hostOps0_3, hostOps0_4, List.flatten_cons, List.flatten_nil,
    List.append_nil, List.cons_append, List.nil_append]
  after_results
  rw [truncf_apply]
  refine extractStridedSlice_apply _ _ _ _ (ix2 0 (wE e)) fun a => ?_
  match a with
  | ⟨0, _⟩ => rfl
  | ⟨1, _⟩ => show e.val = 0 + e.val; omega

/-- The bias array the region stages. -/
theorem V_v9_apply :
    (V m c main_v9 : S1x1.Idx → EReal) (ix2 0 0) = argB m c (ix1 0) := by
  dsimp only [V, V0]
  simp only [hostOps0, hostOps0_1, hostOps0_2, hostOps0_3, hostOps0_4, List.flatten_cons, List.flatten_nil,
    List.append_nil, List.cons_append, List.nil_append]
  after_results
  refine shapeCast_apply _ _ _ (ix1 0) ?_
  show (S1.rowMajor (ix1 0)).val = (S1x1.rowMajor (ix2 0 0)).val
  rw [Shape.rowMajor_val_one, Shape.rowMajor_val_two]
  rfl

end Cert.LogReg

end
-- ==== Proof.KSpec.lean ====
/-
  The kernel's grid: batch tile bt (of 8, 128 rows each) by vocabulary block vt (of 196, 256 ids each); and what the two
  accumulators hold after the vocabulary blocks below n of a batch tile.
-/
import proofs.«431388_j63694365000268_1_alg».proof.Proof.Spec

noncomputable section

open scoped BigOperators

namespace Cert.LogReg

open Idealize.ShloMosaic Idealize.ShloMosaic.ValueIdx

/-- Batch row of lane l in batch tile bt (reduced modulo 1024 so that it is a row for every number; for bt < 8 the
    reduction does nothing). -/
def rowIx (bt : ℕ) (l : Fin 128) : Fin 1024 := ⟨(bt * 128 + l.val) % 1024, Nat.mod_lt _ (by norm_num)⟩

/-- The table accumulator of batch tile bt after its first n vocabulary blocks. -/
def accEAt (x : IVec SX 32) (emb : SE.Idx → EReal) (bt n : ℕ) (e : Fin 300) (l : Fin 128) : EReal :=
  ∑ u ∈ Finset.range n, ∑ r : Fin 256, padE emb e (u * 256 + r.val) * cnt x (rowIx bt l) (u * 256 + r.val)

/-- The weight accumulator of batch tile bt after its first n vocabulary blocks. -/
def accWAt (x : IVec SX 32) (W : SW.Idx → EReal) (bt n : ℕ) (l : Fin 128) : EReal :=
  ∑ u ∈ Finset.range n, ∑ r : Fin 256, padW W (u * 256 + r.val) * presK x (rowIx bt l) (u * 256 + r.val)

end Cert.LogReg

end
-- ==== Proof.BlockReads.lean ====
/-
  Each input window's block at a grid point, as a slice of the array the region was handed.

  Point t of the 8 x 196 grid is batch tile t / 196 and vocabulary block t % 196 (the vocabulary axis runs fastest).
  The token window's block at t is the 128 columns of batch tile t / 196 of the transposed token array; the table
  window's and the vocabulary-weight window's blocks are the 256 columns of vocabulary block t % 196; the
  embedding-weight and bias windows' blocks are their whole arrays at every point.
-/
import proofs.«431388_j63694365000268_1_alg».proof.Proof.Gen.KernelIdeal.Frame.Runs
import proofs.«431388_j63694365000268_1_alg».proof.Proof.KSpec
import Idealize.ShloMosaic.Lib.Pipeline.Value

noncomputable section

namespace Cert.LogReg

open Idealize.ShloMosaic Idealize.ShloMosaic.ValueIdx Idealize.ShloMosaic.TcCoe Idealize.SL.Sem
open Cert.KernelIdeal Cert.KernelIdeal.Gen

variable (m : (ℓ : Loc nD τ sig) → Buf (Elt Ideal) ℓ) (c : Dev nD)

/-- The five input blocks at point t, each at its literal type. -/
abbrev blkX (t : Fin cfg0.N) : Vec Ideal S200x128 .i32 := iblk m c 0 t
abbrev blkE (t : Fin cfg0.N) : Vec Ideal S300x256 .bf16 := iblk m c 1 t
abbrev blkWv (t : Fin cfg0.N) : Vec Ideal S1x256 .bf16 := iblk m c 2 t
abbrev blkWe (t : Fin cfg0.N) : Vec Ideal S1x300 .bf16 := iblk m c 3 t
abbrev blkB (t : Fin cfg0.N) : Vec Ideal S1x1 .f32 := iblk m c 4 t

/-- The grid has 1568 = 8 * 196 points. -/
theorem N_eq : cfg0.N = 1568 := N_0

/-- Point t is batch tile t / 196, vocabulary block t % 196. -/
theorem coords_val (t : Fin cfg0.N) : ((grid0.coords t) 0).val = t.val / 196 ∧ ((grid0.coords t) 1).val = t.val % 196 :=
  (by decide +kernel : ∀ t : Fin grid0.N, ((grid0.coords t) 0).val = t.val / 196 ∧ ((grid0.coords t) 1).val = t.val % 196) t

/-! ## The block index of each input window at a point, decided over the 1568 points

A block's element sits in its array, on each axis, at (block index) * (block size) + (its coordinate in the block); so each
read below needs only the block index on the two axes. -/

/-- The token window's block index at t is (0, t / 196): all 200 rows, the 128 columns of batch tile t / 196. -/
theorem idx0 : ∀ t : Fin cfg0.N, win0_0.index t (0 : Fin 2) = 0 ∧ win0_0.index t (1 : Fin 2) = t.val / 196 :=
  (by decide +kernel : ∀ t : Fin grid0.N, win0_0.index t (0 : Fin 2) = 0 ∧ win0_0.index t (1 : Fin 2) = t.val / 196)

/-- The table window's block index at t is (0, t % 196): all 300 rows, the 256 columns of vocabulary block t % 196. -/
theorem idx1 : ∀ t : Fin cfg0.N, win0_1.index t (0 : Fin 2) = 0 ∧ win0_1.index t (1 : Fin 2) = t.val % 196 :=
  (by decide +kernel : ∀ t : Fin grid0.N, win0_1.index t (0 : Fin 2) = 0 ∧ win0_1.index t (1 : Fin 2) = t.val % 196)

/-- The vocabulary-weight window's block index at t is (0, t % 196). -/
theorem idx2 : ∀ t : Fin cfg0.N, win0_2.index t (0 : Fin 2) = 0 ∧ win0_2.index t (1 : Fin 2) = t.val % 196 :=
  (by decide +kernel : ∀ t : Fin grid0.N, win0_2.index t (0 : Fin 2) = 0 ∧ win0_2.index t (1 : Fin 2) = t.val % 196)

/-- The embedding-weight window's block index is (0, 0) at every point. -/
theorem idx3 : ∀ t : Fin cfg0.N, win0_3.index t (0 : Fin 2) = 0 ∧ win0_3.index t (1 : Fin 2) = 0 :=
  (by decide +kernel : ∀ t : Fin grid0.N, win0_3.index t (0 : Fin 2) = 0 ∧ win0_3.index t (1 : Fin 2) = 0)

/-- The bias window's block index is (0, 0) at every point. -/
theorem idx4 : ∀ t : Fin cfg0.N, win0_4.index t (0 : Fin 2) = 0 ∧ win0_4.index t (1 : Fin 2) = 0 :=
  (by decide +kernel : ∀ t : Fin grid0.N, win0_4.index t (0 : Fin 2) = 0 ∧ win0_4.index t (1 : Fin 2) = 0)

/-! ## Each block read where it lies in its array -/

theorem blkX_apply (t : Fin cfg0.N) (s : Fin 200) (l : Fin 128) :
    blkX m c t (ix2 s l) = (V m c main_v0 : S200x1024.Idx → BitVec 32) (ix2 s (rowIx (t.val / 196) l)) := by
  obtain ⟨e0, e1⟩ := idx0 t
  have ht : t.val < 1568 := lt_of_lt_of_eq t.isLt N_eq
  show (V m c main_v0 : S200x1024.Idx → BitVec 32) (((cfg0.win 0).blk t).view.emb (ix2 s l)) = _
  congr 1
  funext a; apply Fin.ext
  match a with
  | ⟨0, _⟩ => show win0_0.index t (0 : Fin 2) * 200 + 1 * s.val = s.val; omega
  | ⟨1, _⟩ =>
    -- t < 1568 gives t / 196 < 8, so t / 196 * 128 + l < 1024 and the reduction modulo 1024 does nothing
    show win0_0.index t (1 : Fin 2) * 128 + 1 * l.val = (t.val / 196 * 128 + l.val) % 1024
    have hl : l.val < 128 := l.isLt
    omega

theorem blkE_apply (t : Fin cfg0.N) (e : Fin 300) (r : Fin 256) (v : Fin 50176) (hv : v.val = t.val % 196 * 256 + r.val) :
    blkE m c t (ix2 e r) = (V m c main_v3 : S300x50176.Idx → EReal) (ix2 e v) := by
  obtain ⟨e0, e1⟩ := idx1 t
  show (V m c main_v3 : S300x50176.Idx → EReal) (((cfg0.win 1).blk t).view.emb (ix2 e r)) = _
  congr 1
  funext a; apply Fin.ext
  match a with
  | ⟨0, _⟩ => show win0_1.index t (0 : Fin 2) * 300 + 1 * e.val = e.val; omega
  | ⟨1, _⟩ => show win0_1.index t (1 : Fin 2) * 256 + 1 * r.val = v.val; omega

theorem blkWv_apply (t : Fin cfg0.N) (r : Fin 256) (v : Fin 50176) (hv : v.val = t.val % 196 * 256 + r.val) :
    blkWv m c t (ix2 0 r) = (V m c main_v8 : S1x50176.Idx → EReal) (ix2 0 v) := by
  obtain ⟨e0, e1⟩ := idx2 t
  show (V m c main_v8 : S1x50176.Idx → EReal) (((cfg0.win 2).blk t).view.emb (ix2 0 r)) = _
  congr 1
  funext a; apply Fin.ext
  match a with
  | ⟨0, _⟩ => show win0_2.index t (0 : Fin 2) * 1 + 1 * (0 : Fin 1).val = (0 : Fin 1).val; omega
  | ⟨1, _⟩ => show win0_2.index t (1 : Fin 2) * 256 + 1 * r.val = v.val; omega

theorem blkWe_apply (t : Fin cfg0.N) (e : Fin 300) :
    blkWe m c t (ix2 0 e) = (V m c main_v5 : S1x300.Idx → EReal) (ix2 0 e) := by
  obtain ⟨e0, e1⟩ := idx3 t
  show (V m c main_v5 : S1x300.Idx → EReal) (((cfg0.win 3).blk t).view.emb (ix2 0 e)) = _
  congr 1
  funext a; apply Fin.ext
  match a with
  | ⟨0, _⟩ => show win0_3.index t (0 : Fin 2) * 1 + 1 * (0 : Fin 1).val = (0 : Fin 1).val; omega
  | ⟨1, _⟩ => show win0_3.index t (1 : Fin 2) * 300 + 1 * e.val = e.val; omega

theorem blkB_apply (t : Fin cfg0.N) :
    blkB m c t (ix2 0 0) = (V m c main_v9 : S1x1.Idx → EReal) (ix2 0 0) := by
  obtain ⟨e0, e1⟩ := idx4 t
  show (V m c main_v9 : S1x1.Idx → EReal) (((cfg0.win 4).blk t).view.emb (ix2 0 0)) = _
  congr 1
  funext a; apply Fin.ext
  match a with
  | ⟨0, _⟩ => show win0_4.index t (0 : Fin 2) * 1 + 1 * (0 : Fin 1).val = (0 : Fin 1).val; omega
  | ⟨1, _⟩ => show win0_4.index t (1 : Fin 2) * 1 + 1 * (0 : Fin 1).val = (0 : Fin 1).val; omega

end Cert.LogReg

end
-- ==== Proof.Laws.lean ====
/-
  The arithmetic that joins the kernel's arrangement (count every vocabulary id, multiply tables by counts) to the
  reference's (index the table by the tokens).

  Three facts. (1) The padded vocabulary, 50176 = 196 * 256 ids, is summed block by block: 196 blocks of 256.
  (2) For a table of finite reals and tokens in range, the table times the counts, summed over the padded vocabulary,
  is the table's rows at the tokens, summed over the positions. (3) For tokens in range, the padded weights times
  "count is positive", summed over the padded vocabulary, is the weights times the presence indicator, summed over the
  true vocabulary.
-/
import proofs.«431388_j63694365000268_1_alg».proof.Proof.Spec
import Mathlib.Algebra.BigOperators.Fin
import Mathlib.Algebra.BigOperators.Group.Finset.Piecewise
import Mathlib.Algebra.Order.BigOperators.Group.Finset
import Mathlib.Data.EReal.Basic

noncomputable section

open scoped BigOperators

namespace Cert.LogReg

open Idealize.ShloMosaic Idealize.ShloMosaic.ValueIdx

/-! ## Blocks -/

/-- n consecutive blocks of 256 make up the first n * 256 naturals: by induction on n, the last block being the
    256 naturals that follow the first n * 256. -/
theorem sum_blocks_aux (f : ℕ → EReal) (n : ℕ) :
    ∑ u ∈ Finset.range n, ∑ r : Fin 256, f (u * 256 + r.val) = ∑ v ∈ Finset.range (n * 256), f v := by
  induction n with
  | zero => simp
  | succ n ih =>
    rw [Finset.sum_range_succ, ih, Nat.succ_mul, Finset.sum_range_add,
      Finset.sum_range (fun r => f (n * 256 + r))]

/-- A sum over the padded vocabulary, block by block. -/
theorem sum_blocks (f : ℕ → EReal) :
    ∑ u ∈ Finset.range 196, ∑ r : Fin 256, f (u * 256 + r.val) = ∑ v ∈ Finset.range 50176, f v := by
  rw [show (50176 : ℕ) = 196 * 256 from rfl]
  exact sum_blocks_aux f 196

/-! ## Finite sums of reals inside the extended reals -/

/-- The coercion of the reals into the extended reals commutes with finite sums (the extended reals are not a
    semiring, so this is proved from the two-term case). -/
theorem coe_finset_sum {ι : Type} (t : Finset ι) (f : ι → ℝ) :
    ((∑ i ∈ t, f i : ℝ) : EReal) = ∑ i ∈ t, (f i : EReal) := by
  classical
  induction t using Finset.induction_on with
  | empty => simp
  | insert a t ha ih => rw [Finset.sum_insert ha, Finset.sum_insert ha, EReal.coe_add, ih]

/-! ## Tokens in range -/

/-- A word whose signed reading lies in [0, 50000) has that same unsigned reading. -/
theorem tok_lt (x : IVec SX 32) (hx : InRange x) (i : Fin 1024) (s : Fin 200) : tok x i s < 50000 := by
  have h := hx (ix2 i s)
  have hlt := (x (ix2 i s)).isLt
  unfold tok
  rw [BitVec.toInt_eq_toNat_cond] at h
  split_ifs at h with hc <;> omega

/-- For a token in range the reduction modulo the table's length does nothing. -/
theorem tokFin_val (x : IVec SX 32) (hx : InRange x) (i : Fin 1024) (s : Fin 200) :
    (tokFin x i s).val = tok x i s :=
  Nat.mod_eq_of_lt (tok_lt x hx i s)

/-- For a token in range and a row number v, the token's row is v exactly when the token is v. -/
theorem tokFin_eq_iff (x : IVec SX 32) (hx : InRange x) (i : Fin 1024) (s : Fin 200) (v : Fin 50000) :
    tokFin x i s = v ↔ tok x i s = v.val := by
  rw [Fin.ext_iff, tokFin_val x hx]

/-! ## The count as a real number -/

/-- The count is the coercion of the same sum of zeros and ones taken in the reals. -/
theorem cnt_eq_coe (x : IVec SX 32) (i : Fin 1024) (v : ℕ) :
    cnt x i v = ((∑ s : Fin 200, if tok x i s = v then (1 : ℝ) else 0 : ℝ) : EReal) := by
  unfold cnt
  rw [coe_finset_sum]
  refine Finset.sum_congr rfl fun s _ => ?_
  split_ifs
  · exact EReal.coe_one.symm
  · exact EReal.coe_zero.symm

/-- Row e of the transposed table of real entries, continued by zeros. -/
def padR (embR : SE.Idx → ℝ) (e : Fin 300) (v : ℕ) : ℝ :=
  if h : v < 50000 then embR (ix2 ⟨v, h⟩ e) else 0

/-- At a token in range the padded row is the table's entry in the token's row. -/
theorem padR_tok (x : IVec SX 32) (hx : InRange x) (embR : SE.Idx → ℝ) (i : Fin 1024) (s : Fin 200) (e : Fin 300) :
    padR embR e (tok x i s) = embR (ix2 (tokFin x i s) e) := by
  have hlt := tok_lt x hx i s
  have hfin : tokFin x i s = ⟨tok x i s, hlt⟩ := Fin.ext (tokFin_val x hx i s)
  unfold padR
  rw [dif_pos hlt, hfin]

/-- In the reals: the padded row times the counts, summed over the padded vocabulary, is the padded row at the tokens,
    summed over the positions. The product distributes over the count, the two sums are exchanged, and for each position
    the sum over the ids has one nonzero term, at the token, which is below 50176. -/
theorem sum_padR_cnt (x : IVec SX 32) (hx : InRange x) (T : ℕ → ℝ) (i : Fin 1024) :
    ∑ v ∈ Finset.range 50176, T v * ∑ s : Fin 200, (if tok x i s = v then (1 : ℝ) else 0)
      = ∑ s : Fin 200, T (tok x i s) := by
  simp_rw [Finset.mul_sum]
  rw [Finset.sum_comm]
  refine Finset.sum_congr rfl fun s _ => ?_
  have hlt := tok_lt x hx i s
  simp only [mul_ite, mul_one, mul_zero]
  rw [Finset.sum_ite_eq, if_pos (Finset.mem_range.2 (by omega))]

/-- The table times the counts is the table at the tokens. -/
theorem sum_padE_cnt (x : IVec SX 32) (emb : SE.Idx → EReal) (hx : InRange x) (hemb : Finite emb) (i : Fin 1024) (e : Fin 300) :
    ∑ v ∈ Finset.range 50176, padE emb e v * cnt x i v = embSum x emb i e := by
  choose embR hembR using hemb
  -- the padded row is the coercion of the padded real row
  have hT : ∀ v, padE emb e v = (padR embR e v : EReal) := by
    intro v
    unfold padE padR
    split_ifs with h
    · exact hembR _
    · exact EReal.coe_zero.symm
  -- every term on the left is the coercion of a real product
  have hterm : ∀ v ∈ Finset.range 50176, padE emb e v * cnt x i v
      = ((padR embR e v * ∑ s : Fin 200, (if tok x i s = v then (1 : ℝ) else 0) : ℝ) : EReal) := by
    intro v _
    rw [hT, cnt_eq_coe, EReal.coe_mul]
  -- the right side is the coercion of a real sum
  have hR : embSum x emb i e = ((∑ s : Fin 200, padR embR e (tok x i s) : ℝ) : EReal) := by
    unfold embSum
    rw [coe_finset_sum]
    refine Finset.sum_congr rfl fun s _ => ?_
    rw [hembR, padR_tok x hx]
  rw [Finset.sum_congr rfl hterm, ← coe_finset_sum, hR, sum_padR_cnt x hx]

/-! ## Presence -/

/-- For a row number v, the count of v is positive exactly when some position holds v: the count is a sum of terms
    each zero or one, and a sum of non-negative terms is positive exactly when one of them is. -/
theorem cnt_pos_iff (x : IVec SX 32) (hx : InRange x) (i : Fin 1024) (v : Fin 50000) :
    0 < cnt x i v.val ↔ ∃ s : Fin 200, tokFin x i s = v := by
  unfold cnt
  rw [Finset.sum_pos_iff_of_nonneg (fun s _ => by split_ifs; exacts [zero_le_one, le_refl _])]
  constructor
  · rintro ⟨s, _, hs⟩
    refine ⟨s, (tokFin_eq_iff x hx i s v).2 ?_⟩
    by_contra hne
    rw [if_neg hne] at hs
    exact lt_irrefl _ hs
  · rintro ⟨s, hs⟩
    refine ⟨s, Finset.mem_univ _, ?_⟩
    rw [if_pos ((tokFin_eq_iff x hx i s v).1 hs)]
    exact zero_lt_one

/-- The padded weights times "count is positive" is the weights times the presence indicator. -/
theorem sum_padW_presK (x : IVec SX 32) (W : SW.Idx → EReal) (hx : InRange x) (i : Fin 1024) :
    ∑ v ∈ Finset.range 50176, padW W v * presK x i v = ∑ v : Fin 50000, W (ix2 0 (wV v)) * pres x i v := by
  -- the padding ids contribute nothing: their weight is zero
  have hpad : ∀ v ∈ Finset.range 50176, v ∉ Finset.range 50000 → padW W v * presK x i v = 0 := by
    intro v _ hv
    have hge : ¬ v < 50000 := fun h => hv (Finset.mem_range.2 h)
    unfold padW
    rw [dif_neg hge, zero_mul]
  rw [← Finset.sum_subset (Finset.range_subset_range.2 (by norm_num : 50000 ≤ 50176)) hpad, Finset.sum_range]
  refine Finset.sum_congr rfl fun v _ => ?_
  have hW : padW W v.val = W (ix2 0 (wV v)) := by
    unfold padW
    rw [dif_pos v.isLt]
  have hP : presK x i v.val = pres x i v := by
    unfold presK pres
    by_cases h : ∃ s : Fin 200, tokFin x i s = v
    · rw [if_pos ((cnt_pos_iff x hx i v).2 h), if_pos h]
    · rw [if_neg (fun hc => h ((cnt_pos_iff x hx i v).1 hc)), if_neg h]
  rw [hW, hP]

end Cert.LogReg

end
-- ==== Proof.Invariant.lean ====
/-
  What the two accumulators hold after every grid point, and what the output block holds after a batch tile's last
  vocabulary block.

  Point t is batch tile t / 196, vocabulary block t % 196. Read at an index through the arguments, the block's
  contribution to the table accumulator at (e, l) is the sum over the block's 256 ids v of (padded table)[e, v] times the
  count of v in batch row (t / 196) * 128 + l, and its contribution to the weight accumulator at l the sum of
  (padded weights)[v] times "that count is positive". The first block of a tile starts from zero and every later block
  adds to what the block before left, so after block vt the accumulators are the sums over the ids of blocks 0 … vt
  (induction along the points). After the last block they are the sums over the whole padded vocabulary, which the
  counting laws turn into the table's rows at the tokens, summed, and the weights times the presence indicators: the
  logit the output block's sigmoid is taken of is the logit of the specification.
-/
import proofs.«431388_j63694365000268_1_alg».proof.Proof.Gen.KernelIdeal.Frame
import proofs.«431388_j63694365000268_1_alg».proof.Proof.Pieces
import proofs.«431388_j63694365000268_1_alg».proof.Proof.BlockIdx
import proofs.«431388_j63694365000268_1_alg».proof.Proof.HostArrays
import proofs.«431388_j63694365000268_1_alg».proof.Proof.BlockReads
import proofs.«431388_j63694365000268_1_alg».proof.Proof.KSpec
import proofs.«431388_j63694365000268_1_alg».proof.Proof.Laws

noncomputable section

open scoped BigOperators

namespace Cert.LogReg

open Idealize.ShloMosaic Idealize.ShloMosaic.ValueIdx Idealize.ShloMosaic.TcCoe Idealize.SL.Sem
open Cert.KernelIdeal Cert.KernelIdeal.Gen

variable (m : (ℓ : Loc nD τ sig) → Buf (Elt Ideal) ℓ) (c : Dev nD)

/-! ## The blocks through the arguments -/

theorem vt_lt (t : Fin cfg0.N) : t.val % 196 < 196 := Nat.mod_lt _ (by norm_num)

/-- The table block at point t: 256 columns of the padded transposed table. -/
theorem blkE_sem (t : Fin cfg0.N) (e : Fin 300) (r : Fin 256) :
    blkE m c t (ix2 e r) = padE (argE m c) e (t.val % 196 * 256 + r.val) := by
  have hv : t.val % 196 * 256 + r.val < 50176 := by have := vt_lt t; have := r.isLt; omega
  rw [blkE_apply m c t e r ⟨_, hv⟩ rfl, V_v3_apply]

/-- The vocabulary-weight block at point t: 256 entries of the padded weights. -/
theorem blkWv_sem (t : Fin cfg0.N) (r : Fin 256) :
    blkWv m c t (ix2 0 r) = padW (argW m c) (t.val % 196 * 256 + r.val) := by
  have hv : t.val % 196 * 256 + r.val < 50176 := by have := vt_lt t; have := r.isLt; omega
  rw [blkWv_apply m c t r ⟨_, hv⟩ rfl, V_v8_apply]

/-- The embedding-weight block: the weight row's first 300 entries, at every point. -/
theorem blkWe_sem (t : Fin cfg0.N) (e : Fin 300) : blkWe m c t (ix2 0 e) = argW m c (ix2 0 (wE e)) := by
  rw [blkWe_apply, V_v5_apply]

/-- The bias block: the bias, at every point. -/
theorem blkB_sem (t : Fin cfg0.N) : blkB m c t (ix2 0 0) = argB m c (ix1 0) := by
  rw [blkB_apply, V_v9_apply]

/-- The token block at point t: position s, lane l holds the token of batch row (t / 196) * 128 + l at position s. -/
theorem blkX_sem (t : Fin cfg0.N) (s : Fin 200) (l : Fin 128) :
    blkX m c t (ix2 s l) = argX m c (ix2 (rowIx (t.val / 196) l) s) := by
  rw [blkX_apply, V_v0_apply]

/-- A 32-bit word is the word of a number below 2^32 exactly when it reads that number. -/
theorem ofNat_eq_iff (n : ℕ) (hn : n < 2 ^ 32) (w : BitVec 32) : BitVec.ofNat 32 n = w ↔ w.toNat = n := by
  constructor
  · intro h; rw [← h, BitVec.toNat_ofNat, Nat.mod_eq_of_lt hn]
  · intro h; apply BitVec.eq_of_toNat_eq; rw [BitVec.toNat_ofNat, Nat.mod_eq_of_lt hn, h]

/-- The kernel's count at row r, lane l of point t is the count of id (t % 196) * 256 + r in that lane's batch row. -/
theorem cnt_sem (t : Fin cfg0.N) (r : Fin 256) (l : Fin 128) :
    cntAll (F := Ideal) (k0_pay5 (grid0.coords t)) (blkX m c t) (ix2 r l)
      = cnt (argX m c) (rowIx (t.val / 196) l) (t.val % 196 * 256 + r.val) := by
  have hlt : t.val % 196 * 256 + r.val < 2 ^ 32 := by have := vt_lt t; have := r.isLt; omega
  unfold cntAll cnt
  rw [cntTo_apply, Finset.sum_range]
  refine Finset.sum_congr rfl (fun s _ => ?_)
  rw [dif_pos s.isLt, vid_apply, (coords_val t).2, blkX_sem]
  exact if_congr (ofNat_eq_iff _ hlt _) rfl rfl

/-- The block's contribution to the table accumulator, through the arguments. -/
theorem accE_sem (t : Fin cfg0.N) (a : Vec Ideal S300x128 .f32) (e : Fin 300) (l : Fin 128) :
    accE (F := Ideal) (grid0.coords t) (blkX m c t) (blkE m c t) a (ix2 e l)
      = a (ix2 e l) + ∑ r : Fin 256, padE (argE m c) e (t.val % 196 * 256 + r.val)
          * cnt (argX m c) (rowIx (t.val / 196) l) (t.val % 196 * 256 + r.val) := by
  unfold accE
  rw [pay74_apply]
  congr 1
  refine Finset.sum_congr rfl (fun r _ => ?_)
  rw [blkE_sem, cnt_sem]

/-- The block's contribution to the weight accumulator, through the arguments. -/
theorem accW_sem (t : Fin cfg0.N) (a : Vec Ideal S1x128 .f32) (l : Fin 128) :
    accW (F := Ideal) (grid0.coords t) (blkX m c t) (blkWv m c t) a (ix2 0 l)
      = a (ix2 0 l) + ∑ r : Fin 256, padW (argW m c) (t.val % 196 * 256 + r.val)
          * presK (argX m c) (rowIx (t.val / 196) l) (t.val % 196 * 256 + r.val) := by
  unfold accW
  rw [pay1_apply, pay73_apply]
  congr 1
  refine Finset.sum_congr rfl (fun r _ => ?_)
  rw [blkWv_sem, presOf_apply, cnt_sem]
  rfl

/-! ## The accumulators after every point -/

/-- After point t the accumulators hold the sums over the ids of the tile's vocabulary blocks 0 … t % 196. -/
def AccAt (t : Fin cfg0.N) : Prop :=
  (∀ (e : Fin 300) (l : Fin 128), ((outsAt0 m c t.val t.isLt).2.1 : S300x128.Idx → EReal) (ix2 e l)
      = accEAt (argX m c) (argE m c) (t.val / 196) (t.val % 196 + 1) e l)
  ∧ (∀ l : Fin 128, ((outsAt0 m c t.val t.isLt).2.2 : S1x128.Idx → EReal) (ix2 0 l)
      = accWAt (argX m c) (argW m c) (t.val / 196) (t.val % 196 + 1) l)

theorem accAt_all : ∀ (n : ℕ) (t : Fin cfg0.N), t.val = n → AccAt m c t := by
  intro n
  induction n using Nat.strong_induction_on with
  | _ n ih =>
    intro t htn
    by_cases h0 : t.val % 196 = 0
    · -- the first vocabulary block of a tile: the accumulators were reset
      have h1 : ¬ t.val % 196 = 195 := by omega
      constructor
      · intro e l
        rw [outsAt0_A m c t h0 h1]
        dsimp only
        refine (congrFun (sout_A_0 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (fun h => h1 ((hcond0_1 t).mp h)) (blkX m c t) (blkE m c t) (blkWv m c t) (blkWe m c t) (blkB m c t)) (ix2 e l)).trans ?_
        rw [accE_sem, pay3_apply, zero_add]
        unfold accEAt
        rw [h0, Finset.sum_range_one]
      · intro l
        rw [outsAt0_A m c t h0 h1]
        dsimp only
        refine (congrFun (sout_A_1 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (fun h => h1 ((hcond0_1 t).mp h)) (blkX m c t) (blkE m c t) (blkWv m c t) (blkWe m c t) (blkB m c t)) (ix2 0 l)).trans ?_
        rw [accW_sem, pay4_apply, zero_add]
        unfold accWAt
        rw [h0, Finset.sum_range_one]
    · -- a later block: over what the point before left
      have hpos : 0 < t.val := by omega
      have hN : t.val < cfg0.N := t.isLt
      have ihp := ih (t.val - 1) (by omega) ⟨t.val - 1, by omega⟩ rfl
      have e1 : (t.val - 1) / 196 = t.val / 196 := by omega
      have e2 : (t.val - 1) % 196 + 1 = t.val % 196 := by omega
      have ihE : ∀ (e : Fin 300) (l : Fin 128), ((outsAt0 m c (t.val - 1) (Nat.lt_of_le_of_lt (Nat.sub_le _ _) t.isLt)).2.1 : S300x128.Idx → EReal) (ix2 e l)
          = accEAt (argX m c) (argE m c) (t.val / 196) (t.val % 196) e l := by
        intro e l; have := ihp.1 e l; rw [e1, e2] at this; exact this
      have ihW : ∀ l : Fin 128, ((outsAt0 m c (t.val - 1) (Nat.lt_of_le_of_lt (Nat.sub_le _ _) t.isLt)).2.2 : S1x128.Idx → EReal) (ix2 0 l)
          = accWAt (argX m c) (argW m c) (t.val / 196) (t.val % 196) l := by
        intro l; have := ihp.2 l; rw [e1, e2] at this; exact this
      by_cases h1 : t.val % 196 = 195
      · constructor
        · intro e l
          rw [outsAt0_C m c t h0 h1]
          dsimp only
          refine (congrFun (sout_C_0 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (blkX m c t) (blkE m c t) (blkWv m c t) (blkWe m c t) (blkB m c t) (outsAt0 m c (t.val - 1) (Nat.lt_of_le_of_lt (Nat.sub_le _ _) t.isLt)).2.1 (outsAt0 m c (t.val - 1) (Nat.lt_of_le_of_lt (Nat.sub_le _ _) t.isLt)).2.2) (ix2 e l)).trans ?_
          rw [accE_sem, ihE]
          unfold accEAt
          rw [Finset.sum_range_succ]
        · intro l
          rw [outsAt0_C m c t h0 h1]
          dsimp only
          refine (congrFun (sout_C_1 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (blkX m c t) (blkE m c t) (blkWv m c t) (blkWe m c t) (blkB m c t) (outsAt0 m c (t.val - 1) (Nat.lt_of_le_of_lt (Nat.sub_le _ _) t.isLt)).2.1 (outsAt0 m c (t.val - 1) (Nat.lt_of_le_of_lt (Nat.sub_le _ _) t.isLt)).2.2) (ix2 0 l)).trans ?_
          rw [accW_sem, ihW]
          unfold accWAt
          rw [Finset.sum_range_succ]
      · constructor
        · intro e l
          rw [outsAt0_B m c t h0 h1]
          dsimp only
          refine (congrFun (sout_B_0 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) (fun h => h1 ((hcond0_1 t).mp h)) (blkX m c t) (blkE m c t) (blkWv m c t) (blkWe m c t) (blkB m c t) (outsAt0 m c (t.val - 1) (Nat.lt_of_le_of_lt (Nat.sub_le _ _) t.isLt)).2.1 (outsAt0 m c (t.val - 1) (Nat.lt_of_le_of_lt (Nat.sub_le _ _) t.isLt)).2.2) (ix2 e l)).trans ?_
          rw [accE_sem, ihE]
          unfold accEAt
          rw [Finset.sum_range_succ]
        · intro l
          rw [outsAt0_B m c t h0 h1]
          dsimp only
          refine (congrFun (sout_B_1 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) (fun h => h1 ((hcond0_1 t).mp h)) (blkX m c t) (blkE m c t) (blkWv m c t) (blkWe m c t) (blkB m c t) (outsAt0 m c (t.val - 1) (Nat.lt_of_le_of_lt (Nat.sub_le _ _) t.isLt)).2.1 (outsAt0 m c (t.val - 1) (Nat.lt_of_le_of_lt (Nat.sub_le _ _) t.isLt)).2.2) (ix2 0 l)).trans ?_
          rw [accW_sem, ihW]
          unfold accWAt
          rw [Finset.sum_range_succ]

theorem accAt (t : Fin cfg0.N) : AccAt m c t := accAt_all m c t.val t rfl

/-! ## The output block after a tile's last vocabulary block -/

/-- After the last vocabulary block of batch tile t / 196 the output block holds, at lane l, the specification's
    result for batch row (t / 196) * 128 + l. -/
theorem out_at_C (hx : InRange (argX m c)) (hE : Finite (argE m c)) (t : Fin cfg0.N) (h1 : t.val % 196 = 195) (l : Fin 128) :
    ((outsAt0 m c t.val t.isLt).1 : S1x128.Idx → EReal) (ix2 0 l)
      = G (argX m c) (argE m c) (argW m c) (argB m c) (ix2 (rowIx (t.val / 196) l) 0) := by
  have h0 : ¬ t.val % 196 = 0 := by omega
  have hN : t.val < cfg0.N := t.isLt
  have ihp := accAt m c ⟨t.val - 1, by omega⟩
  have e1 : (t.val - 1) / 196 = t.val / 196 := by omega
  have e2 : (t.val - 1) % 196 + 1 = t.val % 196 := by omega
  have ihE : ∀ (e : Fin 300), ((outsAt0 m c (t.val - 1) (Nat.lt_of_le_of_lt (Nat.sub_le _ _) t.isLt)).2.1 : S300x128.Idx → EReal) (ix2 e l)
      = accEAt (argX m c) (argE m c) (t.val / 196) (t.val % 196) e l := by
    intro e; have := ihp.1 e l; rw [e1, e2] at this; exact this
  have ihW : ((outsAt0 m c (t.val - 1) (Nat.lt_of_le_of_lt (Nat.sub_le _ _) t.isLt)).2.2 : S1x128.Idx → EReal) (ix2 0 l)
      = accWAt (argX m c) (argW m c) (t.val / 196) (t.val % 196) l := by
    have := ihp.2 l; rw [e1, e2] at this; exact this
  -- the finished table accumulator is the table's rows at the tokens, summed
  have hfinE : ∀ e : Fin 300, accE (F := Ideal) (grid0.coords t) (blkX m c t) (blkE m c t) (outsAt0 m c (t.val - 1) (Nat.lt_of_le_of_lt (Nat.sub_le _ _) t.isLt)).2.1 (ix2 e l)
      = embSum (argX m c) (argE m c) (rowIx (t.val / 196) l) e := by
    intro e
    rw [accE_sem, ihE]
    unfold accEAt
    rw [← Finset.sum_range_succ (fun u => ∑ r : Fin 256, padE (argE m c) e (u * 256 + r.val)
      * cnt (argX m c) (rowIx (t.val / 196) l) (u * 256 + r.val)) (t.val % 196), h1]
    rw [sum_blocks (fun v => padE (argE m c) e v * cnt (argX m c) (rowIx (t.val / 196) l) v)]
    exact sum_padE_cnt _ _ hx hE _ _
  -- the finished weight accumulator is the weights times the presence indicators
  have hfinW : accW (F := Ideal) (grid0.coords t) (blkX m c t) (blkWv m c t) (outsAt0 m c (t.val - 1) (Nat.lt_of_le_of_lt (Nat.sub_le _ _) t.isLt)).2.2 (ix2 0 l)
      = ∑ v : Fin 50000, argW m c (ix2 0 (wV v)) * pres (argX m c) (rowIx (t.val / 196) l) v := by
    rw [accW_sem, ihW]
    unfold accWAt
    rw [← Finset.sum_range_succ (fun u => ∑ r : Fin 256, padW (argW m c) (u * 256 + r.val)
      * presK (argX m c) (rowIx (t.val / 196) l) (u * 256 + r.val)) (t.val % 196), h1]
    rw [sum_blocks (fun v => padW (argW m c) v * presK (argX m c) (rowIx (t.val / 196) l) v)]
    exact sum_padW_presK _ _ hx _
  rw [outsAt0_C m c t h0 h1]
  dsimp only
  refine (congrFun (out_C_5 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (blkX m c t) (blkE m c t) (blkWv m c t) (blkWe m c t) (blkB m c t) (outsAt0 m c (t.val - 1) (Nat.lt_of_le_of_lt (Nat.sub_le _ _) t.isLt)).2.1 (outsAt0 m c (t.val - 1) (Nat.lt_of_le_of_lt (Nat.sub_le _ _) t.isLt)).2.2) (ix2 0 l)).trans ?_
  rw [pay2_apply, hfinW, blkB_sem]
  unfold G logit
  refine congrArg Ideal.logistic (congrArg₂ (· + ·) (congrArg₂ (· + ·) ?_ rfl) rfl)
  refine Finset.sum_congr rfl (fun e _ => ?_)
  rw [blkWe_sem, hfinE]

end Cert.LogReg

end
-- ==== Proof.KernelValue.lean ====
/-
  From the output blocks to the kernel program's result.

  The output window's block for batch tile bt is written back only after the tile's last vocabulary block (the points
  t with t % 196 = 195); those eight blocks tile the 1 x 1024 output array. If each of them is the corresponding
  128 columns of one function Gc, transposed, the array ends holding that function, and the host's final transpose
  turns it into the 1024 x 1 result.
-/
import proofs.«431388_j63694365000268_1_alg».proof.Proof.Gen.KernelIdeal.Frame
import proofs.«431388_j63694365000268_1_alg».proof.Proof.KSpec
import Idealize.ShloMosaic.Lib.Pipeline.Value
import Idealize.ShloMosaic.Lib.StableHlo.Run

noncomputable section

namespace Cert.LogReg

open Idealize.ShloMosaic Idealize.ShloMosaic.ValueIdx Idealize.ShloMosaic.TcCoe Idealize.SL.Sem
open Cert.KernelIdeal Cert.KernelIdeal.Gen

/-- The 1 x 1024 output array holding a function of the batch row: column q holds the function at row q. -/
def out5_cols (G : S1024x1.Idx → EReal) : S1x1024.Idx → EReal := fun j => G (ix2 (j 1) 0)

/-- The output window's block index at point t: row block 0, column block t / 196 (the batch tile). -/
theorem out5_idx : ∀ t : Fin cfg0.N, win0_5.index t (0 : Fin 2) = 0 ∧ win0_5.index t (1 : Fin 2) = t.val / 196 :=
  (by decide +kernel : ∀ t : Fin grid0.N, win0_5.index t (0 : Fin 2) = 0 ∧ win0_5.index t (1 : Fin 2) = t.val / 196)

/-- What a flushing point writes back is its block of the output array's intended contents: at such a point
    (the last vocabulary block of batch tile t / 196) lane l of the staging buffer holds the function at row
    (t / 196) * 128 + l, which is the array column under that lane. -/
theorem out5_flushed_eq (m : (ℓ : Loc nD τ sig) → Buf (Elt Ideal) ℓ) (Gc : Dev nD → S1024x1.Idx → EReal)
    (hout : ∀ (c : Dev nD) (t : Fin cfg0.N), t.val % 196 = 195 → ∀ l : Fin 128,
      ((outsAt0 m c t.val t.isLt).1 : S1x128.Idx → EReal) (ix2 0 l) = Gc c (ix2 (rowIx (t.val / 196) l) 0))
    (c : Dev nD) (t : Fin cfg0.N) (hf : (cfg0.win 5).flush t = true) :
    (dats m 0 c).flushed 5 t = ((cfg0.win 5).blk t).view.read (Elt Ideal) (out5_cols (Gc c)) := by
  show (cfg0.win 5).cut (grid0.coords t) ((dats m 0 c).after 5 t) = _
  rw [after0_5]
  funext j
  show (outsAt0 m c t.val t.isLt).1 j = Gc c (ix2 ((((cfg0.win 5).blk t).view.emb j) 1) 0)
  have h195 : t.val % 196 = 195 := (flush0_5 t).mp hf
  have hN : t.val < 1568 := lt_of_lt_of_eq t.isLt (show cfg0.N = 1568 from N_0)
  obtain ⟨e0, e1⟩ := out5_idx t
  have hj : j = ix2 0 (j 1) := funext fun a => Fin.ext (by
    match a with
    | ⟨0, _⟩ => show (j 0).val = 0; have : (j 0).val < 1 := (j 0).isLt; omega
    | ⟨1, _⟩ => rfl)
  have key : (((cfg0.win 5).blk t).view.emb j) 1 = rowIx (t.val / 196) (j 1) := by
    apply Fin.ext
    show win0_5.index t (1 : Fin 2) * 128 + 1 * (j 1).val = (t.val / 196 * 128 + (j 1).val) % 1024
    have hl : (j 1).val < 128 := (j 1).isLt
    omega
  rw [key]
  exact (congrArg (outsAt0 m c t.val t.isLt).1 hj).trans (hout c t h195 (j 1))

/-- An index of the output array is in point t's block iff each coordinate is in the block's range on its axis. -/
theorem out5_mem_blk (t : Fin cfg0.N) (i : S1x1024.Idx) :
    i ∈ ((cfg0.win 5).blk t).view.set ↔ ∀ a : Fin 2, win0_5.index t a * S1x128.size a ≤ (i a).val ∧ (i a).val < win0_5.index t a * S1x128.size a + S1x128.size a := by
  show i ∈ ((View.whole main_v10).slice (win0_5.rect t)).set ↔ _
  rw [View.set_slice_whole, Rect.mem_set_unit]
  exact Iff.rfl

/-- The eight written-back blocks tile the output array: column q lies in the block of batch tile q / 128, which is
    written back at that tile's last vocabulary block, the point (q / 128) * 196 + 195. -/
theorem out5_cover (i : S1x1024.Idx) : ∃ t : Fin cfg0.N, (cfg0.win 5).flush t = true ∧ i ∈ ((cfg0.win 5).blk t).view.set := by
  have hi0 : (i 0).val < 1 := (i 0).isLt
  have hi1 : (i 1).val < 1024 := (i 1).isLt
  have hlt : (i 1).val / 128 * 196 + 195 < cfg0.N := by rw [show cfg0.N = 1568 from N_0]; omega
  refine ⟨⟨(i 1).val / 128 * 196 + 195, hlt⟩, (flush0_5 _).mpr (by show ((i 1).val / 128 * 196 + 195) % 196 = 195; omega), ?_⟩
  obtain ⟨e0, e1⟩ := out5_idx ⟨(i 1).val / 128 * 196 + 195, hlt⟩
  have e1' : win0_5.index ⟨(i 1).val / 128 * 196 + 195, hlt⟩ (1 : Fin 2) = (i 1).val / 128 := by
    rw [e1]; show ((i 1).val / 128 * 196 + 195) / 196 = (i 1).val / 128; omega
  rw [out5_mem_blk]
  intro a
  match a with
  | ⟨0, _⟩ =>
    show win0_5.index ⟨(i 1).val / 128 * 196 + 195, hlt⟩ (0 : Fin 2) * 1 ≤ (i 0).val ∧ (i 0).val < win0_5.index ⟨(i 1).val / 128 * 196 + 195, hlt⟩ (0 : Fin 2) * 1 + 1
    omega
  | ⟨1, _⟩ =>
    show win0_5.index ⟨(i 1).val / 128 * 196 + 195, hlt⟩ (1 : Fin 2) * 128 ≤ (i 1).val ∧ (i 1).val < win0_5.index ⟨(i 1).val / 128 * 196 + 195, hlt⟩ (1 : Fin 2) * 128 + 128
    omega

/-- The output array after the region: the function, column by column. -/
theorem out5_final (m : (ℓ : Loc nD τ sig) → Buf (Elt Ideal) ℓ) (Gc : Dev nD → S1024x1.Idx → EReal)
    (hout : ∀ (c : Dev nD) (t : Fin cfg0.N), t.val % 196 = 195 → ∀ l : Fin 128,
      ((outsAt0 m c t.val t.isLt).1 : S1x128.Idx → EReal) (ix2 0 l) = Gc c (ix2 (rowIx (t.val / 196) l) 0))
    (c : Dev nD) : (dats m 0 c).arrAt 5 cfg0.N = out5_cols (Gc c) :=
  (dats m 0 c).arrAt_eq_of_cover 5 (out5_cols (Gc c)) (fun t hf => out5_flushed_eq m Gc hout c t hf) out5_cover

/-- After the host's transpose the 1024 x 1 result holds the function: the region leaves the 1 x 1024 array holding
    it column by column, and the transpose reads entry (r, 0) from column r. -/
theorem out5_tail (m : (ℓ : Loc nD τ sig) → Buf (Elt Ideal) ℓ) (Gc : Dev nD → S1024x1.Idx → EReal)
    (hout : ∀ (c : Dev nD) (t : Fin cfg0.N), t.val % 196 = 195 → ∀ l : Fin 128,
      ((outsAt0 m c t.val t.isLt).1 : S1x128.Idx → EReal) (ix2 0 l) = Gc c (ix2 (rowIx (t.val / 196) l) 0))
    (c : Dev nD) : Pipeline.afterTail₀ cfgs (dats m) 0 (V0 m) [hostOps1] c main_v11 = Gc c := by
  unfold Pipeline.afterTail₀
  show StableHlo.after hostOps1 _ (Proc.devRef .tc main_v11) = _
  after_results
  rw [show Pipeline.withArrays (cfgs 0).spec c (V0 m c) (fun w => (dats m 0 c).arrAt w (cfgs 0).N) (Proc.devRef .tc main_v10) = out5_cols (Gc c) from
    (Pipeline.withArrays_arr spec0 launch0.win.arr_inj c _ _ 5).trans (out5_final m Gc hout c)]
  funext j
  rw [transpose_apply [1, 0] (out5_cols (Gc c)) transposes_S1x1024_S1024x1_1_0 j (ix2 0 (j 0)) (fun b => by
    match b with
    | ⟨0, _⟩ => rfl
    | ⟨1, _⟩ => show 0 = (j 1).val; have : (j 1).val < 1 := (j 1).isLt; omega)]
  show Gc c (ix2 (j 0) 0) = Gc c j
  congr 1
  funext a
  refine Fin.ext ?_
  match a with
  | ⟨0, _⟩ => rfl
  | ⟨1, _⟩ => show 0 = (j 1).val; have : (j 1).val < 1 := (j 1).isLt; omega

/-- The kernel program's run, given what the output block holds after each batch tile's last vocabulary block. -/
theorem kernel_run_of_out (m : (ℓ : Loc nD τ sig) → Buf (Elt Ideal) ℓ) (ρ : Dev nD → PrngReg)
    (Gc : Dev nD → S1024x1.Idx → EReal)
    (hout : ∀ (c : Dev nD) (t : Fin cfg0.N), t.val % 196 = 195 → ∀ l : Fin 128,
      ((outsAt0 m c t.val t.isLt).1 : S1x128.Idx → EReal) (ix2 0 l) = Gc c (ix2 (rowIx (t.val / 196) l) 0)) :
    θ_run (defs (F := Ideal)) (onTc (τ := τ) (main (F := Ideal))) ⟨m, fun _ => 0, ρ⟩ (fun r => ∀ c : Dev nD,
      r.2.mem ((c.tc : Thread nD τ).loc main_v11) = Gc c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_v11 (Pipeline.mem_restRefs_of main_v11 (by decide) (by decide))).trans (out5_tail m Gc hout c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.LogReg

end
-- ==== Proof.lean ====
/- The proof of `Cert.Claim` for a logistic regression over the concatenation of a mean embedding and a presence vector.

   For tokens x (1024 rows of 200 positions), an embedding table, a weight row and a bias, both programs compute, for
   every batch row i, the sigmoid of

     sum over e of W[e] * (mean over s of table[x[i, s], e]) + sum over v of W[300 + v] * [v occurs in row i] + b.

   The reference indexes: it gathers the rows x[i, s] of the table, averages them (a division by 200), scatters ones to
   mark the tokens that occur, and multiplies the concatenated features by the weight column. The kernel never indexes:
   on an 8 x 196 grid (batch tile by vocabulary block) it compares the tile's tokens with the block's 256 ids, position
   by position, counts the matches, and accumulates (table block) x counts and (weight block) x (count is positive) over
   the tile's vocabulary blocks; after the last block it multiplies the table accumulator by the named constant 1/200,
   forms the logit and stores its sigmoid. The two agree when every token is a valid row number of the table (then
   each token is met by exactly one id and by no padding id) and the float inputs are finite (the product distributes
   over the count): that is the precondition, decoded in PreFacts.

   The modules: Spec (the common function G and the counting quantities), Laws (the three sums that join counting to
   indexing), RefIndex and RefValue (the reference's stages read to G; RefRun and RefRead are the reference's run and its
   stage-by-stage reading), KDefs (the body's counting as a recurrence), Pieces (what each case of the body leaves in the
   accumulators and the output block), BlockIdx (those at an index), HostArrays and BlockReads (the windows' arrays and
   blocks through the arguments), Invariant (the accumulators after every grid point, and the output block after a tile's
   last vocabulary block), KernelValue (from the output blocks to the program's result). Here they are assembled:
   the three frames, the one named constant's statement, and the two runs ending at the same G. -/
import proofs.«431388_j63694365000268_1_alg».proof.Defs
import proofs.«431388_j63694365000268_1_alg».proof.Proof.Gen.Kernel
import proofs.«431388_j63694365000268_1_alg».proof.Proof.Gen.Kernel.Skeleton
import proofs.«431388_j63694365000268_1_alg».proof.Proof.Gen.Kernel.Launch
import proofs.«431388_j63694365000268_1_alg».proof.Proof.Gen.Kernel.Points
import proofs.«431388_j63694365000268_1_alg».proof.Proof.Gen.Kernel.Frame
import proofs.«431388_j63694365000268_1_alg».proof.Proof.Gen.KernelIdeal
import proofs.«431388_j63694365000268_1_alg».proof.Proof.Gen.KernelIdeal.Skeleton
import proofs.«431388_j63694365000268_1_alg».proof.Proof.Gen.KernelIdeal.Launch
import proofs.«431388_j63694365000268_1_alg».proof.Proof.Gen.KernelIdeal.Points
import proofs.«431388_j63694365000268_1_alg».proof.Proof.Gen.KernelIdeal.Frame
import proofs.«431388_j63694365000268_1_alg».proof.Proof.Gen.ReferenceIdeal
import proofs.«431388_j63694365000268_1_alg».proof.Proof.Gen.Pre_finite_inputs
import proofs.«431388_j63694365000268_1_alg».proof.Proof.RefRun
import proofs.«431388_j63694365000268_1_alg».proof.Proof.RefRead
import proofs.«431388_j63694365000268_1_alg».proof.Proof.RefValue
import proofs.«431388_j63694365000268_1_alg».proof.Proof.PreFacts
import proofs.«431388_j63694365000268_1_alg».proof.Proof.Invariant
import proofs.«431388_j63694365000268_1_alg».proof.Proof.KernelValue
import Idealize.ShloMosaic.Adequacy
import Idealize.ShloMosaic.Init

noncomputable section

namespace Cert.Proof

open Idealize.ShloMosaic Idealize.SL.Sem Cert.LogReg

/-- The word-level kernel runs and leaves its arguments as they were. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference's run, with its result dropped, is its frame. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The one rewrite of the idealization: the constant the kernel multiplies the summed embeddings by is named 1/200. -/
theorem preserves : Cert.preserves_Kernel_KernelIdeal :=
  IdealRules.named_const.statement Cert.KernelIdeal.κ "inv_200" .f32 0x3BA3D70A#32 ((1 / 200 : ℝ) : EReal) rfl

/-- From memories that agree on the four arguments, of which the precondition holds, both programs end with the
    result column G of the arguments. -/
theorem algebraic : Cert.algebraic_KernelIdeal_ReferenceIdeal := by
  intro m ρ m' ρ' hpre hagree
  have hdec : ∀ c, InRange (argX m c) ∧ Finite (argE m c) ∧ Finite (argW m c) ∧ Finite (argB m c) :=
    fun c => pre_decode _ _ _ _ (hpre c)
  refine ⟨fun c => G (argX m c) (argE m c) (argW m c) (argB m c), ?_, ?_⟩
  · exact kernel_run_of_out m ρ _ (fun c t h1 l => out_at_C m c (hdec c).1 (hdec c).2.1 t h1 l)
  · refine (θ_run Cert.ReferenceIdeal.defs _ _).mono (fun _ h c => ⟨(h c).1.trans ?_, (h c).2⟩)
      (Cert.ReferenceIdeal.Value.run (F := Ideal) m' ρ')
    rw [(hagree c).1, (hagree c).2.1, (hagree c).2.2.1, (hagree c).2.2.2]
    exact (Cert.ReferenceIdeal.Read.val_main_v40_eq _ _ _ _).trans (ref_eq_G _ _ _ _ (hdec c).1)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
